-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S50000x3x3 : Shape := ⟨3, ![50000, 3, 3]⟩
abbrev S50000x16x16 : Shape := ⟨3, ![50000, 16, 16]⟩
abbrev S256x256 : Shape := ⟨2, ![256, 256]⟩
abbrev S256 : Shape := ⟨1, ![256]⟩
abbrev S192x192 : Shape := ⟨2, ![192, 192]⟩
abbrev S128x128 : Shape := ⟨2, ![128, 128]⟩
abbrev S64x64 : Shape := ⟨2, ![64, 64]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S50000x3x3 : S_.BroadcastsInDim S50000x3x3 (![] : Fin 0 → Fin S50000x3x3.rank)
  reducesTo_S50000x3x3_S_d0_1_2 : S50000x3x3.ReducesTo [0, 1, 2] S_
  bcast_S_S50000x16x16 : S_.BroadcastsInDim S50000x16x16 (![] : Fin 0 → Fin S50000x16x16.rank)
  reducesTo_S50000x16x16_S_d0_1_2 : S50000x16x16.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S192x192 : S_.BroadcastsInDim S192x192 (![] : Fin 0 → Fin S192x192.rank)
  reducesTo_S192x192_S_d0_1 : S192x192.ReducesTo [0, 1] S_
  bcast_S_S128x128 : S_.BroadcastsInDim S128x128 (![] : Fin 0 → Fin S128x128.rank)
  reducesTo_S128x128_S_d0_1 : S128x128.ReducesTo [0, 1] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  main_v38

def fn_part1 {F : FTy → Type} [FloatOps F] (main_arg4 : FVec F S256 .f32) (main_arg5 : FVec F S192x192 .f32) (main_arg6 : FVec F S128x128 .f32) (main_arg7 : FVec F S64x64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S192x192 .f32 := Host.absf main_arg5
  let main_cst_8 : FVec F S_ .f32 := constant S_ .f32 0x7F800000#32
  let main_v25 : FVec F S192x192 .f32 := broadcastInDim S192x192 ![] bcast_S_S192x192 main_cst_8
  let main_v26 : IVec S192x192 1 := cmpf .olt main_v24 main_v25
  let main_c_9 : IVec S_ 1 := constantI S_ 1 1#1
  let main_v27 : IVec S_ 1 := (fun x v => Host.reduce IntOp.andi x v reducesTo_S192x192_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S50000x1024 .f32) (main_arg1 : FVec F S50000x3x3 .f32) (main_arg2 : FVec F S50000x16x16 .f32) (main_arg3 : FVec F S256x256 .f32) (main_arg4 : FVec F S256 .f32) (main_arg5 : FVec F S192x192 .f32) (main_arg6 : FVec F S128x128 .f32) (main_arg7 : FVec F S64x64 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S50000x3x3 .f32 := Host.absf main_arg1
  let main_cst_0 : FVec F S_ .f32 := constant S_ .f32 0x7F800000#32
  let main_v5 : FVec F S50000x3x3 .f32 := broadcastInDim S50000x3x3 ![] bcast_S_S50000x3x3 main_cst_0
  let main_v6 : IVec S50000x3x3 1 := cmpf .olt main_v4 main_v5
  let main_c_1 : IVec S_ 1 := constantI S_ 1 1#1
  let main_v7 : IVec S_ 1 := (fun x v => Host.reduce IntOp.andi x v reducesTo_S50000x3x3_S_d0_1_2 h_S_) main_v6 main_c_1
  let main_v8 : IVec S_ 1 := andi main_v3 main_v7
  let main_v9 : FVec F S50000x16x16 .f32 := Host.absf main_arg2
  let main_cst_2 : FVec F S_ .f32 := constant S_ .f32 0x7F800000#32
  let main_v10 : FVec F S50000x16x16 .f32 := broadcastInDim S50000x16x16 ![] bcast_S_S50000x16x16 main_cst_2
  let main_v11 : IVec S50000x16x16 1 := cmpf .olt main_v9 main_v10
  let main_c_3 : IVec S_ 1 := constantI S_ 1 1#1
  let main_v12 : IVec S_ 1 := (fun x v => Host.reduce IntOp.andi x v reducesTo_S50000x16x16_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S50000x1024 : Shape := ⟨2, ![50000, 1024]⟩
abbrev S50000x3x3 : Shape := ⟨3, ![50000, 3, 3]⟩
abbrev S50000x16x16 : Shape := ⟨3, ![50000, 16, 16]⟩
abbrev S256x256 : Shape := ⟨2, ![256, 256]⟩
abbrev S256 : Shape := ⟨1, ![256]⟩
abbrev S192x192 : Shape := ⟨2, ![192, 192]⟩
abbrev S128x128 : Shape := ⟨2, ![128, 128]⟩
abbrev S64x64 : Shape := ⟨2, ![64, 64]⟩
abbrev S400x1024 : Shape := ⟨2, ![400, 1024]⟩
abbrev S400x16x16 : Shape := ⟨3, ![400, 16, 16]⟩
abbrev S400x64 : Shape := ⟨2, ![400, 64]⟩
abbrev S400x64x1 : Shape := ⟨3, ![400, 64, 1]⟩
abbrev S400x192 : Shape := ⟨2, ![400, 192]⟩
abbrev S400x64x3 : Shape := ⟨3, ![400, 64, 3]⟩
abbrev S400x3x3 : Shape := ⟨3, ![400, 3, 3]⟩
abbrev S400x1x1 : Shape := ⟨3, ![400, 1, 1]⟩
abbrev S400 : Shape := ⟨1, ![400]⟩
abbrev S400x1 : Shape := ⟨2, ![400, 1]⟩
abbrev S400x320 : Shape := ⟨2, ![400, 320]⟩
abbrev S400x64x5 : Shape := ⟨3, ![400, 64, 5]⟩
abbrev S400x5x5 : Shape := ⟨3, ![400, 5, 5]⟩
abbrev S400x448 : Shape := ⟨2, ![400, 448]⟩
abbrev S400x64x7 : Shape := ⟨3, ![400, 64, 7]⟩
abbrev S400x7x7 : Shape := ⟨3, ![400, 7, 7]⟩
abbrev S400x256 : Shape := ⟨2, ![400, 256]⟩
abbrev S1x256 : Shape := ⟨2, ![1, 256]⟩
abbrev S400x1x192 : Shape := ⟨3, ![400, 1, 192]⟩
abbrev S400x2x192 : Shape := ⟨3, ![400, 2, 192]⟩
abbrev S800x192 : Shape := ⟨2, ![800, 192]⟩
abbrev S400x128 : Shape := ⟨2, ![400, 128]⟩
abbrev S400x1x128 : Shape := ⟨3, ![400, 1, 128]⟩
abbrev S400x2x128 : Shape := ⟨3, ![400, 2, 128]⟩
abbrev S800x128 : Shape := ⟨2, ![800, 128]⟩
abbrev S400x1x64 : Shape := ⟨3, ![400, 1, 64]⟩
abbrev S400x2x64 : Shape := ⟨3, ![400, 2, 64]⟩
abbrev S800x64 : Shape := ⟨2, ![800, 64]⟩

abbrev nBuf : Space → Nat
  | .hbm => 9
  | .vmem => 11
  | .smem => 0
  | _ => 0

abbrev bufTy : (tb : Table) → Fin (tcTables nBuf tb) → BufTy
  | .hbm, ⟨0, _⟩ => ⟨S50000x1024, .f32⟩
  | .hbm, ⟨1, _⟩ => ⟨S50000x3x3, .f32⟩
  | .hbm, ⟨2, _⟩ => ⟨S50000x16x16, .f32⟩
  | .hbm, ⟨3, _⟩ => ⟨S256x256, .f32⟩
  | .hbm, ⟨4, _⟩ => ⟨S256, .f32⟩
  | .hbm, ⟨5, _⟩ => ⟨S192x192, .f32⟩
  | .hbm, ⟨6, _⟩ => ⟨S128x128, .f32⟩
  | .hbm, ⟨7, _⟩ => ⟨S64x64, .f32⟩
  | .hbm, ⟨8, _⟩ => ⟨S50000x1024, .f32⟩
  | .local _ .vmem, ⟨0, _⟩ => ⟨S400x1024, .f32⟩
  | .local _ .vmem, ⟨1, _⟩ => ⟨S400x1024, .f32⟩
  | .local _ .vmem, ⟨2, _⟩ => ⟨S400x16x16, .f32⟩
  | .local _ .vmem, ⟨3, _⟩ => ⟨S400x16x16, .f32⟩
  | .local _ .vmem, ⟨4, _⟩ => ⟨S256x256, .f32⟩
  | .local _ .vmem, ⟨5, _⟩ => ⟨S256, .f32⟩
  | .local _ .vmem, ⟨6, _⟩ => ⟨S192x192, .f32⟩
  | .local _ .vmem, ⟨7, _⟩ => ⟨S128x128, .f32⟩
  | .local _ .vmem, ⟨8, _⟩ => ⟨S64x64, .f32⟩
  | .local _ .vmem, ⟨9, _⟩ => ⟨S400x1024, .f32⟩
  | .local _ .vmem, ⟨10, _⟩ => ⟨S400x1024, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S400x1024_S400x1024_0_0 : ∀ a, (![0, 0] : Fin 2 → Nat) a + S400x1024.size a ≤ S400x1024.size a
  h_S400x1024 : 0 < S400x1024.numel
  inb_S400x16x16_S400x16x16_0_0_0 : ∀ a, (![0, 0, 0] : Fin 3 → Nat) a + S400x16x16.size a ≤ S400x16x16.size a
  h_S400x16x16 : 0 < S400x16x16.numel
  slices_S400x1024_o0_0_S400x64 : S400x1024.Slices ![0, 0] S400x64
  shapeCasts_S400x64_S400x64x1 : S400x64.ShapeCasts S400x64x1
  slices_S400x1024_o0_64_S400x192 : S400x1024.Slices ![0, 64] S400x192
  shapeCasts_S400x192_S400x64x3 : S400x192.ShapeCasts S400x64x3
  slices_S400x16x16_o0_1_1_S400x3x3 : S400x16x16.Slices ![0, 1, 1] S400x3x3
  slices_S400x3x3_o0_0_0_S400x1x1 : S400x3x3.Slices ![0, 0, 0] S400x1x1
  shapeCasts_S400x1x1_S400 : S400x1x1.ShapeCasts S400
  slices_S400x64x3_o0_0_0_S400x64x1 : S400x64x3.Slices ![0, 0, 0] S400x64x1
  shapeCasts_S400x64x1_S400x64 : S400x64x1.ShapeCasts S400x64
  shapeCasts_S400_S400x1 : S400.ShapeCasts S400x1
  broadcasts_S400x1_S400x64 : S400x1.Broadcasts S400x64
  slices_S400x3x3_o0_1_0_S400x1x1 : S400x3x3.Slices ![0, 1, 0] S400x1x1
  slices_S400x64x3_o0_0_1_S400x64x1 : S400x64x3.Slices ![0, 0, 1] S400x64x1
  slices_S400x3x3_o0_2_0_S400x1x1 : S400x3x3.Slices ![0, 2, 0] S400x1x1
  slices_S400x64x3_o0_0_2_S400x64x1 : S400x64x3.Slices ![0, 0, 2] S400x64x1
  slices_S400x3x3_o0_0_1_S400x1x1 : S400x3x3.Slices ![0, 0, 1] S400x1x1
  slices_S400x3x3_o0_1_1_S400x1x1 : S400x3x3.Slices ![0, 1, 1] S400x1x1
  slices_S400x3x3_o0_2_1_S400x1x1 : S400x3x3.Slices ![0, 2, 1] S400x1x1
  slices_S400x3x3_o0_0_2_S400x1x1 : S400x3x3.Slices ![0, 0, 2] S400x1x1
  slices_S400x3x3_o0_1_2_S400x1x1 : S400x3x3.Slices ![0, 1, 2] S400x1x1
  slices_S400x3x3_o0_2_2_S400x1x1 : S400x3x3.Slices ![0, 2, 2] S400x1x1
  concatenates_S400x64x1_S400x64x1_S400x64x1_S400x64x3_d2 : Shape.Concatenates [S400x64x1, S400x64x1, S400x64x1] S400x64x3 2
  slices_S400x1024_o0_256_S400x320 : S400x1024.Slices ![0, 256] S400x320
  shapeCasts_S400x320_S400x64x5 : S400x320.ShapeCasts S400x64x5
  slices_S400x16x16_o0_4_4_S400x5x5 : S400x16x16.Slices ![0, 4, 4] S400x5x5
  slices_S400x5x5_o0_0_0_S400x1x1 : S400x5x5.Slices ![0, 0, 0] S400x1x1
  slices_S400x64x5_o0_0_0_S400x64x1 : S400x64x5.Slices ![0, 0, 0] S400x64x1
  slices_S400x5x5_o0_1_0_S400x1x1 : S400x5x5.Slices ![0, 1, 0] S400x1x1
  slices_S400x64x5_o0_0_1_S400x64x1 : S400x64x5.Slices ![0, 0, 1] S400x64x1
  slices_S400x5x5_o0_2_0_S400x1x1 : S400x5x5.Slices ![0, 2, 0] S400x1x1
  slices_S400x64x5_o0_0_2_S400x64x1 : S400x64x5.Slices ![0, 0, 2] S400x64x1
  slices_S400x5x5_o0_3_0_S400x1x1 : S400x5x5.Slices ![0, 3, 0] S400x1x1
  slices_S400x64x5_o0_0_3_S400x64x1 : S400x64x5.Slices ![0, 0, 3] S400x64x1
  slices_S400x5x5_o0_4_0_S400x1x1 : S400x5x5.Slices ![0, 4, 0] S400x1x1
  slices_S400x64x5_o0_0_4_S400x64x1 : S400x64x5.Slices ![0, 0, 4] S400x64x1
  slices_S400x5x5_o0_0_1_S400x1x1 : S400x5x5.Slices ![0, 0, 1] S400x1x1
  slices_S400x5x5_o0_1_1_S400x1x1 : S400x5x5.Slices ![0, 1, 1] S400x1x1
  slices_S400x5x5_o0_2_1_S400x1x1 : S400x5x5.Slices ![0, 2, 1] S400x1x1
  slices_S400x5x5_o0_3_1_S400x1x1 : S400x5x5.Slices ![0, 3, 1] S400x1x1
  slices_S400x5x5_o0_4_1_S400x1x1 : S400x5x5.Slices ![0, 4, 1] S400x1x1
  slices_S400x5x5_o0_0_2_S400x1x1 : S400x5x5.Slices ![0, 0, 2] S400x1x1
  slices_S400x5x5_o0_1_2_S400x1x1 : S400x5x5.Slices ![0, 1, 2] S400x1x1
  slices_S400x5x5_o0_2_2_S400x1x1 : S400x5x5.Slices ![0, 2, 2] S400x1x1
  slices_S400x5x5_o0_3_2_S400x1x1 : S400x5x5.Slices ![0, 3, 2] S400x1x1
  slices_S400x5x5_o0_4_2_S400x1x1 : S400x5x5.Slices ![0, 4, 2] S400x1x1
  slices_S400x5x5_o0_0_3_S400x1x1 : S400x5x5.Slices ![0, 0, 3] S400x1x1
  slices_S400x5x5_o0_1_3_S400x1x1 : S400x5x5.Slices ![0, 1, 3] S400x1x1
  slices_S400x5x5_o0_2_3_S400x1x1 : S400x5x5.Slices ![0, 2, 3] S400x1x1
  slices_S400x5x5_o0_3_3_S400x1x1 : S400x5x5.Slices ![0, 3, 3] S400x1x1
  slices_S400x5x5_o0_4_3_S400x1x1 : S400x5x5.Slices ![0, 4, 3] S400x1x1
  slices_S400x5x5_o0_0_4_S400x1x1 : S400x5x5.Slices ![0, 0, 4] S400x1x1
  slices_S400x5x5_o0_1_4_S400x1x1 : S400x5x5.Slices ![0, 1, 4] S400x1x1
  slices_S400x5x5_o0_2_4_S400x1x1 : S400x5x5.Slices ![0, 2, 4] S400x1x1
  slices_S400x5x5_o0_3_4_S400x1x1 : S400x5x5.Slices ![0, 3, 4] S400x1x1
  slices_S400x5x5_o0_4_4_S400x1x1 : S400x5x5.Slices ![0, 4, 4] S400x1x1
  concatenates_S400x64x1_S400x64x1_S400x64x1_S400x64x1_S400x64x1_S400x64x5_d2 : Shape.Concatenates [S400x64x1, S400x64x1, S400x64x1, S400x64x1, S400x64x1] S400x64x5 2
  slices_S400x1024_o0_576_S400x448 : S400x1024.Slices ![0, 576] S400x448
  shapeCasts_S400x448_S400x64x7 : S400x448.ShapeCasts S400x64x7
  slices_S400x16x16_o0_9_9_S400x7x7 : S400x16x16.Slices ![0, 9, 9] S400x7x7
  slices_S400x7x7_o0_0_0_S400x1x1 : S400x7x7.Slices ![0, 0, 0] S400x1x1
  slices_S400x64x7_o0_0_0_S400x64x1 : S400x64x7.Slices ![0, 0, 0] S400x64x1
  slices_S400x7x7_o0_1_0_S400x1x1 : S400x7x7.Slices ![0, 1, 0] S400x1x1
  slices_S400x64x7_o0_0_1_S400x64x1 : S400x64x7.Slices ![0, 0, 1] S400x64x1
  slices_S400x7x7_o0_2_0_S400x1x1 : S400x7x7.Slices ![0, 2, 0] S400x1x1
  slices_S400x64x7_o0_0_2_S400x64x1 : S400x64x7.Slices ![0, 0, 2] S400x64x1
  slices_S400x7x7_o0_3_0_S400x1x1 : S400x7x7.Slices ![0, 3, 0] S400x1x1
  slices_S400x64x7_o0_0_3_S400x64x1 : S400x64x7.Slices ![0, 0, 3] S400x64x1
  slices_S400x7x7_o0_4_0_S400x1x1 : S400x7x7.Slices ![0, 4, 0] S400x1x1
  slices_S400x64x7_o0_0_4_S400x64x1 : S400x64x7.Slices ![0, 0, 4] S400x64x1
  slices_S400x7x7_o0_5_0_S400x1x1 : S400x7x7.Slices ![0, 5, 0] S400x1x1
  slices_S400x64x7_o0_0_5_S400x64x1 : S400x64x7.Slices ![0, 0, 5] S400x64x1
  slices_S400x7x7_o0_6_0_S400x1x1 : S400x7x7.Slices ![0, 6, 0] S400x1x1
  slices_S400x64x7_o0_0_6_S400x64x1 : S400x64x7.Slices ![0, 0, 6] S400x64x1
  slices_S400x7x7_o0_0_1_S400x1x1 : S400x7x7.Slices ![0, 0, 1] S400x1x1
  slices_S400x7x7_o0_1_1_S400x1x1 : S400x7x7.Slices ![0, 1, 1] S400x1x1
  slices_S400x7x7_o0_2_1_S400x1x1 : S400x7x7.Slices ![0, 2, 1] S400x1x1
  slices_S400x7x7_o0_3_1_S400x1x1 : S400x7x7.Slices ![0, 3, 1] S400x1x1
  slices_S400x7x7_o0_4_1_S400x1x1 : S400x7x7.Slices ![0, 4, 1] S400x1x1
  slices_S400x7x7_o0_5_1_S400x1x1 : S400x7x7.Slices ![0, 5, 1] S400x1x1
  slices_S400x7x7_o0_6_1_S400x1x1 : S400x7x7.Slices ![0, 6, 1] S400x1x1
  slices_S400x7x7_o0_0_2_S400x1x1 : S400x7x7.Slices ![0, 0, 2] S400x1x1
  slices_S400x7x7_o0_1_2_S400x1x1 : S400x7x7.Slices ![0, 1, 2] S400x1x1
  slices_S400x7x7_o0_2_2_S400x1x1 : S400x7x7.Slices ![0, 2, 2] S400x1x1
  slices_S400x7x7_o0_3_2_S400x1x1 : S400x7x7.Slices ![0, 3, 2] S400x1x1
  slices_S400x7x7_o0_4_2_S400x1x1 : S400x7x7.Slices ![0, 4, 2] S400x1x1
  slices_S400x7x7_o0_5_2_S400x1x1 : S400x7x7.Slices ![0, 5, 2] S400x1x1
  slices_S400x7x7_o0_6_2_S400x1x1 : S400x7x7.Slices ![0, 6, 2] S400x1x1
  slices_S400x7x7_o0_0_3_S400x1x1 : S400x7x7.Slices ![0, 0, 3] S400x1x1
  slices_S400x7x7_o0_1_3_S400x1x1 : S400x7x7.Slices ![0, 1, 3] S400x1x1
  slices_S400x7x7_o0_2_3_S400x1x1 : S400x7x7.Slices ![0, 2, 3] S400x1x1
  slices_S400x7x7_o0_3_3_S400x1x1 : S400x7x7.Slices ![0, 3, 3] S400x1x1
  slices_S400x7x7_o0_4_3_S400x1x1 : S400x7x7.Slices ![0, 4, 3] S400x1x1
  slices_S400x7x7_o0_5_3_S400x1x1 : S400x7x7.Slices ![0, 5, 3] S400x1x1
  slices_S400x7x7_o0_6_3_S400x1x1 : S400x7x7.Slices ![0, 6, 3] S400x1x1
  slices_S400x7x7_o0_0_4_S400x1x1 : S400x7x7.Slices ![0, 0, 4] S400x1x1
  slices_S400x7x7_o0_1_4_S400x1x1 : S400x7x7.Slices ![0, 1, 4] S400x1x1
  slices_S400x7x7_o0_2_4_S400x1x1 : S400x7x7.Slices ![0, 2, 4] S400x1x1
  slices_S400x7x7_o0_3_4_S400x1x1 : S400x7x7.Slices ![0, 3, 4] S400x1x1
  slices_S400x7x7_o0_4_4_S400x1x1 : S400x7x7.Slices ![0, 4, 4] S400x1x1
  slices_S400x7x7_o0_5_4_S400x1x1 : S400x7x7.Slices ![0, 5, 4] S400x1x1
  slices_S400x7x7_o0_6_4_S400x1x1 : S400x7x7.Slices ![0, 6, 4] S400x1x1
  slices_S400x7x7_o0_0_5_S400x1x1 : S400x7x7.Slices ![0, 0, 5] S400x1x1
  slices_S400x7x7_o0_1_5_S400x1x1 : S400x7x7.Slices ![0, 1, 5] S400x1x1
  slices_S400x7x7_o0_2_5_S400x1x1 : S400x7x7.Slices ![0, 2, 5] S400x1x1
  slices_S400x7x7_o0_3_5_S400x1x1 : S400x7x7.Slices ![0, 3, 5] S400x1x1
  slices_S400x7x7_o0_4_5_S400x1x1 : S400x7x7.Slices ![0, 4, 5] S400x1x1
  slices_S400x7x7_o0_5_5_S400x1x1 : S400x7x7.Slices ![0, 5, 5] S400x1x1
  slices_S400x7x7_o0_6_5_S400x1x1 : S400x7x7.Slices ![0, 6, 5] S400x1x1
  slices_S400x7x7_o0_0_6_S400x1x1 : S400x7x7.Slices ![0, 0, 6] S400x1x1
  slices_S400x7x7_o0_1_6_S400x1x1 : S400x7x7.Slices ![0, 1, 6] S400x1x1
  slices_S400x7x7_o0_2_6_S400x1x1 : S400x7x7.Slices ![0, 2, 6] S400x1x1
  slices_S400x7x7_o0_3_6_S400x1x1 : S400x7x7.Slices ![0, 3, 6] S400x1x1
  slices_S400x7x7_o0_4_6_S400x1x1 : S400x7x7.Slices ![0, 4, 6] S400x1x1
  slices_S400x7x7_o0_5_6_S400x1x1 : S400x7x7.Slices ![0, 5, 6] S400x1x1
  slices_S400x7x7_o0_6_6_S400x1x1 : S400x7x7.Slices ![0, 6, 6] S400x1x1
  concatenates_S400x64x1_S400x64x1_S400x64x1_S400x64x1_S400x64x1_S400x64x1_S400x64x1_S400x64x7_d2 : Shape.Concatenates [S400x64x1, S400x64x1, S400x64x1, S400x64x1, S400x64x1, S400x64x1, S400x64x1] S400x64x7 2
  concatenates_S400x64_S400x64_S400x64_S400x64_S400x256_d1 : Shape.Concatenates [S400x64, S400x64, S400x64, S400x64] S400x256 1
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  transposes_S256x256_p1_0_S256x256 : S256x256.Transposes [1, 0] S256x256
  inb_S256_S256_0 : ∀ a, (![0] : Fin 1 → Nat) a + S256.size a ≤ S256.size a
  h_S256 : 0 < S256.numel
  shapeCasts_S256_S1x256 : S256.ShapeCasts S1x256
  broadcasts_S1x256_S400x256 : S1x256.Broadcasts S400x256
  concatenates_S400x64_S400x64_S400x64_S400x192_d1 : Shape.Concatenates [S400x64, S400x64, S400x64] S400x192 1
  shapeCasts_S400x192_S400x1x192 : S400x192.ShapeCasts S400x1x192
  concatenates_S400x1x192_S400x1x192_S400x2x192_d1 : Shape.Concatenates [S400x1x192, S400x1x192] S400x2x192 1
  shapeCasts_S400x2x192_S800x192 : S400x2x192.ShapeCasts S800x192
  inb_S192x192_S192x192_0_0 : ∀ a, (![0, 0] : Fin 2 → Nat) a + S192x192.size a ≤ S192x192.size a
  h_S192x192 : 0 < S192x192.numel
  transposes_S192x192_p1_0_S192x192 : S192x192.Transposes [1, 0] S192x192
  shapeCasts_S800x192_S400x2x192 : S800x192.ShapeCasts S400x2x192
  concatenates_S400x64_S400x64_S400x128_d1 : Shape.Concatenates [S400x64, S400x64] S400x128 1
  shapeCasts_S400x128_S400x1x128 : S400x128.ShapeCasts S400x1x128
  concatenates_S400x1x128_S400x1x128_S400x2x128_d1 : Shape.Concatenates [S400x1x128, S400x1x128] S400x2x128 1
  shapeCasts_S400x2x128_S800x128 : S400x2x128.ShapeCasts S800x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S800x128_S400x2x128 : S800x128.ShapeCasts S400x2x128
  shapeCasts_S400x64_S400x1x64 : S400x64.ShapeCasts S400x1x64
  concatenates_S400x1x64_S400x1x64_S400x2x64_d1 : Shape.Concatenates [S400x1x64, S400x1x64] S400x2x64 1
  shapeCasts_S400x2x64_S800x64 : S400x2x64.ShapeCasts S800x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S800x64_S400x2x64 : S800x64.ShapeCasts S400x2x64
  slices_S400x256_o0_0_S400x64 : S400x256.Slices ![0, 0] S400x64
  slices_S400x256_o0_64_S400x64 : S400x256.Slices ![0, 64] S400x64
  slices_S400x2x192_o0_0_0_S400x1x64 : S400x2x192.Slices ![0, 0, 0] S400x1x64
  shapeCasts_S400x1x64_S400x64 : S400x1x64.ShapeCasts S400x64
  slices_S400x2x192_o0_1_0_S400x1x64 : S400x2x192.Slices ![0, 1, 0] S400x1x64
  shapeCasts_S400x64x3_S400x192 : S400x64x3.ShapeCasts S400x192
  slices_S400x256_o0_128_S400x64 : S400x256.Slices ![0, 128] S400x64
  slices_S400x2x192_o0_0_64_S400x1x64 : S400x2x192.Slices ![0, 0, 64] S400x1x64
  slices_S400x2x192_o0_1_64_S400x1x64 : S400x2x192.Slices ![0, 1, 64] S400x1x64
  slices_S400x2x128_o0_0_0_S400x1x64 : S400x2x128.Slices ![0, 0, 0] S400x1x64
  slices_S400x2x128_o0_1_0_S400x1x64 : S400x2x128.Slices ![0, 1, 0] S400x1x64
  shapeCasts_S400x64x5_S400x320 : S400x64x5.ShapeCasts S400x320
  slices_S400x256_o0_192_S400x64 : S400x256.Slices ![0, 192] S400x64
  slices_S400x2x192_o0_0_128_S400x1x64 : S400x2x192.Slices ![0, 0, 128] S400x1x64
  slices_S400x2x192_o0_1_128_S400x1x64 : S400x2x192.Slices ![0, 1, 128] S400x1x64
  slices_S400x2x128_o0_0_64_S400x1x64 : S400x2x128.Slices ![0, 0, 64] S400x1x64
  slices_S400x2x128_o0_1_64_S400x1x64 : S400x2x128.Slices ![0, 1, 64] S400x1x64
  slices_S400x2x64_o0_0_0_S400x1x64 : S400x2x64.Slices ![0, 0, 0] S400x1x64
  slices_S400x2x64_o0_1_0_S400x1x64 : S400x2x64.Slices ![0, 1, 0] S400x1x64
  shapeCasts_S400x64x7_S400x448 : S400x64x7.ShapeCasts S400x448
  concatenates_S400x64_S400x192_S400x320_S400x448_S400x1024_d1 : Shape.Concatenates [S400x64, S400x192, S400x320, S400x448] S400x1024 1
  dot_S400x256_S256x256_S400x256_1_0_0_1_n_n_wf : DotDims.WF S400x256 S256x256 S400x256 [1] [0] [0] [1] [] []
  dot_S800x192_S192x192_S800x192_1_0_0_1_n_n_wf : DotDims.WF S800x192 S192x192 S800x192 [1] [0] [0] [1] [] []
  dot_S800x128_S128x128_S800x128_1_0_0_1_n_n_wf : DotDims.WF S800x128 S128x128 S800x128 [1] [0] [0] [1] [] []
  dot_S800x64_S64x64_S800x64_1_0_0_1_n_n_wf : DotDims.WF S800x64 S64x64 S800x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1024.size a ≤ S50000x1024.size a
  hwx0_0 : ∀ i : grid0.Coords, EltTy.bits .f32 = 32 ∨ (Rect.block (s := S50000x1024) S400x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x16x16.size a ≤ S50000x16x16.size a
  hwx0_1 : ∀ i : grid0.Coords, EltTy.bits .f32 = 32 ∨ (Rect.block (s := S50000x16x16) S400x16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x192.size a ≤ S192x192.size a
  hwx0_4 : ∀ i : grid0.Coords, EltTy.bits .f32 = 32 ∨ (Rect.block (s := S192x192) S192x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x1024.size a ≤ S50000x1024.size a
  hwx0_7 : ∀ i : grid0.Coords, EltTy.bits .f32 = 32 ∨ (Rect.block (s := S50000x1024) S400x1024.size (cc0_transform_7 i) (hinb0_7 i)).WholeWords (EltTy.packing .f32)

variable [Facts₀]

def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S800x192_S192x192_S800x192_1_0_0_1_n_n : DotDims S800x192 S192x192 S800x192 where
  lhsContracting := [1]
  rhsContracting := [0]
  lhsNonContracting := [0]
  rhsNonContracting := [1]
  lhsBatch := []
  rhsBatch := []
  wf := dot_S800x192_S192x192_S800x192_1_0_0_1_n_n_wf
def dot_S800x128_S128x128_S800x128_1_0_0_1_n_n : DotDims S800x128 S128x128 S800x128 where
  lhsContracting := [1]
  rhsContracting := [0]
  lhsNonContracting := [0]
  rhsNonContracting := [1]
  lhsBatch := []
  rhsBatch := []
  wf := dot_S800x128_S128x128_S800x128_1_0_0_1_n_n_wf
def dot_S800x64_S64x64_S800x64_1_0_0_1_n_n : DotDims S800x64 S64x64 S800x64 where
  lhsContracting := [1]
  rhsContracting := [0]
  lhsNonContracting := [0]
  rhsNonContracting := [1]
  lhsBatch := []
  rhsBatch := []
  wf := dot_S800x64_S64x64_S800x64_1_0_0_1_n_n_wf

abbrev win0_0 : Pipeline.Window sig grid0 :=
  Pipeline.Window.ofSpec (Memref.whole main_arg0) S400x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S400x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S192x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S400x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x1024 : Shape := ⟨2, ![50000, 1024]⟩
abbrev S50000x3x3 : Shape := ⟨3, ![50000, 3, 3]⟩
abbrev S50000x16x16 : Shape := ⟨3, ![50000, 16, 16]⟩
abbrev S256x256 : Shape := ⟨2, ![256, 256]⟩
abbrev S256 : Shape := ⟨1, ![256]⟩
abbrev S192x192 : Shape := ⟨2, ![192, 192]⟩
abbrev S128x128 : Shape := ⟨2, ![128, 128]⟩
abbrev S64x64 : Shape := ⟨2, ![64, 64]⟩
abbrev S50000x64 : Shape := ⟨2, ![50000, 64]⟩
abbrev S50000x64x1 : Shape := ⟨3, ![50000, 64, 1]⟩
abbrev S50000x192 : Shape := ⟨2, ![50000, 192]⟩
abbrev S50000x64x3 : Shape := ⟨3, ![50000, 64, 3]⟩
abbrev S50000x320 : Shape := ⟨2, ![50000, 320]⟩
abbrev S50000x64x5 : Shape := ⟨3, ![50000, 64, 5]⟩
abbrev S50000x5x5 : Shape := ⟨3, ![50000, 5, 5]⟩
abbrev S50000x448 : Shape := ⟨2, ![50000, 448]⟩
abbrev S50000x64x7 : Shape := ⟨3, ![50000, 64, 7]⟩
abbrev S50000x7x7 : Shape := ⟨3, ![50000, 7, 7]⟩
abbrev S50000x256 : Shape := ⟨2, ![50000, 256]⟩
abbrev S1x256 : Shape := ⟨2, ![1, 256]⟩
abbrev S50000x1x192 : Shape := ⟨3, ![50000, 1, 192]⟩
abbrev S50000x2x192 : Shape := ⟨3, ![50000, 2, 192]⟩
abbrev S50000x128 : Shape := ⟨2, ![50000, 128]⟩
abbrev S50000x1x128 : Shape := ⟨3, ![50000, 1, 128]⟩
abbrev S50000x2x128 : Shape := ⟨3, ![50000, 2, 128]⟩
abbrev S50000x1x64 : Shape := ⟨3, ![50000, 1, 64]⟩
abbrev S50000x2x64 : Shape := ⟨3, ![50000, 2, 64]⟩

abbrev nBuf : Space → Nat
  | .hbm => 133
  | .vmem => 0
  | .smem => 0
  | _ => 0

abbrev hbmTy0_0 (i : Nat) : BufTy := match i % 128 with
  | 0 => ⟨S50000x1024, .f32⟩
  | 1 => ⟨S50000x3x3, .f32⟩
  | 2 => ⟨S50000x16x16, .f32⟩
  | 3 => ⟨S256x256, .f32⟩
  | 4 => ⟨S256, .f32⟩
  | 5 => ⟨S192x192, .f32⟩
  | 6 => ⟨S128x128, .f32⟩
  | 7 => ⟨S64x64, .f32⟩
  | 8 => ⟨S50000x64, .f32⟩
  | 9 => ⟨S50000x64x1, .f32⟩
  | 10 => ⟨S50000x192, .f32⟩
  | 11 => ⟨S50000x64x3, .f32⟩
  | 12 => ⟨S50000x3x3, .f32⟩
  | 13 => ⟨S50000x64x3, .f32⟩
  | 14 => ⟨S50000x320, .f32⟩
  | 15 => ⟨S50000x64x5, .f32⟩
  | 16 => ⟨S50000x5x5, .f32⟩
  | 17 => ⟨S50000x64x5, .f32⟩
  | 18 => ⟨S50000x448, .f32⟩
  | 19 => ⟨S50000x64x7, .f32⟩
  | 20 => ⟨S50000x7x7, .f32⟩
  | 21 => ⟨S50000x64x7, .f32⟩
  | 22 => ⟨S50000x64, .f32⟩
  | 23 => ⟨S50000x64x1, .f32⟩
  | 24 => ⟨S50000x64, .f32⟩
  | 25 => ⟨S50000x64x1, .f32⟩
  | 26 => ⟨S50000x64, .f32⟩
  | 27 => ⟨S50000x64x1, .f32⟩
  | 28 => ⟨S50000x64, .f32⟩
  | 29 => ⟨S50000x256, .f32⟩
  | 30 => ⟨S256x256, .f32⟩
  | 31 => ⟨S50000x256, .f32⟩
  | 32 => ⟨S1x256, .f32⟩
  | 33 => ⟨S50000x256, .f32⟩
  | 34 => ⟨S50000x256, .f32⟩
  | 35 => ⟨S50000x64x1, .f32⟩
  | 36 => ⟨S50000x64, .f32⟩
  | 37 => ⟨S50000x64x1, .f32⟩
  | 38 => ⟨S50000x64, .f32⟩
  | 39 => ⟨S50000x64x1, .f32⟩
  | 40 => ⟨S50000x64, .f32⟩
  | 41 => ⟨S50000x192, .f32⟩
  | 42 => ⟨S50000x64x1, .f32⟩
  | 43 => ⟨S50000x64, .f32⟩
  | 44 => ⟨S50000x64x1, .f32⟩
  | 45 => ⟨S50000x64, .f32⟩
  | 46 => ⟨S50000x64x1, .f32⟩
  | 47 => ⟨S50000x64, .f32⟩
  | 48 => ⟨S50000x192, .f32⟩
  | 49 => ⟨S50000x1x192, .f32⟩
  | 50 => ⟨S50000x1x192, .f32⟩
  | 51 => ⟨S50000x2x192, .f32⟩
  | 52 => ⟨S50000x2x192, .f32⟩
  | 53 => ⟨S50000x64x1, .f32⟩
  | 54 => ⟨S50000x64, .f32⟩
  | 55 => ⟨S50000x64x1, .f32⟩
  | 56 => ⟨S50000x64, .f32⟩
  | 57 => ⟨S50000x128, .f32⟩
  | 58 => ⟨S50000x64x1, .f32⟩
  | 59 => ⟨S50000x64, .f32⟩
  | 60 => ⟨S50000x64x1, .f32⟩
  | 61 => ⟨S50000x64, .f32⟩
  | 62 => ⟨S50000x128, .f32⟩
  | 63 => ⟨S50000x1x128, .f32⟩
  | 64 => ⟨S50000x1x128, .f32⟩
  | 65 => ⟨S50000x2x128, .f32⟩
  | 66 => ⟨S50000x2x128, .f32⟩
  | 67 => ⟨S50000x64x1, .f32⟩
  | 68 => ⟨S50000x64, .f32⟩
  | 69 => ⟨S50000x64x1, .f32⟩
  | 70 => ⟨S50000x64, .f32⟩
  | 71 => ⟨S50000x1x64, .f32⟩
  | 72 => ⟨S50000x1x64, .f32⟩
  | 73 => ⟨S50000x2x64, .f32⟩
  | 74 => ⟨S50000x2x64, .f32⟩
  | 75 => ⟨S50000x64, .f32⟩
  | 76 => ⟨S50000x64x1, .f32⟩
  | 77 => ⟨S50000x64, .f32⟩
  | 78 => ⟨S50000x64, .f32⟩
  | 79 => ⟨S50000x1x64, .f32⟩
  | 80 => ⟨S50000x64, .f32⟩
  | 81 => ⟨S50000x1x64, .f32⟩
  | 82 => ⟨S50000x64, .f32⟩
  | 83 => ⟨S50000x64x1, .f32⟩
  | 84 => ⟨S50000x64x1, .f32⟩
  | 85 => ⟨S50000x64x1, .f32⟩
  | 86 => ⟨S50000x64x3, .f32⟩
  | 87 => ⟨S50000x3x3, .f32⟩
  | 88 => ⟨S50000x64x3, .f32⟩
  | 89 => ⟨S50000x192, .f32⟩
  | 90 => ⟨S50000x64, .f32⟩
  | 91 => ⟨S50000x1x64, .f32⟩
  | 92 => ⟨S50000x64, .f32⟩
  | 93 => ⟨S50000x1x64, .f32⟩
  | 94 => ⟨S50000x64, .f32⟩
  | 95 => ⟨S50000x1x64, .f32⟩
  | 96 => ⟨S50000x64, .f32⟩
  | 97 => ⟨S50000x1x64, .f32⟩
  | 98 => ⟨S50000x64, .f32⟩
  | 99 => ⟨S50000x64x1, .f32⟩
  | 100 => ⟨S50000x64x1, .f32⟩
  | 101 => ⟨S50000x64x1, .f32⟩
  | 102 => ⟨S50000x64x1, .f32⟩
  | 103 => ⟨S50000x64x1, .f32⟩
  | 104 => ⟨S50000x64x5, .f32⟩
  | 105 => ⟨S50000x5x5, .f32⟩
  | 106 => ⟨S50000x64x5, .f32⟩
  | 107 => ⟨S50000x320, .f32⟩
  | 108 => ⟨S50000x64, .f32⟩
  | 109 => ⟨S50000x1x64, .f32⟩
  | 110 => ⟨S50000x64, .f32⟩
  | 111 => ⟨S50000x1x64, .f32⟩
  | 112 => ⟨S50000x64, .f32⟩
  | 113 => ⟨S50000x1x64, .f32⟩
  | 114 => ⟨S50000x64, .f32⟩
  | 115 => ⟨S50000x1x64, .f32⟩
  | 116 => ⟨S50000x64, .f32⟩
  | 117 => ⟨S50000x1x64, .f32⟩
  | 118 => ⟨S50000x64, .f32⟩
  | 119 => ⟨S50000x1x64, .f32⟩
  | 120 => ⟨S50000x64, .f32⟩
  | 121 => ⟨S50000x64x1, .f32⟩
  | 122 => ⟨S50000x64x1, .f32⟩
  | 123 => ⟨S50000x64x1, .f32⟩
  | 124 => ⟨S50000x64x1, .f32⟩
  | 125 => ⟨S50000x64x1, .f32⟩
  | 126 => ⟨S50000x64x1, .f32⟩
  | 127 => ⟨S50000x64x1, .f32⟩
  | _ => ⟨S50000x1024, .f32⟩

abbrev hbmTy0_1 (i : Nat) : BufTy := match i % 128 with
  | 0 => ⟨S50000x64x7, .f32⟩
  | 1 => ⟨S50000x7x7, .f32⟩
  | 2 => ⟨S50000x64x7, .f32⟩
  | 3 => ⟨S50000x448, .f32⟩
  | 4 => ⟨S50000x1024, .f32⟩
  | _ => ⟨S50000x1024, .f32⟩

abbrev hbmTy (i : Nat) : BufTy := match i / 128 with
  | 0 => hbmTy0_0 i
  | 1 => hbmTy0_1 i
  | _ => ⟨S50000x1024, .f32⟩

abbrev bufTy : (tb : Table) → Fin (tcTables nBuf tb) → BufTy
  | .hbm, ⟨i, _⟩ => hbmTy i
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩

abbrev nD : Nat := 1
abbrev τ : Topo := Topo.v7x

variable {F : FTy → Type} [FloatOps F]

class Facts₀ : Prop where
  slices_S50000x1024_S50000x64_0_0 : S50000x1024.Slices ![0, 0] S50000x64
  shapeCasts_S50000x64_S50000x64x1 : S50000x64.ShapeCasts S50000x64x1
  slices_S50000x1024_S50000x192_0_64 : S50000x1024.Slices ![0, 64] S50000x192
  shapeCasts_S50000x192_S50000x64x3 : S50000x192.ShapeCasts S50000x64x3
  slices_S50000x16x16_S50000x3x3_0_1_1 : S50000x16x16.Slices ![0, 1, 1] S50000x3x3
  slices_S50000x1024_S50000x320_0_256 : S50000x1024.Slices ![0, 256] S50000x320
  shapeCasts_S50000x320_S50000x64x5 : S50000x320.ShapeCasts S50000x64x5
  slices_S50000x16x16_S50000x5x5_0_4_4 : S50000x16x16.Slices ![0, 4, 4] S50000x5x5
  slices_S50000x1024_S50000x448_0_576 : S50000x1024.Slices ![0, 576] S50000x448
  shapeCasts_S50000x448_S50000x64x7 : S50000x448.ShapeCasts S50000x64x7
  slices_S50000x16x16_S50000x7x7_0_9_9 : S50000x16x16.Slices ![0, 9, 9] S50000x7x7
  shapeCasts_S50000x64x1_S50000x64 : S50000x64x1.ShapeCasts S50000x64
  slices_S50000x64x3_S50000x64x1_0_0_1 : S50000x64x3.Slices ![0, 0, 1] S50000x64x1
  slices_S50000x64x5_S50000x64x1_0_0_2 : S50000x64x5.Slices ![0, 0, 2] S50000x64x1
  slices_S50000x64x7_S50000x64x1_0_0_3 : S50000x64x7.Slices ![0, 0, 3] S50000x64x1
  concatenates_S50000x64_S50000x64_S50000x64_S50000x64_S50000x256_d1 : Shape.Concatenates [S50000x64, S50000x64, S50000x64, S50000x64] S50000x256 1
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S50000x64x3_S50000x64x1_0_0_0 : S50000x64x3.Slices ![0, 0, 0] S50000x64x1
  slices_S50000x64x5_S50000x64x1_0_0_1 : S50000x64x5.Slices ![0, 0, 1] S50000x64x1
  slices_S50000x64x7_S50000x64x1_0_0_2 : S50000x64x7.Slices ![0, 0, 2] S50000x64x1
  concatenates_S50000x64_S50000x64_S50000x64_S50000x192_d1 : Shape.Concatenates [S50000x64, S50000x64, S50000x64] S50000x192 1
  slices_S50000x64x3_S50000x64x1_0_0_2 : S50000x64x3.Slices ![0, 0, 2] S50000x64x1
  slices_S50000x64x5_S50000x64x1_0_0_3 : S50000x64x5.Slices ![0, 0, 3] S50000x64x1
  slices_S50000x64x7_S50000x64x1_0_0_4 : S50000x64x7.Slices ![0, 0, 4] S50000x64x1
  bcast_S50000x192_S50000x1x192_0_2 : S50000x192.BroadcastsInDim S50000x1x192 (![0, 2] : Fin 2 → Fin S50000x1x192.rank)
  concatenates_S50000x1x192_S50000x1x192_S50000x2x192_d1 : Shape.Concatenates [S50000x1x192, S50000x1x192] S50000x2x192 1
  slices_S50000x64x5_S50000x64x1_0_0_0 : S50000x64x5.Slices ![0, 0, 0] S50000x64x1
  slices_S50000x64x7_S50000x64x1_0_0_1 : S50000x64x7.Slices ![0, 0, 1] S50000x64x1
  concatenates_S50000x64_S50000x64_S50000x128_d1 : Shape.Concatenates [S50000x64, S50000x64] S50000x128 1
  slices_S50000x64x5_S50000x64x1_0_0_4 : S50000x64x5.Slices ![0, 0, 4] S50000x64x1
  slices_S50000x64x7_S50000x64x1_0_0_5 : S50000x64x7.Slices ![0, 0, 5] S50000x64x1
  bcast_S50000x128_S50000x1x128_0_2 : S50000x128.BroadcastsInDim S50000x1x128 (![0, 2] : Fin 2 → Fin S50000x1x128.rank)
  concatenates_S50000x1x128_S50000x1x128_S50000x2x128_d1 : Shape.Concatenates [S50000x1x128, S50000x1x128] S50000x2x128 1
  slices_S50000x64x7_S50000x64x1_0_0_0 : S50000x64x7.Slices ![0, 0, 0] S50000x64x1
  slices_S50000x64x7_S50000x64x1_0_0_6 : S50000x64x7.Slices ![0, 0, 6] S50000x64x1
  bcast_S50000x64_S50000x1x64_0_2 : S50000x64.BroadcastsInDim S50000x1x64 (![0, 2] : Fin 2 → Fin S50000x1x64.rank)
  concatenates_S50000x1x64_S50000x1x64_S50000x2x64_d1 : Shape.Concatenates [S50000x1x64, S50000x1x64] S50000x2x64 1
  slices_S50000x256_S50000x64_0_0 : S50000x256.Slices ![0, 0] S50000x64
  bcast_S50000x64_S50000x64x1_0_1 : S50000x64.BroadcastsInDim S50000x64x1 (![0, 1] : Fin 2 → Fin S50000x64x1.rank)
  slices_S50000x256_S50000x64_0_64 : S50000x256.Slices ![0, 64] S50000x64
  slices_S50000x2x192_S50000x1x64_0_0_0 : S50000x2x192.Slices ![0, 0, 0] S50000x1x64
  shapeCasts_S50000x1x64_S50000x64 : S50000x1x64.ShapeCasts S50000x64
  slices_S50000x2x192_S50000x1x64_0_1_0 : S50000x2x192.Slices ![0, 1, 0] S50000x1x64
  concatenates_S50000x64x1_S50000x64x1_S50000x64x1_S50000x64x3_d2 : Shape.Concatenates [S50000x64x1, S50000x64x1, S50000x64x1] S50000x64x3 2
  shapeCasts_S50000x64x3_S50000x192 : S50000x64x3.ShapeCasts S50000x192
  slices_S50000x256_S50000x64_0_128 : S50000x256.Slices ![0, 128] S50000x64
  slices_S50000x2x192_S50000x1x64_0_0_64 : S50000x2x192.Slices ![0, 0, 64] S50000x1x64
  slices_S50000x2x192_S50000x1x64_0_1_64 : S50000x2x192.Slices ![0, 1, 64] S50000x1x64
  slices_S50000x2x128_S50000x1x64_0_0_0 : S50000x2x128.Slices ![0, 0, 0] S50000x1x64
  slices_S50000x2x128_S50000x1x64_0_1_0 : S50000x2x128.Slices ![0, 1, 0] S50000x1x64
  concatenates_S50000x64x1_S50000x64x1_S50000x64x1_S50000x64x1_S50000x64x1_S50000x64x5_d2 : Shape.Concatenates [S50000x64x1, S50000x64x1, S50000x64x1, S50000x64x1, S50000x64x1] S50000x64x5 2
  shapeCasts_S50000x64x5_S50000x320 : S50000x64x5.ShapeCasts S50000x320
  slices_S50000x256_S50000x64_0_192 : S50000x256.Slices ![0, 192] S50000x64
  slices_S50000x2x192_S50000x1x64_0_0_128 : S50000x2x192.Slices ![0, 0, 128] S50000x1x64
  slices_S50000x2x192_S50000x1x64_0_1_128 : S50000x2x192.Slices ![0, 1, 128] S50000x1x64
  slices_S50000x2x128_S50000x1x64_0_0_64 : S50000x2x128.Slices ![0, 0, 64] S50000x1x64
  slices_S50000x2x128_S50000x1x64_0_1_64 : S50000x2x128.Slices ![0, 1, 64] S50000x1x64
  slices_S50000x2x64_S50000x1x64_0_0_0 : S50000x2x64.Slices ![0, 0, 0] S50000x1x64
  slices_S50000x2x64_S50000x1x64_0_1_0 : S50000x2x64.Slices ![0, 1, 0] S50000x1x64
  concatenates_S50000x64x1_S50000x64x1_S50000x64x1_S50000x64x1_S50000x64x1_S50000x64x1_S50000x64x1_S50000x64x7_d2 : Shape.Concatenates [S50000x64x1, S50000x64x1, S50000x64x1, S50000x64x1, S50000x64x1, S50000x64x1, S50000x64x1] S50000x64x7 2
  shapeCasts_S50000x64x7_S50000x448 : S50000x64x7.ShapeCasts S50000x448
  concatenates_S50000x64_S50000x192_S50000x320_S50000x448_S50000x1024_d1 : Shape.Concatenates [S50000x64, S50000x192, S50000x320, S50000x448] S50000x1024 1
  dot_S50000x64x3_S50000x3x3_S50000x64x3_2_1_1_2_0_0_wf : DotDims.WF S50000x64x3 S50000x3x3 S50000x64x3 [2] [1] [1] [2] [0] [0]
  dot_S50000x64x5_S50000x5x5_S50000x64x5_2_1_1_2_0_0_wf : DotDims.WF S50000x64x5 S50000x5x5 S50000x64x5 [2] [1] [1] [2] [0] [0]
  dot_S50000x64x7_S50000x7x7_S50000x64x7_2_1_1_2_0_0_wf : DotDims.WF S50000x64x7 S50000x7x7 S50000x64x7 [2] [1] [1] [2] [0] [0]
  dot_S50000x256_S256x256_S50000x256_1_0_0_1_n_n_wf : DotDims.WF S50000x256 S256x256 S50000x256 [1] [0] [0] [1] [] []
  dot_S50000x2x192_S192x192_S50000x2x192_2_1_01_0_n_n_wf : DotDims.WF S50000x2x192 S192x192 S50000x2x192 [2] [1] [0, 1] [0] [] []
  dot_S50000x2x128_S128x128_S50000x2x128_2_1_01_0_n_n_wf : DotDims.WF S50000x2x128 S128x128 S50000x2x128 [2] [1] [0, 1] [0] [] []
  dot_S50000x2x64_S64x64_S50000x2x64_2_1_01_0_n_n_wf : DotDims.WF S50000x2x64 S64x64 S50000x2x64 [2] [1] [0, 1] [0] [] []
  dot_S50000x64x3_S50000x3x3_S50000x64x3_2_2_1_1_0_0_wf : DotDims.WF S50000x64x3 S50000x3x3 S50000x64x3 [2] [2] [1] [1] [0] [0]
  dot_S50000x64x5_S50000x5x5_S50000x64x5_2_2_1_1_0_0_wf : DotDims.WF S50000x64x5 S50000x5x5 S50000x64x5 [2] [2] [1] [1] [0] [0]
  dot_S50000x64x7_S50000x7x7_S50000x64x7_2_2_1_1_0_0_wf : DotDims.WF S50000x64x7 S50000x7x7 S50000x64x7 [2] [2] [1] [1] [0] [0]

variable [Facts₀]

def dot_S50000x64x3_S50000x3x3_S50000x64x3_2_1_1_2_0_0 : DotDims S50000x64x3 S50000x3x3 S50000x64x3 where
  lhsContracting := [2]
  rhsContracting := [1]
  lhsNonContracting := [1]
  rhsNonContracting := [2]
  lhsBatch := [0]
  rhsBatch := [0]
  wf := dot_S50000x64x3_S50000x3x3_S50000x64x3_2_1_1_2_0_0_wf
def dot_S50000x64x5_S50000x5x5_S50000x64x5_2_1_1_2_0_0 : DotDims S50000x64x5 S50000x5x5 S50000x64x5 where
  lhsContracting := [2]
  rhsContracting := [1]
  lhsNonContracting := [1]
  rhsNonContracting := [2]
  lhsBatch := [0]
  rhsBatch := [0]
  wf := dot_S50000x64x5_S50000x5x5_S50000x64x5_2_1_1_2_0_0_wf
def dot_S50000x64x7_S50000x7x7_S50000x64x7_2_1_1_2_0_0 : DotDims S50000x64x7 S50000x7x7 S50000x64x7 where
  lhsContracting := [2]
  rhsContracting := [1]
  lhsNonContracting := [1]
  rhsNonContracting := [2]
  lhsBatch := [0]
  rhsBatch := [0]
  wf := dot_S50000x64x7_S50000x7x7_S50000x64x7_2_1_1_2_0_0_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x2x192_S192x192_S50000x2x192_2_1_01_0_n_n : DotDims S50000x2x192 S192x192 S50000x2x192 where
  lhsContracting := [2]
  rhsContracting := [1]
  lhsNonContracting := [0, 1]
  rhsNonContracting := [0]
  lhsBatch := []
  rhsBatch := []
  wf := dot_S50000x2x192_S192x192_S50000x2x192_2_1_01_0_n_n_wf
def dot_S50000x2x128_S128x128_S50000x2x128_2_1_01_0_n_n : DotDims S50000x2x128 S128x128 S50000x2x128 where
  lhsContracting := [2]
  rhsContracting := [1]
  lhsNonContracting := [0, 1]
  rhsNonContracting := [0]
  lhsBatch := []
  rhsBatch := []
  wf := dot_S50000x2x128_S128x128_S50000x2x128_2_1_01_0_n_n_wf
def dot_S50000x2x64_S64x64_S50000x2x64_2_1_01_0_n_n : DotDims S50000x2x64 S64x64 S50000x2x64 where
  lhsContracting := [2]
  rhsContracting := [1]
  lhsNonContracting := [0, 1]
  rhsNonContracting := [0]
  lhsBatch := []
  rhsBatch := []
  wf := dot_S50000x2x64_S64x64_S50000x2x64_2_1_01_0_n_n_wf
def dot_S50000x64x3_S50000x3x3_S50000x64x3_2_2_1_1_0_0 : DotDims S50000x64x3 S50000x3x3 S50000x64x3 where
  lhsContracting := [2]
  rhsContracting := [2]
  lhsNonContracting := [1]
  rhsNonContracting := [1]
  lhsBatch := [0]
  rhsBatch := [0]
  wf := dot_S50000x64x3_S50000x3x3_S50000x64x3_2_2_1_1_0_0_wf
def dot_S50000x64x5_S50000x5x5_S50000x64x5_2_2_1_1_0_0 : DotDims S50000x64x5 S50000x5x5 S50000x64x5 where
  lhsContracting := [2]
  rhsContracting := [2]
  lhsNonContracting := [1]
  rhsNonContracting := [1]
  lhsBatch := [0]
  rhsBatch := [0]
  wf := dot_S50000x64x5_S50000x5x5_S50000x64x5_2_2_1_1_0_0_wf
def dot_S50000x64x7_S50000x7x7_S50000x64x7_2_2_1_1_0_0 : DotDims S50000x64x7 S50000x7x7 S50000x64x7 where
  lhsContracting := [2]
  rhsContracting := [2]
  lhsNonContracting := [1]
  rhsNonContracting := [1]
  lhsBatch := [0]
  rhsBatch := [0]
  wf := dot_S50000x64x7_S50000x7x7_S50000x64x7_2_2_1_1_0_0_wf

class Facts : Prop extends Facts₀ where

variable [Facts]
-- ==== Proof.LibRowRead.lean ====
import Idealize.ShloMosaic.Lib.ValueIdx
import Idealize.ShloMosaic.Lib.Pipeline.Value
import Idealize.ShloMosaic.PureOps.Ideal.Laws

/-!
# Layout operations read at an index, row by row

General lemmas, for arrays whose LEADING axis counts rows (any number `N` of them) and is kept whole: a slice, a
reshape, a broadcast or a concatenation of such an array read at an index built from coordinates (`ix2 n a`,
`ix3 n a b`) is the operand at an index built from coordinates again, the row unchanged. Every lemma takes the
operation's own side condition as a hypothesis of any proof, so it applies to a printed operation whatever witness
the printer passed, and the same lemma reads a kernel's block of a few hundred rows and a host array of all of them.
-/

noncomputable section

open Idealize.ShloMosaic Idealize.ShloMosaic.ValueIdx

namespace RowRead

variable {α : Type}

/-! ## Slices -/

/-- A slice that keeps axes 0 and 1 whole and takes the single entry `c` of the last axis. -/
theorem slice_last {N A d : ℕ} (c : ℕ) (v : (⟨3, ![N, A, d]⟩ : Shape).Idx → α)
    (h : (⟨3, ![N, A, d]⟩ : Shape).Slices ![0, 0, c] ⟨3, ![N, A, 1]⟩) (n : Fin N) (a : Fin A) (z : Fin 1) :
    extractStridedSlice ⟨3, ![N, A, 1]⟩ ![0, 0, c] v h (ix3 n a z)
      = v (ix3 n a ⟨c, by have := h.2 (2 : Fin 3); simpa using this⟩) := by
  refine extractStridedSlice_apply _ v h _ _ fun b => ?_
  match b with
  | ⟨0, _⟩ => show n.val = 0 + n.val; omega
  | ⟨1, _⟩ => show a.val = 0 + a.val; omega
  | ⟨2, _⟩ => show c = c + z.val; omega

/-- The single entry `(a, b)` of the two trailing axes, kept as an [N,1,1] array. -/
theorem slice_entry {N d e : ℕ} (a b : ℕ) (v : (⟨3, ![N, d, e]⟩ : Shape).Idx → α)
    (h : (⟨3, ![N, d, e]⟩ : Shape).Slices ![0, a, b] ⟨3, ![N, 1, 1]⟩) (n : Fin N) (z z' : Fin 1) :
    extractStridedSlice ⟨3, ![N, 1, 1]⟩ ![0, a, b] v h (ix3 n z z')
      = v (ix3 n ⟨a, by have := h.2 (1 : Fin 3); simpa using this⟩ ⟨b, by have := h.2 (2 : Fin 3); simpa using this⟩) := by
  refine extractStridedSlice_apply _ v h _ _ fun k => ?_
  match k with
  | ⟨0, _⟩ => show n.val = 0 + n.val; omega
  | ⟨1, _⟩ => show a = a + z.val; omega
  | ⟨2, _⟩ => show b = b + z'.val; omega

/-- A block of the two trailing axes at offset `(a, b)`, every row kept. -/
theorem slice_block {N d e d' e' : ℕ} (a b : ℕ) (v : (⟨3, ![N, d, e]⟩ : Shape).Idx → α)
    (h : (⟨3, ![N, d, e]⟩ : Shape).Slices ![0, a, b] ⟨3, ![N, d', e']⟩) (n : Fin N) (i : Fin d') (j : Fin e') :
    extractStridedSlice ⟨3, ![N, d', e']⟩ ![0, a, b] v h (ix3 n i j)
      = v (ix3 n ⟨a + i.val, by have h1 : a + d' ≤ d := h.2 (1 : Fin 3); have := i.isLt; omega⟩
                 ⟨b + j.val, by have h1 : b + e' ≤ e := h.2 (2 : Fin 3); have := j.isLt; omega⟩) := by
  refine extractStridedSlice_apply _ v h _ _ fun k => ?_
  match k with
  | ⟨0, _⟩ => show n.val = 0 + n.val; omega
  | ⟨1, _⟩ => rfl
  | ⟨2, _⟩ => rfl

/-- Columns `off … off + K' - 1` of a matrix, every row kept. -/
theorem slice_cols {N K K' : ℕ} (off : ℕ) (v : (⟨2, ![N, K]⟩ : Shape).Idx → α)
    (h : (⟨2, ![N, K]⟩ : Shape).Slices ![0, off] ⟨2, ![N, K']⟩) (n : Fin N) (k : Fin K') :
    extractStridedSlice ⟨2, ![N, K']⟩ ![0, off] v h (ix2 n k)
      = v (ix2 n ⟨off + k.val, by have h1 : off + K' ≤ K := h.2 (1 : Fin 2); have := k.isLt; omega⟩) := by
  refine extractStridedSlice_apply _ v h _ _ fun b => ?_
  match b with
  | ⟨0, _⟩ => show n.val = 0 + n.val; omega
  | ⟨1, _⟩ => rfl

/-! ## Reshapes that keep the rows -/

/-- [N,A,1] viewed as [N,A]. -/
theorem cast_dropLast {N A : ℕ} (v : (⟨3, ![N, A, 1]⟩ : Shape).Idx → α)
    (h : (⟨3, ![N, A, 1]⟩ : Shape).ShapeCasts ⟨2, ![N, A]⟩) (n : Fin N) (a : Fin A) :
    shapeCast ⟨2, ![N, A]⟩ v h (ix2 n a) = v (ix3 n a 0) := by
  refine shapeCast_apply v h _ _ ?_
  rw [Shape.rowMajor_val_three, Shape.rowMajor_val_two]
  show (n.val * A + a.val) * 1 + 0 = n.val * A + a.val
  omega

/-- [N,A] viewed as [N,A,1]. -/
theorem cast_addLast {N A : ℕ} (v : (⟨2, ![N, A]⟩ : Shape).Idx → α)
    (h : (⟨2, ![N, A]⟩ : Shape).ShapeCasts ⟨3, ![N, A, 1]⟩) (n : Fin N) (a : Fin A) (z : Fin 1) :
    shapeCast ⟨3, ![N, A, 1]⟩ v h (ix3 n a z) = v (ix2 n a) := by
  refine shapeCast_apply v h _ _ ?_
  rw [Shape.rowMajor_val_three, Shape.rowMajor_val_two]
  show n.val * A + a.val = (n.val * A + a.val) * 1 + z.val
  omega

/-- [N,1,1] viewed as [N]. -/
theorem cast_N11_N {N : ℕ} (v : (⟨3, ![N, 1, 1]⟩ : Shape).Idx → α)
    (h : (⟨3, ![N, 1, 1]⟩ : Shape).ShapeCasts ⟨1, ![N]⟩) (n : Fin N) :
    shapeCast ⟨1, ![N]⟩ v h (ix1 n) = v (ix3 n 0 0) := by
  refine shapeCast_apply v h _ _ ?_
  rw [Shape.rowMajor_val_three, Shape.rowMajor_val_one]
  show (n.val * 1 + 0) * 1 + 0 = n.val
  omega

/-- [N] viewed as [N,1]. -/
theorem cast_N_N1 {N : ℕ} (v : (⟨1, ![N]⟩ : Shape).Idx → α)
    (h : (⟨1, ![N]⟩ : Shape).ShapeCasts ⟨2, ![N, 1]⟩) (n : Fin N) (z : Fin 1) :
    shapeCast ⟨2, ![N, 1]⟩ v h (ix2 n z) = v (ix1 n) := by
  refine shapeCast_apply v h _ _ ?_
  rw [Shape.rowMajor_val_two, Shape.rowMajor_val_one]
  show n.val = n.val * 1 + z.val
  omega

/-- [N,K] viewed as [N,1,K]. -/
theorem cast_addMid {N K : ℕ} (v : (⟨2, ![N, K]⟩ : Shape).Idx → α)
    (h : (⟨2, ![N, K]⟩ : Shape).ShapeCasts ⟨3, ![N, 1, K]⟩) (n : Fin N) (z : Fin 1) (k : Fin K) :
    shapeCast ⟨3, ![N, 1, K]⟩ v h (ix3 n z k) = v (ix2 n k) := by
  refine shapeCast_apply v h _ _ ?_
  rw [Shape.rowMajor_val_three, Shape.rowMajor_val_two]
  show n.val * K + k.val = (n.val * 1 + z.val) * K + k.val
  have : z.val = 0 := by omega
  rw [this, Nat.mul_one, Nat.add_zero]

/-- [N,1,K] viewed as [N,K]. -/
theorem cast_dropMid {N K : ℕ} (v : (⟨3, ![N, 1, K]⟩ : Shape).Idx → α)
    (h : (⟨3, ![N, 1, K]⟩ : Shape).ShapeCasts ⟨2, ![N, K]⟩) (n : Fin N) (k : Fin K) :
    shapeCast ⟨2, ![N, K]⟩ v h (ix2 n k) = v (ix3 n 0 k) := by
  refine shapeCast_apply v h _ _ ?_
  rw [Shape.rowMajor_val_three, Shape.rowMajor_val_two]
  show (n.val * 1 + 0) * K + k.val = n.val * K + k.val
  rw [Nat.mul_one, Nat.add_zero]

/-- A row of `A * d` entries viewed as `A` groups of `d`: entry `(a, c)` is entry `d * a + c` of the row. -/
theorem cast_split {N A d K : ℕ} (hK : K = A * d) (v : (⟨2, ![N, K]⟩ : Shape).Idx → α)
    (h : (⟨2, ![N, K]⟩ : Shape).ShapeCasts ⟨3, ![N, A, d]⟩) (n : Fin N) (a : Fin A) (c : Fin d) :
    shapeCast ⟨3, ![N, A, d]⟩ v h (ix3 n a c)
      = v (ix2 n ⟨d * a.val + c.val, by
            subst hK
            have ha := a.isLt; have hc := c.isLt
            calc d * a.val + c.val < d * a.val + d := by omega
              _ = d * (a.val + 1) := by ring
              _ ≤ d * A := Nat.mul_le_mul_left d (by omega)
              _ = A * d := Nat.mul_comm _ _⟩) := by
  refine shapeCast_apply v h _ _ ?_
  rw [Shape.rowMajor_val_three, Shape.rowMajor_val_two]
  subst hK
  show n.val * (A * d) + (d * a.val + c.val) = (n.val * A + a.val) * d + c.val
  ring

/-- `A` groups of `d` entries viewed as one row: entry `k` of the row is entry `k % d` of group `k / d`. -/
theorem cast_merge {N A d K : ℕ} (hK : K = A * d) (hd : 0 < d) (v : (⟨3, ![N, A, d]⟩ : Shape).Idx → α)
    (h : (⟨3, ![N, A, d]⟩ : Shape).ShapeCasts ⟨2, ![N, K]⟩) (n : Fin N) (k : Fin K) :
    shapeCast ⟨2, ![N, K]⟩ v h (ix2 n k)
      = v (ix3 n ⟨k.val / d, by
            subst hK; have := k.isLt
            exact Nat.div_lt_of_lt_mul (lt_of_lt_of_eq this (Nat.mul_comm A d))⟩ ⟨k.val % d, Nat.mod_lt _ hd⟩) := by
  refine shapeCast_apply v h _ _ ?_
  rw [Shape.rowMajor_val_three, Shape.rowMajor_val_two]
  subst hK
  show (n.val * A + k.val / d) * d + k.val % d = n.val * (A * d) + k.val
  have := Nat.div_add_mod k.val d
  calc (n.val * A + k.val / d) * d + k.val % d = n.val * (A * d) + (d * (k.val / d) + k.val % d) := by ring
    _ = n.val * (A * d) + k.val := by rw [this]

/-- [N,2,K] viewed as [2N,K]: row `r` is entry `r % 2` of row `r / 2`. -/
theorem cast_pairs_flat {N M K : ℕ} (hM : M = N * 2) (v : (⟨3, ![N, 2, K]⟩ : Shape).Idx → α)
    (h : (⟨3, ![N, 2, K]⟩ : Shape).ShapeCasts ⟨2, ![M, K]⟩) (r : Fin M) (k : Fin K) :
    shapeCast ⟨2, ![M, K]⟩ v h (ix2 r k)
      = v (ix3 ⟨r.val / 2, by subst hM; have := r.isLt; omega⟩ ⟨r.val % 2, Nat.mod_lt _ (by decide)⟩ k) := by
  refine shapeCast_apply v h _ _ ?_
  rw [Shape.rowMajor_val_three, Shape.rowMajor_val_two]
  show (r.val / 2 * 2 + r.val % 2) * K + k.val = r.val * K + k.val
  have : r.val / 2 * 2 + r.val % 2 = r.val := by omega
  rw [this]

/-- [2N,K] viewed as [N,2,K]: entry `i` of row `n` is row `2 * n + i`. -/
theorem cast_pairs_unflat {N M K : ℕ} (hM : M = N * 2) (v : (⟨2, ![M, K]⟩ : Shape).Idx → α)
    (h : (⟨2, ![M, K]⟩ : Shape).ShapeCasts ⟨3, ![N, 2, K]⟩) (n : Fin N) (i : Fin 2) (k : Fin K) :
    shapeCast ⟨3, ![N, 2, K]⟩ v h (ix3 n i k)
      = v (ix2 ⟨2 * n.val + i.val, by subst hM; have := n.isLt; have := i.isLt; omega⟩ k) := by
  refine shapeCast_apply v h _ _ ?_
  rw [Shape.rowMajor_val_three, Shape.rowMajor_val_two]
  show (2 * n.val + i.val) * K + k.val = (n.val * 2 + i.val) * K + k.val
  rw [Nat.mul_comm 2 n.val]

/-! ## Broadcasts -/

/-- A column [N,1] laid along a second axis of extent `A`. -/
theorem bcast_col {N A : ℕ} (hN : N ≠ 1) (v : (⟨2, ![N, 1]⟩ : Shape).Idx → α)
    (h : (⟨2, ![N, 1]⟩ : Shape).Broadcasts ⟨2, ![N, A]⟩) (n : Fin N) (a : Fin A) :
    broadcastTo ⟨2, ![N, A]⟩ v h (ix2 n a) = v (ix2 n 0) := by
  refine broadcastTo_apply v h _ _ fun k => ?_
  match k with
  | ⟨0, _⟩ => show n.val = if N = 1 then 0 else n.val; rw [if_neg hN]
  | ⟨1, _⟩ => show (0 : ℕ) = if (1 : ℕ) = 1 then 0 else a.val; rw [if_pos rfl]

/-- The host's [N,A] → [N,A,1] along axes 0 and 1. -/
theorem bcastInDim_addLast {N A : ℕ} (h : (⟨2, ![N, A]⟩ : Shape).BroadcastsInDim ⟨3, ![N, A, 1]⟩ ![0, 1])
    (v : (⟨2, ![N, A]⟩ : Shape).Idx → α) (n : Fin N) (a : Fin A) (z : Fin 1) :
    broadcastInDim ⟨3, ![N, A, 1]⟩ ![0, 1] h v (ix3 n a z) = v (ix2 n a) := by
  refine broadcastInDim_apply _ h v _ _ fun k => ?_
  match k with
  | ⟨0, _⟩ =>
    show n.val = if N = 1 then 0 else n.val
    split_ifs with hN
    · have := n.isLt; omega
    · rfl
  | ⟨1, _⟩ =>
    show a.val = if A = 1 then 0 else a.val
    split_ifs with hA
    · have := a.isLt; omega
    · rfl

/-- The host's [N,K] → [N,1,K] along axes 0 and 2. -/
theorem bcastInDim_addMid {N K : ℕ} (h : (⟨2, ![N, K]⟩ : Shape).BroadcastsInDim ⟨3, ![N, 1, K]⟩ ![0, 2])
    (v : (⟨2, ![N, K]⟩ : Shape).Idx → α) (n : Fin N) (z : Fin 1) (k : Fin K) :
    broadcastInDim ⟨3, ![N, 1, K]⟩ ![0, 2] h v (ix3 n z k) = v (ix2 n k) := by
  refine broadcastInDim_apply _ h v _ _ fun b => ?_
  match b with
  | ⟨0, _⟩ =>
    show n.val = if N = 1 then 0 else n.val
    split_ifs with hN
    · have := n.isLt; omega
    · rfl
  | ⟨1, _⟩ =>
    show k.val = if K = 1 then 0 else k.val
    split_ifs with hK
    · have := k.isLt; omega
    · rfl

/-! ## Concatenations -/

/-- Pieces of one entry each laid along the LAST axis of a rank-3 array: entry `j` is piece `j`. -/
theorem concat_last {N A d : ℕ} (xs : List ((s : Shape) × (s.Idx → α)))
    (h : Shape.Concatenates (xs.map (·.1)) ⟨3, ![N, A, d]⟩ (2 : Fin 3)) (k : ℕ) (hk : k < xs.length)
    (x : (⟨3, ![N, A, 1]⟩ : Shape).Idx → α) (hxk : xs[k] = ⟨⟨3, ![N, A, 1]⟩, x⟩)
    (hpre : (((xs.take k).map (·.1)).map fun s : Shape =>
      if h : s.rank = 3 then s.size ((2 : Fin 3).cast h.symm) else 0).sum = k)
    (n : Fin N) (a : Fin A) (j : Fin d) (hj : j.val = k) :
    concatenate ⟨3, ![N, A, d]⟩ (2 : Fin 3) xs h (ix3 n a j) = x (ix3 n a 0) := by
  refine concatenate_apply_piece (t := ⟨3, ![N, A, d]⟩) (2 : Fin 3) xs h _ k hk _ x hxk rfl k hpre (ix3 n a 0) (fun b hb => ?_) ?_
  · match b with
    | ⟨0, _⟩ => rfl
    | ⟨1, _⟩ => rfl
    | ⟨2, _⟩ => exact absurd rfl hb
  · show k + 0 = j.val
    omega

/-- Pieces of one entry each laid along the MIDDLE axis of a rank-3 array. -/
theorem concat_mid {N M K : ℕ} (xs : List ((s : Shape) × (s.Idx → α)))
    (h : Shape.Concatenates (xs.map (·.1)) ⟨3, ![N, M, K]⟩ (1 : Fin 3)) (k : ℕ) (hk : k < xs.length)
    (x : (⟨3, ![N, 1, K]⟩ : Shape).Idx → α) (hxk : xs[k] = ⟨⟨3, ![N, 1, K]⟩, x⟩)
    (hpre : (((xs.take k).map (·.1)).map fun s : Shape =>
      if h : s.rank = 3 then s.size ((1 : Fin 3).cast h.symm) else 0).sum = k)
    (n : Fin N) (i : Fin M) (hi : i.val = k) (c : Fin K) :
    concatenate ⟨3, ![N, M, K]⟩ (1 : Fin 3) xs h (ix3 n i c) = x (ix3 n 0 c) := by
  refine concatenate_apply_piece (t := ⟨3, ![N, M, K]⟩) (1 : Fin 3) xs h _ k hk _ x hxk rfl k hpre (ix3 n 0 c) (fun b hb => ?_) ?_
  · match b with
    | ⟨0, _⟩ => rfl
    | ⟨1, _⟩ => exact absurd rfl hb
    | ⟨2, _⟩ => rfl
  · show k + 0 = i.val
    omega

/-- Matrices of the same rows laid side by side: column `q` falls in piece `k`, whose columns start at `pre`. -/
theorem concat_cols {N K K₁ : ℕ} (xs : List ((s : Shape) × (s.Idx → α)))
    (h : Shape.Concatenates (xs.map (·.1)) ⟨2, ![N, K]⟩ (1 : Fin 2)) (k : ℕ) (hk : k < xs.length)
    (x : (⟨2, ![N, K₁]⟩ : Shape).Idx → α) (hxk : xs[k] = ⟨⟨2, ![N, K₁]⟩, x⟩) (pre : ℕ)
    (hpre : (((xs.take k).map (·.1)).map fun s : Shape =>
      if h : s.rank = 2 then s.size ((1 : Fin 2).cast h.symm) else 0).sum = pre)
    (n : Fin N) (q : Fin K) (q' : Fin K₁) (hq : pre + q'.val = q.val) :
    concatenate ⟨2, ![N, K]⟩ (1 : Fin 2) xs h (ix2 n q) = x (ix2 n q') := by
  refine concatenate_apply_piece (t := ⟨2, ![N, K]⟩) (1 : Fin 2) xs h _ k hk _ x hxk rfl pre hpre (ix2 n q') (fun b hb => ?_) ?_
  · match b with
    | ⟨0, _⟩ => rfl
    | ⟨1, _⟩ => exact absurd rfl hb
  · exact hq

end RowRead

end
-- ==== Proof.StageIn12.lean ====
import proofs.«157599_j24927990186029_1_alg».proof.Proof.Gen.KernelIdeal.Skeleton
import proofs.«157599_j24927990186029_1_alg».proof.Proof.RefStages
import proofs.«157599_j24927990186029_1_alg».proof.Proof.LibRowRead

noncomputable section

open Idealize.ShloMosaic Idealize.ShloMosaic.ValueIdx
open Cert.KernelIdeal Cert.KernelIdeal.Gen Cert.ReferenceIdeal.Stages RowRead

namespace Cert.SO2

/-! The rotation of the degree 0, 1 and 2 channels INTO the edge frame, one row at a time: entry (m, j) of the rotated
degree-l block is the sum over c of the row's entry `off + (2l+1) m + c` times the Wigner block's entry (c, j), which is
what the reference's batched dot product computes. -/

/-- Degree 0: no rotation, the first 64 entries of the row. -/
theorem stage_in0 (x0 : FVec Ideal S400x1024 .f32) (x1 : FVec Ideal S400x16x16 .f32) (X : FVec Ideal Cert.ReferenceIdeal.S50000x1024 .f32) (Wg : FVec Ideal Cert.ReferenceIdeal.S50000x16x16 .f32) (p : Fin 400) (n : Fin 50000) (hx : ∀ k : Fin 1024, x0 (ix2 p k) = X (ix2 n k)) (m : Fin 64) (z : Fin 1) :
    k0_pay1 (F := Ideal) x0 (ix3 p m z) = val_main_v1 (F := Ideal) X (ix3 n m z) := by
  unfold k0_pay1 val_main_v1 val_main_v0
  rw [cast_addLast, slice_cols, hx, cast_addLast, slice_cols]

/-- Degree 1. -/
theorem stage_in1 (x0 : FVec Ideal S400x1024 .f32) (x1 : FVec Ideal S400x16x16 .f32) (X : FVec Ideal Cert.ReferenceIdeal.S50000x1024 .f32) (Wg : FVec Ideal Cert.ReferenceIdeal.S50000x16x16 .f32) (p : Fin 400) (n : Fin 50000) (hx : ∀ k : Fin 1024, x0 (ix2 p k) = X (ix2 n k)) (hw : ∀ a b : Fin 16, x1 (ix3 p a b) = Wg (ix3 n a b)) (m : Fin 64) (j : Fin 3) :
    k0_pay7 (F := Ideal) (k0_pay2 x0) (k0_pay3 x1) (k0_pay4 x0 x1) (k0_pay5 x0 x1) (k0_pay6 x1) (ix3 p m j)
      = val_main_v5 (F := Ideal) X Wg (ix3 n m j) := by
  rw [val_main_v5_apply]
  have eL : ∀ k : Fin 3, val_main_v3 (F := Ideal) X (lidx_main_v5 (ix3 n m j) k)
      = X (ix2 n ⟨64 + (3 * m.val + k.val), by omega⟩) := by
    intro k
    unfold val_main_v3 val_main_v2
    rw [show lidx_main_v5 (ix3 n m j) k = ix3 n m k from
      funext fun a => by match a with | ⟨0, _⟩ => rfl | ⟨1, _⟩ => rfl | ⟨2, _⟩ => rfl]
    rw [cast_split (A := 64) (d := 3) rfl, slice_cols]
  have eR : ∀ k : Fin 3, val_main_v4 (F := Ideal) Wg (ridx_main_v5 (ix3 n m j) k)
      = Wg (ix3 n ⟨1 + k.val, by omega⟩ ⟨1 + j.val, by omega⟩) := by
    intro k
    unfold val_main_v4
    rw [show ridx_main_v5 (ix3 n m j) k = ix3 n k j from
      funext fun a => by match a with | ⟨0, _⟩ => rfl | ⟨1, _⟩ => rfl | ⟨2, _⟩ => rfl]
    rw [slice_block]
  have kL : ∀ c : Fin 3, k0_pay2 (F := Ideal) x0 (ix3 p m c) = X (ix2 n ⟨64 + (3 * m.val + c.val), by omega⟩) := by
    intro c
    unfold k0_pay2
    rw [cast_split (A := 64) (d := 3) rfl, slice_cols, hx]
  have kR : ∀ a b : Fin 3, k0_pay3 (F := Ideal) x1 (ix3 p a b) = Wg (ix3 n ⟨1 + a.val, by omega⟩ ⟨1 + b.val, by omega⟩) := by
    intro a b
    unfold k0_pay3
    rw [slice_block, hw]
  simp only [Fin.sum_univ_three, eL, eR]
  unfold k0_pay7 k0_pay4 k0_pay5 k0_pay6
  fin_cases j <;>
  · refine (Eq.trans (by
      first
        | exact concat_last _ _ 0 (by simp) _ rfl rfl p m _ rfl
        | exact concat_last _ _ 1 (by simp) _ rfl rfl p m _ rfl
        | exact concat_last _ _ 2 (by simp) _ rfl rfl p m _ rfl) ?_)
    simp only [cast_addLast, addf_apply, mulf_apply, cast_dropLast, slice_last, bcast_col (N := 400) (by decide),
      cast_N_N1, cast_N11_N, slice_entry, kL, kR]
    rfl

/-- Degree 2. -/
theorem stage_in2 (x0 : FVec Ideal S400x1024 .f32) (x1 : FVec Ideal S400x16x16 .f32) (X : FVec Ideal Cert.ReferenceIdeal.S50000x1024 .f32) (Wg : FVec Ideal Cert.ReferenceIdeal.S50000x16x16 .f32) (p : Fin 400) (n : Fin 50000) (hx : ∀ k : Fin 1024, x0 (ix2 p k) = X (ix2 n k)) (hw : ∀ a b : Fin 16, x1 (ix3 p a b) = Wg (ix3 n a b)) (m : Fin 64) (j : Fin 5) :
    k0_pay20 (F := Ideal) (k0_pay8 x0) (k0_pay9 x1) (k0_pay11 (k0_pay8 x0) (k0_pay9 x1) (k0_pay10 x0 x1)) (k0_pay12 (k0_pay8 x0) (k0_pay9 x1)) (k0_pay16 (k0_pay8 x0) (k0_pay9 x1) (k0_pay13 (k0_pay8 x0) (k0_pay9 x1)) (k0_pay14 (k0_pay8 x0)) (k0_pay15 (k0_pay9 x1))) (k0_pay17 (k0_pay8 x0) (k0_pay9 x1)) (k0_pay18 (k0_pay9 x1)) (k0_pay19 (k0_pay8 x0)) (ix3 p m j)
      = val_main_v9 (F := Ideal) X Wg (ix3 n m j) := by
  rw [val_main_v9_apply]
  have eL : ∀ k : Fin 5, val_main_v7 (F := Ideal) X (lidx_main_v9 (ix3 n m j) k)
      = X (ix2 n ⟨256 + (5 * m.val + k.val), by omega⟩) := by
    intro k
    unfold val_main_v7 val_main_v6
    rw [show lidx_main_v9 (ix3 n m j) k = ix3 n m k from
      funext fun a => by match a with | ⟨0, _⟩ => rfl | ⟨1, _⟩ => rfl | ⟨2, _⟩ => rfl]
    rw [cast_split (A := 64) (d := 5) rfl, slice_cols]
  have eR : ∀ k : Fin 5, val_main_v8 (F := Ideal) Wg (ridx_main_v9 (ix3 n m j) k)
      = Wg (ix3 n ⟨4 + k.val, by omega⟩ ⟨4 + j.val, by omega⟩) := by
    intro k
    unfold val_main_v8
    rw [show ridx_main_v9 (ix3 n m j) k = ix3 n k j from
      funext fun a => by match a with | ⟨0, _⟩ => rfl | ⟨1, _⟩ => rfl | ⟨2, _⟩ => rfl]
    rw [slice_block]
  have kL : ∀ c : Fin 5, k0_pay8 (F := Ideal) x0 (ix3 p m c) = X (ix2 n ⟨256 + (5 * m.val + c.val), by omega⟩) := by
    intro c
    unfold k0_pay8
    rw [cast_split (A := 64) (d := 5) rfl, slice_cols, hx]
  have kR : ∀ a b : Fin 5, k0_pay9 (F := Ideal) x1 (ix3 p a b) = Wg (ix3 n ⟨4 + a.val, by omega⟩ ⟨4 + b.val, by omega⟩) := by
    intro a b
    unfold k0_pay9
    rw [slice_block, hw]
  simp only [Fin.sum_univ_five, eL, eR]
  unfold k0_pay20 k0_pay11 k0_pay10 k0_pay12 k0_pay16 k0_pay13 k0_pay14 k0_pay15 k0_pay17 k0_pay18 k0_pay19
  fin_cases j <;>
  · refine (Eq.trans (by
      first
        | exact concat_last _ _ 0 (by simp) _ rfl rfl p m _ rfl
        | exact concat_last _ _ 1 (by simp) _ rfl rfl p m _ rfl
        | exact concat_last _ _ 2 (by simp) _ rfl rfl p m _ rfl
        | exact concat_last _ _ 3 (by simp) _ rfl rfl p m _ rfl
        | exact concat_last _ _ 4 (by simp) _ rfl rfl p m _ rfl) ?_)
    simp only [cast_addLast, addf_apply, mulf_apply, cast_dropLast, slice_last, bcast_col (N := 400) (by decide),
      cast_N_N1, cast_N11_N, slice_entry, kL, kR]
    rfl

end Cert.SO2

end
-- ==== Proof.StageIn3.lean ====
import proofs.«157599_j24927990186029_1_alg».proof.Proof.Gen.KernelIdeal.Skeleton
import proofs.«157599_j24927990186029_1_alg».proof.Proof.RefStages
import proofs.«157599_j24927990186029_1_alg».proof.Proof.LibRowRead

noncomputable section

open Idealize.ShloMosaic Idealize.ShloMosaic.ValueIdx
open Cert.KernelIdeal Cert.KernelIdeal.Gen Cert.ReferenceIdeal.Stages RowRead

namespace Cert.SO2

/-! The rotation of the degree 3 channels INTO the edge frame, one row at a time: entry (m, j) of the rotated block is the
sum over c of the row's entry `576 + 7 m + c` times the Wigner block's entry (9 + c, 9 + j). -/

/-- Entry (m, c) of the row's degree 3 channels, read from the whole row. -/
private theorem in3_kL (x0 : FVec Ideal S400x1024 .f32) (X : FVec Ideal Cert.ReferenceIdeal.S50000x1024 .f32)
    (p : Fin 400) (n : Fin 50000) (hx : ∀ k : Fin 1024, x0 (ix2 p k) = X (ix2 n k)) (m : Fin 64) (c : Fin 7) :
    k0_pay21 (F := Ideal) x0 (ix3 p m c) = X (ix2 n ⟨576 + (7 * m.val + c.val), by omega⟩) := by
  unfold k0_pay21
  rw [cast_split (A := 64) (d := 7) rfl, slice_cols, hx]

/-- Entry (a, b) of the row's degree 3 Wigner block, read from the whole 16 × 16 matrix. -/
private theorem in3_kR (x1 : FVec Ideal S400x16x16 .f32) (Wg : FVec Ideal Cert.ReferenceIdeal.S50000x16x16 .f32)
    (p : Fin 400) (n : Fin 50000) (hw : ∀ a b : Fin 16, x1 (ix3 p a b) = Wg (ix3 n a b)) (a b : Fin 7) :
    k0_pay22 (F := Ideal) x1 (ix3 p a b) = Wg (ix3 n ⟨9 + a.val, by omega⟩ ⟨9 + b.val, by omega⟩) := by
  unfold k0_pay22
  rw [slice_block, hw]

/-- The reference's left operand at the k-th term of entry (m, j). -/
private theorem in3_eL (X : FVec Ideal Cert.ReferenceIdeal.S50000x1024 .f32) (n : Fin 50000) (m : Fin 64) (j k : Fin 7) :
    val_main_v11 (F := Ideal) X (lidx_main_v13 (ix3 n m j) k) = X (ix2 n ⟨576 + (7 * m.val + k.val), by omega⟩) := by
  unfold val_main_v11 val_main_v10
  rw [show lidx_main_v13 (ix3 n m j) k = ix3 n m k from
    funext fun a => by match a with | ⟨0, _⟩ => rfl | ⟨1, _⟩ => rfl | ⟨2, _⟩ => rfl]
  rw [cast_split (A := 64) (d := 7) rfl, slice_cols]

/-- The reference's right operand at the k-th term of entry (m, j). -/
private theorem in3_eR (Wg : FVec Ideal Cert.ReferenceIdeal.S50000x16x16 .f32) (n : Fin 50000) (m : Fin 64) (j k : Fin 7) :
    val_main_v12 (F := Ideal) Wg (ridx_main_v13 (ix3 n m j) k) = Wg (ix3 n ⟨9 + k.val, by omega⟩ ⟨9 + j.val, by omega⟩) := by
  unfold val_main_v12
  rw [show ridx_main_v13 (ix3 n m j) k = ix3 n k j from
    funext fun a => by match a with | ⟨0, _⟩ => rfl | ⟨1, _⟩ => rfl | ⟨2, _⟩ => rfl]
  rw [slice_block]

/-- Degree 3. -/
theorem stage_in3 (x0 : FVec Ideal S400x1024 .f32) (x1 : FVec Ideal S400x16x16 .f32) (X : FVec Ideal Cert.ReferenceIdeal.S50000x1024 .f32) (Wg : FVec Ideal Cert.ReferenceIdeal.S50000x16x16 .f32) (p : Fin 400) (n : Fin 50000) (hx : ∀ k : Fin 1024, x0 (ix2 p k) = X (ix2 n k)) (hw : ∀ a b : Fin 16, x1 (ix3 p a b) = Wg (ix3 n a b)) (m : Fin 64) (j : Fin 7) :
    k0_pay45 (F := Ideal) (k0_pay21 x0) (k0_pay22 x1) (k0_pay24 (k0_pay21 x0) (k0_pay22 x1) (k0_pay23 x0 x1)) (k0_pay28 (k0_pay21 x0) (k0_pay22 x1) (k0_pay25 (k0_pay21 x0) (k0_pay22 x1)) (k0_pay26 (k0_pay21 x0)) (k0_pay27 (k0_pay22 x1))) (k0_pay31 (k0_pay21 x0) (k0_pay22 x1) (k0_pay29 (k0_pay21 x0) (k0_pay22 x1)) (k0_pay30 (k0_pay22 x1))) (k0_pay34 (k0_pay21 x0) (k0_pay22 x1) (k0_pay32 (k0_pay21 x0) (k0_pay22 x1)) (k0_pay33 (k0_pay21 x0) (k0_pay22 x1))) (k0_pay38 (k0_pay21 x0) (k0_pay22 x1) (k0_pay35 (k0_pay21 x0) (k0_pay22 x1)) (k0_pay36 (k0_pay22 x1)) (k0_pay37 (k0_pay21 x0))) (k0_pay41 (k0_pay21 x0) (k0_pay22 x1) (k0_pay39 (k0_pay21 x0) (k0_pay22 x1)) (k0_pay40 (k0_pay22 x1))) (k0_pay42 (k0_pay21 x0) (k0_pay22 x1)) (k0_pay43 (k0_pay21 x0)) (k0_pay44 (k0_pay22 x1)) (ix3 p m j)
      = val_main_v13 (F := Ideal) X Wg (ix3 n m j) := by
  rw [val_main_v13_apply]
  simp only [Fin.sum_univ_seven, in3_eL, in3_eR]
  have kL := in3_kL x0 X p n hx
  have kR := in3_kR x1 Wg p n hw
  unfold k0_pay45 k0_pay23 k0_pay24 k0_pay25 k0_pay26 k0_pay27 k0_pay28 k0_pay29 k0_pay30 k0_pay31 k0_pay32 k0_pay33
    k0_pay34 k0_pay35 k0_pay36 k0_pay37 k0_pay38 k0_pay39 k0_pay40 k0_pay41 k0_pay42 k0_pay43 k0_pay44
  fin_cases j <;>
  · refine (Eq.trans (by
      first
        | exact concat_last _ _ 0 (by simp) _ rfl rfl p m _ rfl
        | exact concat_last _ _ 1 (by simp) _ rfl rfl p m _ rfl
        | exact concat_last _ _ 2 (by simp) _ rfl rfl p m _ rfl
        | exact concat_last _ _ 3 (by simp) _ rfl rfl p m _ rfl
        | exact concat_last _ _ 4 (by simp) _ rfl rfl p m _ rfl
        | exact concat_last _ _ 5 (by simp) _ rfl rfl p m _ rfl
        | exact concat_last _ _ 6 (by simp) _ rfl rfl p m _ rfl) ?_)
    simp only [cast_addLast, addf_apply, mulf_apply, cast_dropLast, slice_last, bcast_col (N := 400) (by decide),
      cast_N_N1, cast_N11_N, slice_entry, kL, kR]
    rfl

end Cert.SO2

end
-- ==== Proof.StageMix0.lean ====
import proofs.«157599_j24927990186029_1_alg».proof.Proof.Gen.KernelIdeal.Skeleton
import proofs.«157599_j24927990186029_1_alg».proof.Proof.RefStages
import proofs.«157599_j24927990186029_1_alg».proof.Proof.LibRowRead
import Idealize.ShloMosaic.Lib.ValueLayout

noncomputable section

open Idealize.ShloMosaic Idealize.ShloMosaic.ValueIdx
open Cert.KernelIdeal Cert.KernelIdeal.Gen Cert.ReferenceIdeal.Stages RowRead

namespace Cert.SO2

/-! The mixing of the order-0 components: the 256 entries (64 channels of each degree, component m = 0) of a row times
the transposed weight matrix, plus the bias — the same sum of products on both sides, the kernel's through a matrix unit
product into a zero accumulator. -/

/-! The matrix product's operand indices: at result entry `i` and contraction index `q`, the left operand is read at
(row of `i`, `q`) and the right operand at (`q`, column of `i`). -/

private theorem lhs_y0_0 (i : S400x256.Idx) (q : dot_S400x256_S256x256_S400x256_1_0_0_1_n_n.contr.Idx) :
    (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
private theorem lhs_y0_1 (i : S400x256.Idx) (q : dot_S400x256_S256x256_S400x256_1_0_0_1_n_n.contr.Idx) :
    (dot_S400x256_S256x256_S400x256_1_0_0_1_n_n.lhsIdx i q 1).val = (q ⟨0, by decide⟩).val :=
  dot_S400x256_S256x256_S400x256_1_0_0_1_n_n.lhsIdx_val_of_single rfl i q
private theorem rhs_y0_0 (i : S400x256.Idx) (q : dot_S400x256_S256x256_S400x256_1_0_0_1_n_n.contr.Idx) :
    (dot_S400x256_S256x256_S400x256_1_0_0_1_n_n.rhsIdx i q 0).val = (q ⟨0, by decide⟩).val :=
  dot_S400x256_S256x256_S400x256_1_0_0_1_n_n.rhsIdx_val_of_single rfl i q
private theorem rhs_y0_1 (i : S400x256.Idx) (q : dot_S400x256_S256x256_S400x256_1_0_0_1_n_n.contr.Idx) :
    (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- A row of the matrix product into a zero accumulator: entry (p, o) is the sum over k of L (p, k) * R (k, o). -/
private theorem matmul_row {φ₁ φ₂ : FTy} (L : FVec Ideal S400x256 φ₁) (R : FVec Ideal S256x256 φ₂) (p : Fin 400) (o : Fin 256) :
    FloatOps.matmul dot_S400x256_S256x256_S400x256_1_0_0_1_n_n none L R (constant S400x256 .f32 0x00000000#32) (ix2 p o)
      = ∑ k : Fin 256, L (ix2 p k) * R (ix2 k o) := by
  rw [Ideal.matmul_constant_zero_apply, ← Equiv.sum_comp (ValueIdx.contrEquiv1 dot_S400x256_S256x256_S400x256_1_0_0_1_n_n 256 rfl rfl).symm]
  refine Finset.sum_congr rfl fun k _ => ?_
  have hk := ValueIdx.contrEquiv1_symm_val dot_S400x256_S256x256_S400x256_1_0_0_1_n_n 256 rfl rfl k
  have el : dot_S400x256_S256x256_S400x256_1_0_0_1_n_n.lhsIdx (ix2 p o) ((ValueIdx.contrEquiv1 dot_S400x256_S256x256_S400x256_1_0_0_1_n_n 256 rfl rfl).symm k) = ix2 p k := funext fun a => Fin.ext (by
    match a with
    | ⟨0, _⟩ => exact lhs_y0_0 _ _
    | ⟨1, _⟩ => exact (lhs_y0_1 _ _).trans hk)
  have er : dot_S400x256_S256x256_S400x256_1_0_0_1_n_n.rhsIdx (ix2 p o) ((ValueIdx.contrEquiv1 dot_S400x256_S256x256_S400x256_1_0_0_1_n_n 256 rfl rfl).symm k) = ix2 k o := funext fun a => Fin.ext (by
    match a with
    | ⟨0, _⟩ => exact (rhs_y0_0 _ _).trans hk
    | ⟨1, _⟩ => exact rhs_y0_1 _ _)
  rw [el, er]

/-- The order-0 mix. -/
theorem stage_y0 (X : FVec Ideal Cert.ReferenceIdeal.S50000x1024 .f32) (Wg : FVec Ideal Cert.ReferenceIdeal.S50000x16x16 .f32)
    (W0 : FVec Ideal S256x256 .f32) (b0 : FVec Ideal S256 .f32)
    (v3 : FVec Ideal S400x64x1 .f32) (v79 : FVec Ideal S400x64x3 .f32) (v283 : FVec Ideal S400x64x5 .f32) (v285 : FVec Ideal S400x64x7 .f32) (v286 : FVec Ideal S400x7x7 .f32) (v341 v396 v451 v506 v561 v616 v647 v651 v653 : FVec Ideal S400x64 .f32) (p : Fin 400) (n : Fin 50000)
    (h1 : ∀ (m : Fin 64) (z : Fin 1), v3 (ix3 p m z) = val_main_v1 (F := Ideal) X (ix3 n m z))
    (h5 : ∀ (m : Fin 64) (j : Fin 3), v79 (ix3 p m j) = val_main_v5 (F := Ideal) X Wg (ix3 n m j))
    (h9 : ∀ (m : Fin 64) (j : Fin 5), v283 (ix3 p m j) = val_main_v9 (F := Ideal) X Wg (ix3 n m j))
    (h13 : ∀ (m : Fin 64) (j : Fin 7), k0_pay45 (F := Ideal) v285 v286 v341 v396 v451 v506 v561 v616 v647 v651 v653 (ix3 p m j) = val_main_v13 (F := Ideal) X Wg (ix3 n m j))
    (o : Fin 256) :
    k0_pay46 (F := Ideal) v3 v79 v283 v285 v286 v341 v396 v451 v506 v561 v616 v647 v651 v653 W0 b0 (ix2 p o)
      = val_main_v26 (F := Ideal) X Wg W0 b0 (ix2 n o) := by
  unfold k0_pay46 val_main_v26
  simp only [addf_apply]
  refine congrArg₂ (· + ·) ?_ ?_
  · -- the product
    rw [val_main_v23_apply]
    refine (matmul_row _ _ p o).trans ?_
    refine Finset.sum_congr rfl fun k _ => ?_
    refine congrArg₂ (· * ·) ?_ ?_
    · -- entry k of the row of inputs
      rw [show lidx_main_v23 (ix2 n o) k = ix2 n k from
        funext fun a => by match a with | ⟨0, _⟩ => rfl | ⟨1, _⟩ => rfl]
      rw [truncf_apply]
      unfold val_main_v21
      by_cases c0 : k.val < 64
      · refine (concat_cols _ _ 0 (by simp) _ rfl 0 rfl p k ⟨k.val, c0⟩ (by simp)).trans ?_
        refine Eq.trans ?_ (concat_cols _ _ 0 (by simp) _ rfl 0 rfl n k ⟨k.val, c0⟩ (by simp)).symm
        unfold val_main_v14
        rw [cast_dropLast, cast_dropLast, h1]
      · by_cases c1 : k.val < 128
        · refine (concat_cols _ _ 1 (by simp) _ rfl 64 rfl p k ⟨k.val - 64, by omega⟩ (by show 64 + (k.val - 64) = k.val; omega)).trans ?_
          refine Eq.trans ?_ (concat_cols _ _ 1 (by simp) _ rfl 64 rfl n k ⟨k.val - 64, by omega⟩ (by show 64 + (k.val - 64) = k.val; omega)).symm
          unfold val_main_v16 val_main_v15
          rw [cast_dropLast, cast_dropLast, slice_last, slice_last, h5]
        · by_cases c2 : k.val < 192
          · refine (concat_cols _ _ 2 (by simp) _ rfl 128 rfl p k ⟨k.val - 128, by omega⟩ (by show 128 + (k.val - 128) = k.val; omega)).trans ?_
            refine Eq.trans ?_ (concat_cols _ _ 2 (by simp) _ rfl 128 rfl n k ⟨k.val - 128, by omega⟩ (by show 128 + (k.val - 128) = k.val; omega)).symm
            unfold val_main_v18 val_main_v17
            rw [cast_dropLast, cast_dropLast, slice_last, slice_last, h9]
          · have c3 : k.val < 256 := k.isLt
            refine (concat_cols _ _ 3 (by simp) _ rfl 192 rfl p k ⟨k.val - 192, by omega⟩ (by show 192 + (k.val - 192) = k.val; omega)).trans ?_
            refine Eq.trans ?_ (concat_cols _ _ 3 (by simp) _ rfl 192 rfl n k ⟨k.val - 192, by omega⟩ (by show 192 + (k.val - 192) = k.val; omega)).symm
            unfold val_main_v20 val_main_v19
            rw [cast_dropLast, cast_dropLast, slice_last, slice_last, h13]
    · -- entry (k, o) of the transposed weights
      refine (transpose_apply [1, 0] _ _ (ix2 k o) (ix2 o k) (fun b => match b with | ⟨0, _⟩ => rfl | ⟨1, _⟩ => rfl)).trans ?_
      rw [val_main_v22_apply, truncf_apply]
      exact congrArg W0 (funext fun a => by match a with | ⟨0, _⟩ => rfl | ⟨1, _⟩ => rfl)
  · -- the bias
    rw [broadcastTo_1b_ab_apply, shapeCast_a_1a_apply, val_main_v25_apply, val_main_v24_apply]
    exact congrArg b0 (funext fun a => by match a with | ⟨0, _⟩ => rfl)

/-- The degree-0 part of the result: the first 64 entries of the order-0 mix. -/
theorem stage_out0 (X : FVec Ideal Cert.ReferenceIdeal.S50000x1024 .f32) (Wg : FVec Ideal Cert.ReferenceIdeal.S50000x16x16 .f32)
    (W0 : FVec Ideal S256x256 .f32) (b0 : FVec Ideal S256 .f32) (v696 : FVec Ideal S400x256 .f32) (p : Fin 400) (n : Fin 50000)
    (h26 : ∀ o : Fin 256, v696 (ix2 p o) = val_main_v26 (F := Ideal) X Wg W0 b0 (ix2 n o)) (q : Fin 64) :
    k0_pay54 (F := Ideal) v696 (ix2 p q) = val_main_v69 (F := Ideal) X Wg W0 b0 (ix2 n q) := by
  unfold k0_pay54 val_main_v69 val_main_v68 val_main_v67
  rw [cast_dropLast, cast_addLast, slice_cols, h26, cast_dropLast, bcastInDim_addLast, slice_cols]

end Cert.SO2

end
-- ==== Proof.StageMix123.lean ====
import proofs.«157599_j24927990186029_1_alg».proof.Proof.Gen.KernelIdeal.Skeleton
import proofs.«157599_j24927990186029_1_alg».proof.Proof.RefStages
import proofs.«157599_j24927990186029_1_alg».proof.Proof.LibRowRead

noncomputable section

open Idealize.ShloMosaic Idealize.ShloMosaic.ValueIdx
open Cert.KernelIdeal Cert.KernelIdeal.Gen Cert.ReferenceIdeal.Stages RowRead

namespace Cert.SO2

/-! The mixing of the order-m components, m = 1, 2, 3: the (−m, +m) pair of rows of `64 (4 − m)` entries each times the
transposed weight matrix of order m. The kernel flattens the pairs to 800 rows for one matrix product and folds them back;
the reference contracts the last axis of the rank-3 array directly. -/

/-! A square matrix transposed, read at an entry. -/
private theorem transpose_sq {α : Type} {K : ℕ} (x : (⟨2, ![K, K]⟩ : Shape).Idx → α)
    (h : (⟨2, ![K, K]⟩ : Shape).Transposes [1, 0] ⟨2, ![K, K]⟩) (a b : Fin K) :
    transpose ⟨2, ![K, K]⟩ [1, 0] x h (ix2 a b) = x (ix2 b a) := by
  refine transpose_apply _ x h _ _ fun c => ?_
  match c with
  | ⟨0, _⟩ => rfl
  | ⟨1, _⟩ => rfl

/-! Row `2 p + i` of the flattened pairs is entry `i` of pair `p`. -/
private theorem pair_div (p : Fin 400) (i : Fin 2) (h : (2 * p.val + i.val) / 2 < 400) :
    (⟨(2 * p.val + i.val) / 2, h⟩ : Fin 400) = p := Fin.ext (by have := i.isLt; show (2 * p.val + i.val) / 2 = p.val; omega)
private theorem pair_mod (p : Fin 400) (i : Fin 2) (h : (2 * p.val + i.val) % 2 < 2) :
    (⟨(2 * p.val + i.val) % 2, h⟩ : Fin 2) = i := Fin.ext (by have := i.isLt; show (2 * p.val + i.val) % 2 = i.val; omega)

/-! One entry `c` of the last axis, as a matrix of the two leading axes. -/
private theorem comp_col {α : Type} {N A d : ℕ} (c : ℕ) (v : (⟨3, ![N, A, d]⟩ : Shape).Idx → α)
    (h : (⟨3, ![N, A, d]⟩ : Shape).Slices ![0, 0, c] ⟨3, ![N, A, 1]⟩)
    (h' : (⟨3, ![N, A, 1]⟩ : Shape).ShapeCasts ⟨2, ![N, A]⟩) (n : Fin N) (a : Fin A) :
    shapeCast ⟨2, ![N, A]⟩ (extractStridedSlice ⟨3, ![N, A, 1]⟩ ![0, 0, c] v h) h' (ix2 n a)
      = v (ix3 n a ⟨c, by have := h.2 (2 : Fin 3); simpa using this⟩) := by
  rw [cast_dropLast, slice_last]

/-! The matrix product of order-m rows: 800 rows of 64 entries times a 64 × 64 matrix into a zero accumulator, read at
an entry as the sum over the contracted axis. -/

private theorem lhs64_0 (j : S800x64.Idx) (q : dot_S800x64_S64x64_S800x64_1_0_0_1_n_n.contr.Idx) :
    (dot_S800x64_S64x64_S800x64_1_0_0_1_n_n.lhsIdx j q 0).val = (j 0).val := by
  unfold DotDims.lhsIdx
  rw [dif_neg (show ¬(0 : Fin S800x64.rank) ∈ dot_S800x64_S64x64_S800x64_1_0_0_1_n_n.lhsBatch by decide), dif_pos (show (0 : Fin S800x64.rank) ∈ dot_S800x64_S64x64_S800x64_1_0_0_1_n_n.lhsNonContracting by decide)]
  rfl
private theorem lhs64_1 (j : S800x64.Idx) (q : dot_S800x64_S64x64_S800x64_1_0_0_1_n_n.contr.Idx) :
    (dot_S800x64_S64x64_S800x64_1_0_0_1_n_n.lhsIdx j q 1).val = (q ⟨0, by decide⟩).val :=
  dot_S800x64_S64x64_S800x64_1_0_0_1_n_n.lhsIdx_val_of_single rfl j q
private theorem rhs64_0 (j : S800x64.Idx) (q : dot_S800x64_S64x64_S800x64_1_0_0_1_n_n.contr.Idx) :
    (dot_S800x64_S64x64_S800x64_1_0_0_1_n_n.rhsIdx j q 0).val = (q ⟨0, by decide⟩).val :=
  dot_S800x64_S64x64_S800x64_1_0_0_1_n_n.rhsIdx_val_of_single rfl j q
private theorem rhs64_1 (j : S800x64.Idx) (q : dot_S800x64_S64x64_S800x64_1_0_0_1_n_n.contr.Idx) :
    (dot_S800x64_S64x64_S800x64_1_0_0_1_n_n.rhsIdx j q 1).val = (j 1).val := by
  unfold DotDims.rhsIdx
  rw [dif_neg (show ¬(1 : Fin S64x64.rank) ∈ dot_S800x64_S64x64_S800x64_1_0_0_1_n_n.rhsBatch by decide), dif_pos (show (1 : Fin S64x64.rank) ∈ dot_S800x64_S64x64_S800x64_1_0_0_1_n_n.rhsNonContracting by decide)]
  rfl

private theorem mm64 (lhs : FVec Ideal S800x64 .bf16) (rhs : FVec Ideal S64x64 .bf16) (r : Fin 800) (o : Fin 64) :
    matmul dot_S800x64_S64x64_S800x64_1_0_0_1_n_n none lhs rhs (constant S800x64 .f32 0x00000000#32) (ix2 r o)
      = ∑ k : Fin 64, lhs (ix2 r k) * rhs (ix2 k o) := by
  refine (Ideal.matmul_constant_zero_apply dot_S800x64_S64x64_S800x64_1_0_0_1_n_n none lhs rhs (ix2 r o)).trans ?_
  rw [← Equiv.sum_comp (ValueIdx.contrEquiv1 dot_S800x64_S64x64_S800x64_1_0_0_1_n_n 64 rfl rfl).symm]
  refine Finset.sum_congr rfl fun k _ => ?_
  have hk := ValueIdx.contrEquiv1_symm_val dot_S800x64_S64x64_S800x64_1_0_0_1_n_n 64 rfl rfl k
  have el : dot_S800x64_S64x64_S800x64_1_0_0_1_n_n.lhsIdx (ix2 r o) ((ValueIdx.contrEquiv1 dot_S800x64_S64x64_S800x64_1_0_0_1_n_n 64 rfl rfl).symm k) = ix2 r k := funext fun a => Fin.ext (by
    match a with
    | ⟨0, _⟩ => exact lhs64_0 _ _
    | ⟨1, _⟩ => exact (lhs64_1 _ _).trans hk)
  have er : dot_S800x64_S64x64_S800x64_1_0_0_1_n_n.rhsIdx (ix2 r o) ((ValueIdx.contrEquiv1 dot_S800x64_S64x64_S800x64_1_0_0_1_n_n 64 rfl rfl).symm k) = ix2 k o := funext fun a => Fin.ext (by
    match a with
    | ⟨0, _⟩ => exact (rhs64_0 _ _).trans hk
    | ⟨1, _⟩ => exact rhs64_1 _ _)
  rw [el, er]

/-! The matrix product of order-m rows: 800 rows of 128 entries times a 128 × 128 matrix into a zero accumulator, read at
an entry as the sum over the contracted axis. -/

private theorem lhs128_0 (j : S800x128.Idx) (q : dot_S800x128_S128x128_S800x128_1_0_0_1_n_n.contr.Idx) :
    (dot_S800x128_S128x128_S800x128_1_0_0_1_n_n.lhsIdx j q 0).val = (j 0).val := by
  unfold DotDims.lhsIdx
  rw [dif_neg (show ¬(0 : Fin S800x128.rank) ∈ dot_S800x128_S128x128_S800x128_1_0_0_1_n_n.lhsBatch by decide), dif_pos (show (0 : Fin S800x128.rank) ∈ dot_S800x128_S128x128_S800x128_1_0_0_1_n_n.lhsNonContracting by decide)]
  rfl
private theorem lhs128_1 (j : S800x128.Idx) (q : dot_S800x128_S128x128_S800x128_1_0_0_1_n_n.contr.Idx) :
    (dot_S800x128_S128x128_S800x128_1_0_0_1_n_n.lhsIdx j q 1).val = (q ⟨0, by decide⟩).val :=
  dot_S800x128_S128x128_S800x128_1_0_0_1_n_n.lhsIdx_val_of_single rfl j q
private theorem rhs128_0 (j : S800x128.Idx) (q : dot_S800x128_S128x128_S800x128_1_0_0_1_n_n.contr.Idx) :
    (dot_S800x128_S128x128_S800x128_1_0_0_1_n_n.rhsIdx j q 0).val = (q ⟨0, by decide⟩).val :=
  dot_S800x128_S128x128_S800x128_1_0_0_1_n_n.rhsIdx_val_of_single rfl j q
private theorem rhs128_1 (j : S800x128.Idx) (q : dot_S800x128_S128x128_S800x128_1_0_0_1_n_n.contr.Idx) :
    (dot_S800x128_S128x128_S800x128_1_0_0_1_n_n.rhsIdx j q 1).val = (j 1).val := by
  unfold DotDims.rhsIdx
  rw [dif_neg (show ¬(1 : Fin S128x128.rank) ∈ dot_S800x128_S128x128_S800x128_1_0_0_1_n_n.rhsBatch by decide), dif_pos (show (1 : Fin S128x128.rank) ∈ dot_S800x128_S128x128_S800x128_1_0_0_1_n_n.rhsNonContracting by decide)]
  rfl

private theorem mm128 (lhs : FVec Ideal S800x128 .bf16) (rhs : FVec Ideal S128x128 .bf16) (r : Fin 800) (o : Fin 128) :
    matmul dot_S800x128_S128x128_S800x128_1_0_0_1_n_n none lhs rhs (constant S800x128 .f32 0x00000000#32) (ix2 r o)
      = ∑ k : Fin 128, lhs (ix2 r k) * rhs (ix2 k o) := by
  refine (Ideal.matmul_constant_zero_apply dot_S800x128_S128x128_S800x128_1_0_0_1_n_n none lhs rhs (ix2 r o)).trans ?_
  rw [← Equiv.sum_comp (ValueIdx.contrEquiv1 dot_S800x128_S128x128_S800x128_1_0_0_1_n_n 128 rfl rfl).symm]
  refine Finset.sum_congr rfl fun k _ => ?_
  have hk := ValueIdx.contrEquiv1_symm_val dot_S800x128_S128x128_S800x128_1_0_0_1_n_n 128 rfl rfl k
  have el : dot_S800x128_S128x128_S800x128_1_0_0_1_n_n.lhsIdx (ix2 r o) ((ValueIdx.contrEquiv1 dot_S800x128_S128x128_S800x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S800x128_S128x128_S800x128_1_0_0_1_n_n.rhsIdx (ix2 r o) ((ValueIdx.contrEquiv1 dot_S800x128_S128x128_S800x128_1_0_0_1_n_n 128 rfl rfl).symm k) = ix2 k o := funext fun a => Fin.ext (by
    match a with
    | ⟨0, _⟩ => exact (rhs128_0 _ _).trans hk
    | ⟨1, _⟩ => exact rhs128_1 _ _)
  rw [el, er]

/-! The matrix product of order-m rows: 800 rows of 192 entries times a 192 × 192 matrix into a zero accumulator, read at
an entry as the sum over the contracted axis. -/

private theorem lhs192_0 (j : S800x192.Idx) (q : dot_S800x192_S192x192_S800x192_1_0_0_1_n_n.contr.Idx) :
    (dot_S800x192_S192x192_S800x192_1_0_0_1_n_n.lhsIdx j q 0).val = (j 0).val := by
  unfold DotDims.lhsIdx
  rw [dif_neg (show ¬(0 : Fin S800x192.rank) ∈ dot_S800x192_S192x192_S800x192_1_0_0_1_n_n.lhsBatch by decide), dif_pos (show (0 : Fin S800x192.rank) ∈ dot_S800x192_S192x192_S800x192_1_0_0_1_n_n.lhsNonContracting by decide)]
  rfl
private theorem lhs192_1 (j : S800x192.Idx) (q : dot_S800x192_S192x192_S800x192_1_0_0_1_n_n.contr.Idx) :
    (dot_S800x192_S192x192_S800x192_1_0_0_1_n_n.lhsIdx j q 1).val = (q ⟨0, by decide⟩).val :=
  dot_S800x192_S192x192_S800x192_1_0_0_1_n_n.lhsIdx_val_of_single rfl j q
private theorem rhs192_0 (j : S800x192.Idx) (q : dot_S800x192_S192x192_S800x192_1_0_0_1_n_n.contr.Idx) :
    (dot_S800x192_S192x192_S800x192_1_0_0_1_n_n.rhsIdx j q 0).val = (q ⟨0, by decide⟩).val :=
  dot_S800x192_S192x192_S800x192_1_0_0_1_n_n.rhsIdx_val_of_single rfl j q
private theorem rhs192_1 (j : S800x192.Idx) (q : dot_S800x192_S192x192_S800x192_1_0_0_1_n_n.contr.Idx) :
    (dot_S800x192_S192x192_S800x192_1_0_0_1_n_n.rhsIdx j q 1).val = (j 1).val := by
  unfold DotDims.rhsIdx
  rw [dif_neg (show ¬(1 : Fin S192x192.rank) ∈ dot_S800x192_S192x192_S800x192_1_0_0_1_n_n.rhsBatch by decide), dif_pos (show (1 : Fin S192x192.rank) ∈ dot_S800x192_S192x192_S800x192_1_0_0_1_n_n.rhsNonContracting by decide)]
  rfl

private theorem mm192 (lhs : FVec Ideal S800x192 .bf16) (rhs : FVec Ideal S192x192 .bf16) (r : Fin 800) (o : Fin 192) :
    matmul dot_S800x192_S192x192_S800x192_1_0_0_1_n_n none lhs rhs (constant S800x192 .f32 0x00000000#32) (ix2 r o)
      = ∑ k : Fin 192, lhs (ix2 r k) * rhs (ix2 k o) := by
  refine (Ideal.matmul_constant_zero_apply dot_S800x192_S192x192_S800x192_1_0_0_1_n_n none lhs rhs (ix2 r o)).trans ?_
  rw [← Equiv.sum_comp (ValueIdx.contrEquiv1 dot_S800x192_S192x192_S800x192_1_0_0_1_n_n 192 rfl rfl).symm]
  refine Finset.sum_congr rfl fun k _ => ?_
  have hk := ValueIdx.contrEquiv1_symm_val dot_S800x192_S192x192_S800x192_1_0_0_1_n_n 192 rfl rfl k
  have el : dot_S800x192_S192x192_S800x192_1_0_0_1_n_n.lhsIdx (ix2 r o) ((ValueIdx.contrEquiv1 dot_S800x192_S192x192_S800x192_1_0_0_1_n_n 192 rfl rfl).symm k) = ix2 r k := funext fun a => Fin.ext (by
    match a with
    | ⟨0, _⟩ => exact lhs192_0 _ _
    | ⟨1, _⟩ => exact (lhs192_1 _ _).trans hk)
  have er : dot_S800x192_S192x192_S800x192_1_0_0_1_n_n.rhsIdx (ix2 r o) ((ValueIdx.contrEquiv1 dot_S800x192_S192x192_S800x192_1_0_0_1_n_n 192 rfl rfl).symm k) = ix2 k o := funext fun a => Fin.ext (by
    match a with
    | ⟨0, _⟩ => exact (rhs192_0 _ _).trans hk
    | ⟨1, _⟩ => exact rhs192_1 _ _)
  rw [el, er]

/-- Order 1. -/
theorem stage_y1 (X : FVec Ideal Cert.ReferenceIdeal.S50000x1024 .f32) (Wg : FVec Ideal Cert.ReferenceIdeal.S50000x16x16 .f32) (W1 : FVec Ideal S192x192 .f32)
    (v79 : FVec Ideal S400x64x3 .f32) (v283 : FVec Ideal S400x64x5 .f32) (v285 : FVec Ideal S400x64x7 .f32) (v286 : FVec Ideal S400x7x7 .f32) (v341 v396 v451 v506 v561 v616 v647 v651 v653 : FVec Ideal S400x64 .f32) (p : Fin 400) (n : Fin 50000)
    (h5 : ∀ (m : Fin 64) (j : Fin 3), v79 (ix3 p m j) = val_main_v5 (F := Ideal) X Wg (ix3 n m j))
    (h9 : ∀ (m : Fin 64) (j : Fin 5), v283 (ix3 p m j) = val_main_v9 (F := Ideal) X Wg (ix3 n m j))
    (h13 : ∀ (m : Fin 64) (j : Fin 7), k0_pay45 (F := Ideal) v285 v286 v341 v396 v451 v506 v561 v616 v647 v651 v653 (ix3 p m j) = val_main_v13 (F := Ideal) X Wg (ix3 n m j))
    (i : Fin 2) (o : Fin 192) :
    k0_pay51 (F := Ideal) (k0_pay47 v79 v283 v285 v286 v341 v396 v451 v506 v561 v616 v647 v651 v653) (k0_pay48 v79) (k0_pay49 v283) (k0_pay50 v285 v286 v341 v396 v451 v506 v561 v616 v647 v651 v653) W1 (ix3 p i o)
      = val_main_v44 (F := Ideal) X Wg W1 (ix3 n i o) := by
  rw [val_main_v44_apply]
  unfold k0_pay51
  rw [cast_pairs_unflat (N := 400) (M := 800) rfl, mm192]
  refine Finset.sum_congr rfl fun k _ => ?_
  rw [show lidx_main_v44 (ix3 n i o) k = ix3 n i k from
      funext fun a => by match a with | ⟨0, _⟩ => rfl | ⟨1, _⟩ => rfl | ⟨2, _⟩ => rfl,
    show ridx_main_v44 (ix3 n i o) k = ix2 o k from
      funext fun a => by match a with | ⟨0, _⟩ => rfl | ⟨1, _⟩ => rfl]
  rw [transpose_sq, truncf_apply, truncf_apply, cast_pairs_flat (N := 400) (M := 800) rfl, pair_div, pair_mod]
  refine congrArg (· * W1 (ix2 o k)) ?_
  unfold val_main_v43
  fin_cases i
  · refine (concat_mid _ _ 0 (by simp) _ rfl rfl p _ rfl k).trans ?_
    refine Eq.trans ?_ (concat_mid _ _ 0 (by simp) _ rfl rfl n _ rfl k).symm
    unfold val_main_v41 val_main_v33 k0_pay47
    rw [cast_addMid, bcastInDim_addMid]
    by_cases hk : k.val < 64
    · refine (concat_cols _ _ 0 (by simp) _ rfl 0 rfl p k ⟨k.val, hk⟩ (Nat.zero_add _)).trans ?_
      refine Eq.trans ?_ (concat_cols _ _ 0 (by simp) _ rfl 0 rfl n k ⟨k.val, hk⟩ (Nat.zero_add _)).symm
      unfold val_main_v28 val_main_v27
      rw [comp_col, comp_col, h5]
    · by_cases hk2 : k.val < 128
      · have hk' : k.val - 64 < 64 := by have := k.isLt; omega
        refine (concat_cols _ _ 1 (by simp) _ rfl 64 rfl p k ⟨k.val - 64, hk'⟩ (by show 64 + (k.val - 64) = k.val; omega)).trans ?_
        refine Eq.trans ?_ (concat_cols _ _ 1 (by simp) _ rfl 64 rfl n k ⟨k.val - 64, hk'⟩ (by show 64 + (k.val - 64) = k.val; omega)).symm
        unfold val_main_v30 val_main_v29
        rw [comp_col, comp_col, h9]
      · have hk' : k.val - 128 < 64 := by have := k.isLt; omega
        refine (concat_cols _ _ 2 (by simp) _ rfl 128 rfl p k ⟨k.val - 128, hk'⟩ (by show 128 + (k.val - 128) = k.val; omega)).trans ?_
        refine Eq.trans ?_ (concat_cols _ _ 2 (by simp) _ rfl 128 rfl n k ⟨k.val - 128, hk'⟩ (by show 128 + (k.val - 128) = k.val; omega)).symm
        unfold val_main_v32 val_main_v31
        rw [comp_col, comp_col, h13]
  · refine (concat_mid _ _ 1 (by simp) _ rfl rfl p _ rfl k).trans ?_
    refine Eq.trans ?_ (concat_mid _ _ 1 (by simp) _ rfl rfl n _ rfl k).symm
    unfold val_main_v42 val_main_v40
    rw [cast_addMid, bcastInDim_addMid]
    by_cases hk : k.val < 64
    · refine (concat_cols _ _ 0 (by simp) _ rfl 0 rfl p k ⟨k.val, hk⟩ (Nat.zero_add _)).trans ?_
      refine Eq.trans ?_ (concat_cols _ _ 0 (by simp) _ rfl 0 rfl n k ⟨k.val, hk⟩ (Nat.zero_add _)).symm
      unfold k0_pay48 val_main_v35 val_main_v34
      rw [comp_col, comp_col, h5]
    · by_cases hk2 : k.val < 128
      · have hk' : k.val - 64 < 64 := by have := k.isLt; omega
        refine (concat_cols _ _ 1 (by simp) _ rfl 64 rfl p k ⟨k.val - 64, hk'⟩ (by show 64 + (k.val - 64) = k.val; omega)).trans ?_
        refine Eq.trans ?_ (concat_cols _ _ 1 (by simp) _ rfl 64 rfl n k ⟨k.val - 64, hk'⟩ (by show 64 + (k.val - 64) = k.val; omega)).symm
        unfold k0_pay49 val_main_v37 val_main_v36
        rw [comp_col, comp_col, h9]
      · have hk' : k.val - 128 < 64 := by have := k.isLt; omega
        refine (concat_cols _ _ 2 (by simp) _ rfl 128 rfl p k ⟨k.val - 128, hk'⟩ (by show 128 + (k.val - 128) = k.val; omega)).trans ?_
        refine Eq.trans ?_ (concat_cols _ _ 2 (by simp) _ rfl 128 rfl n k ⟨k.val - 128, hk'⟩ (by show 128 + (k.val - 128) = k.val; omega)).symm
        unfold k0_pay50 val_main_v39 val_main_v38
        rw [comp_col, comp_col, h13]

/-- Order 2. -/
theorem stage_y2 (X : FVec Ideal Cert.ReferenceIdeal.S50000x1024 .f32) (Wg : FVec Ideal Cert.ReferenceIdeal.S50000x16x16 .f32) (W2 : FVec Ideal S128x128 .f32)
    (v283 : FVec Ideal S400x64x5 .f32) (v679 : FVec Ideal S400x64x7 .f32) (p : Fin 400) (n : Fin 50000)
    (h9 : ∀ (m : Fin 64) (j : Fin 5), v283 (ix3 p m j) = val_main_v9 (F := Ideal) X Wg (ix3 n m j))
    (h13 : ∀ (m : Fin 64) (j : Fin 7), v679 (ix3 p m j) = val_main_v13 (F := Ideal) X Wg (ix3 n m j))
    (i : Fin 2) (o : Fin 128) :
    k0_pay52 (F := Ideal) v283 v679 W2 (ix3 p i o) = val_main_v58 (F := Ideal) X Wg W2 (ix3 n i o) := by
  rw [val_main_v58_apply]
  unfold k0_pay52
  rw [cast_pairs_unflat (N := 400) (M := 800) rfl, mm128]
  refine Finset.sum_congr rfl fun k _ => ?_
  rw [show lidx_main_v58 (ix3 n i o) k = ix3 n i k from
      funext fun a => by match a with | ⟨0, _⟩ => rfl | ⟨1, _⟩ => rfl | ⟨2, _⟩ => rfl,
    show ridx_main_v58 (ix3 n i o) k = ix2 o k from
      funext fun a => by match a with | ⟨0, _⟩ => rfl | ⟨1, _⟩ => rfl]
  rw [transpose_sq, truncf_apply, truncf_apply, cast_pairs_flat (N := 400) (M := 800) rfl, pair_div, pair_mod]
  refine congrArg (· * W2 (ix2 o k)) ?_
  unfold val_main_v57
  fin_cases i
  · refine (concat_mid _ _ 0 (by simp) _ rfl rfl p _ rfl k).trans ?_
    refine Eq.trans ?_ (concat_mid _ _ 0 (by simp) _ rfl rfl n _ rfl k).symm
    unfold val_main_v55 val_main_v49
    rw [cast_addMid, bcastInDim_addMid]
    by_cases hk : k.val < 64
    · refine (concat_cols _ _ 0 (by simp) _ rfl 0 rfl p k ⟨k.val, hk⟩ (Nat.zero_add _)).trans ?_
      refine Eq.trans ?_ (concat_cols _ _ 0 (by simp) _ rfl 0 rfl n k ⟨k.val, hk⟩ (Nat.zero_add _)).symm
      unfold val_main_v46 val_main_v45
      rw [comp_col, comp_col, h9]
    · have hk' : k.val - 64 < 64 := by have := k.isLt; omega
      refine (concat_cols _ _ 1 (by simp) _ rfl 64 rfl p k ⟨k.val - 64, hk'⟩ (by show 64 + (k.val - 64) = k.val; omega)).trans ?_
      refine Eq.trans ?_ (concat_cols _ _ 1 (by simp) _ rfl 64 rfl n k ⟨k.val - 64, hk'⟩ (by show 64 + (k.val - 64) = k.val; omega)).symm
      unfold val_main_v48 val_main_v47
      rw [comp_col, comp_col, h13]
  · refine (concat_mid _ _ 1 (by simp) _ rfl rfl p _ rfl k).trans ?_
    refine Eq.trans ?_ (concat_mid _ _ 1 (by simp) _ rfl rfl n _ rfl k).symm
    unfold val_main_v56 val_main_v54
    rw [cast_addMid, bcastInDim_addMid]
    by_cases hk : k.val < 64
    · refine (concat_cols _ _ 0 (by simp) _ rfl 0 rfl p k ⟨k.val, hk⟩ (Nat.zero_add _)).trans ?_
      refine Eq.trans ?_ (concat_cols _ _ 0 (by simp) _ rfl 0 rfl n k ⟨k.val, hk⟩ (Nat.zero_add _)).symm
      unfold val_main_v51 val_main_v50
      rw [comp_col, comp_col, h9]
    · have hk' : k.val - 64 < 64 := by have := k.isLt; omega
      refine (concat_cols _ _ 1 (by simp) _ rfl 64 rfl p k ⟨k.val - 64, hk'⟩ (by show 64 + (k.val - 64) = k.val; omega)).trans ?_
      refine Eq.trans ?_ (concat_cols _ _ 1 (by simp) _ rfl 64 rfl n k ⟨k.val - 64, hk'⟩ (by show 64 + (k.val - 64) = k.val; omega)).symm
      unfold val_main_v53 val_main_v52
      rw [comp_col, comp_col, h13]

/-- Order 3. -/
theorem stage_y3 (X : FVec Ideal Cert.ReferenceIdeal.S50000x1024 .f32) (Wg : FVec Ideal Cert.ReferenceIdeal.S50000x16x16 .f32) (W3 : FVec Ideal S64x64 .f32)
    (v679 : FVec Ideal S400x64x7 .f32) (p : Fin 400) (n : Fin 50000)
    (h13 : ∀ (m : Fin 64) (j : Fin 7), v679 (ix3 p m j) = val_main_v13 (F := Ideal) X Wg (ix3 n m j))
    (i : Fin 2) (o : Fin 64) :
    k0_pay53 (F := Ideal) v679 W3 (ix3 p i o) = val_main_v66 (F := Ideal) X Wg W3 (ix3 n i o) := by
  rw [val_main_v66_apply]
  unfold k0_pay53
  rw [cast_pairs_unflat (N := 400) (M := 800) rfl, mm64]
  refine Finset.sum_congr rfl fun k _ => ?_
  rw [show lidx_main_v66 (ix3 n i o) k = ix3 n i k from
      funext fun a => by match a with | ⟨0, _⟩ => rfl | ⟨1, _⟩ => rfl | ⟨2, _⟩ => rfl,
    show ridx_main_v66 (ix3 n i o) k = ix2 o k from
      funext fun a => by match a with | ⟨0, _⟩ => rfl | ⟨1, _⟩ => rfl]
  rw [transpose_sq, truncf_apply, truncf_apply, cast_pairs_flat (N := 400) (M := 800) rfl, pair_div, pair_mod]
  refine congrArg (· * W3 (ix2 o k)) ?_
  unfold val_main_v65
  fin_cases i
  · refine (concat_mid _ _ 0 (by simp) _ rfl rfl p _ rfl k).trans ?_
    refine Eq.trans ?_ (concat_mid _ _ 0 (by simp) _ rfl rfl n _ rfl k).symm
    unfold val_main_v63 val_main_v60 val_main_v59
    rw [cast_addMid, cast_dropLast, slice_last, h13, bcastInDim_addMid, cast_dropLast, slice_last]
  · refine (concat_mid _ _ 1 (by simp) _ rfl rfl p _ rfl k).trans ?_
    refine Eq.trans ?_ (concat_mid _ _ 1 (by simp) _ rfl rfl n _ rfl k).symm
    unfold val_main_v64 val_main_v62 val_main_v61
    rw [cast_addMid, cast_dropLast, slice_last, h13, bcastInDim_addMid, cast_dropLast, slice_last]

end Cert.SO2

end
-- ==== Proof.StageOut12.lean ====
import proofs.«157599_j24927990186029_1_alg».proof.Proof.Gen.KernelIdeal.Skeleton
import proofs.«157599_j24927990186029_1_alg».proof.Proof.RefStages
import proofs.«157599_j24927990186029_1_alg».proof.Proof.LibRowRead

noncomputable section

open Idealize.ShloMosaic Idealize.ShloMosaic.ValueIdx
open Cert.KernelIdeal Cert.KernelIdeal.Gen Cert.ReferenceIdeal.Stages RowRead

namespace Cert.SO2

/-! The rotation of the degree 1 and degree 2 channels BACK by the transposed Wigner block. Entry (ch, c) of the degree-l
block to rotate is the order-(c − l) mix at that channel (the order-0 mix in the middle, the (−m, +m) pair around it), and
entry `(2l+1) ch + j` of the result's degree-l part is the sum over c of that entry times the Wigner block's entry (j, c). -/

/-- One entry `i` of the middle axis and the columns `off … off + K' - 1` of the last axis, every row kept. -/
private theorem slice_row {α : Type} {N M K K' : ℕ} (i off : ℕ) (v : (⟨3, ![N, M, K]⟩ : Shape).Idx → α)
    (h : (⟨3, ![N, M, K]⟩ : Shape).Slices ![0, i, off] ⟨3, ![N, 1, K']⟩) (n : Fin N) (z : Fin 1) (k : Fin K') :
    extractStridedSlice ⟨3, ![N, 1, K']⟩ ![0, i, off] v h (ix3 n z k)
      = v (ix3 n ⟨i, by have := h.2 (1 : Fin 3); simpa using this⟩
                 ⟨off + k.val, by have h1 : off + K' ≤ K := h.2 (2 : Fin 3); have := k.isLt; omega⟩) := by
  refine extractStridedSlice_apply _ v h _ _ fun b => ?_
  match b with
  | ⟨0, _⟩ => show n.val = 0 + n.val; omega
  | ⟨1, _⟩ => show i = i + z.val; omega
  | ⟨2, _⟩ => rfl

/-- A row of `A` groups of `d` entries viewed as one row, read at the entry `d * a + c` the caller names. -/
private theorem cast_merge_at {α : Type} {N A d K : ℕ} (v : (⟨3, ![N, A, d]⟩ : Shape).Idx → α)
    (h : (⟨3, ![N, A, d]⟩ : Shape).ShapeCasts ⟨2, ![N, K]⟩) (n : Fin N) (k : Fin K) (a : Fin A) (c : Fin d)
    (hk : k.val = d * a.val + c.val) (hK : K = A * d) :
    shapeCast ⟨2, ![N, K]⟩ v h (ix2 n k) = v (ix3 n a c) := by
  refine shapeCast_apply v h _ _ ?_
  rw [Shape.rowMajor_val_three, Shape.rowMajor_val_two]
  subst hK
  show (n.val * A + a.val) * d + c.val = n.val * (A * d) + k.val
  rw [hk]
  ring

/-- The degree-1 block to rotate back. -/
theorem stage_c1 (X : FVec Ideal Cert.ReferenceIdeal.S50000x1024 .f32) (Wg : FVec Ideal Cert.ReferenceIdeal.S50000x16x16 .f32) (W0 : FVec Ideal S256x256 .f32) (b0 : FVec Ideal S256 .f32) (W1 : FVec Ideal S192x192 .f32)
    (v696 : FVec Ideal S400x256 .f32) (v703 : FVec Ideal S400x192 .f32) (v705 v707 v709 : FVec Ideal S400x64 .f32) (p : Fin 400) (n : Fin 50000)
    (h26 : ∀ o : Fin 256, v696 (ix2 p o) = val_main_v26 (F := Ideal) X Wg W0 b0 (ix2 n o))
    (h44 : ∀ (i : Fin 2) (o : Fin 192), k0_pay51 (F := Ideal) v703 v705 v707 v709 W1 (ix3 p i o) = val_main_v44 (F := Ideal) X Wg W1 (ix3 n i o))
    (ch : Fin 64) (c : Fin 3) :
    k0_pay57 (F := Ideal) (k0_pay51 v703 v705 v707 v709 W1) (k0_pay55 v696) (k0_pay56 v703 v705 v707 v709 W1) (ix3 p ch c)
      = val_main_v78 (F := Ideal) X Wg W0 b0 W1 (ix3 n ch c) := by
  unfold val_main_v78 k0_pay57
  fin_cases c
  · refine (concat_last _ _ 0 (by simp) _ rfl rfl p ch _ rfl).trans ?_
    refine Eq.trans ?_ (concat_last _ _ 0 (by simp) _ rfl rfl n ch _ rfl).symm
    unfold val_main_v75 val_main_v72 val_main_v71 k0_pay56
    rw [bcastInDim_addLast]
    simp only [cast_addLast, cast_dropMid, slice_row, h44]
  · refine (concat_last _ _ 1 (by simp) _ rfl rfl p ch _ rfl).trans ?_
    refine Eq.trans ?_ (concat_last _ _ 1 (by simp) _ rfl rfl n ch _ rfl).symm
    unfold val_main_v76 val_main_v70 k0_pay55
    rw [bcastInDim_addLast]
    simp only [cast_addLast, slice_cols, h26]
  · refine (concat_last _ _ 2 (by simp) _ rfl rfl p ch _ rfl).trans ?_
    refine Eq.trans ?_ (concat_last _ _ 2 (by simp) _ rfl rfl n ch _ rfl).symm
    unfold val_main_v77 val_main_v74 val_main_v73
    rw [bcastInDim_addLast]
    simp only [cast_addLast, cast_dropMid, slice_row, h44]

/-- The degree-1 part of the result. -/
theorem stage_out1 (x1 : FVec Ideal S400x16x16 .f32) (X : FVec Ideal Cert.ReferenceIdeal.S50000x1024 .f32) (Wg : FVec Ideal Cert.ReferenceIdeal.S50000x16x16 .f32) (W0 : FVec Ideal S256x256 .f32) (b0 : FVec Ideal S256 .f32) (W1 : FVec Ideal S192x192 .f32)
    (v696 : FVec Ideal S400x256 .f32) (v703 : FVec Ideal S400x192 .f32) (v705 v707 v709 : FVec Ideal S400x64 .f32) (p : Fin 400) (n : Fin 50000)
    (hw : ∀ a b : Fin 16, x1 (ix3 p a b) = Wg (ix3 n a b))
    (h78 : ∀ (ch : Fin 64) (c : Fin 3), k0_pay57 (F := Ideal) (k0_pay51 v703 v705 v707 v709 W1) (k0_pay55 v696) (k0_pay56 v703 v705 v707 v709 W1) (ix3 p ch c)
      = val_main_v78 (F := Ideal) X Wg W0 b0 W1 (ix3 n ch c))
    (q : Fin 192) :
    k0_pay62 (F := Ideal) (k0_pay57 (k0_pay51 v703 v705 v707 v709 W1) (k0_pay55 v696) (k0_pay56 v703 v705 v707 v709 W1)) (k0_pay58 x1) (k0_pay59 x1 (k0_pay51 v703 v705 v707 v709 W1) (k0_pay55 v696) (k0_pay56 v703 v705 v707 v709 W1)) (k0_pay60 x1 (k0_pay51 v703 v705 v707 v709 W1) (k0_pay55 v696) (k0_pay56 v703 v705 v707 v709 W1)) (k0_pay61 x1 (k0_pay51 v703 v705 v707 v709 W1) (k0_pay55 v696) (k0_pay56 v703 v705 v707 v709 W1)) (ix2 p q)
      = val_main_v81 (F := Ideal) X Wg W0 b0 W1 (ix2 n q) := by
  obtain ⟨ch, j, hq⟩ : ∃ (ch : Fin 64) (j : Fin 3), q.val = 3 * ch.val + j.val :=
    ⟨⟨q.val / 3, by omega⟩, ⟨q.val % 3, by omega⟩, by show q.val = 3 * (q.val / 3) + q.val % 3; omega⟩
  unfold k0_pay62 val_main_v81
  rw [cast_merge_at _ _ p q ch j hq rfl, cast_merge_at _ _ n q ch j hq rfl, val_main_v80_apply]
  have eL : ∀ k : Fin 3, val_main_v78 (F := Ideal) X Wg W0 b0 W1 (lidx_main_v80 (ix3 n ch j) k)
      = val_main_v78 (F := Ideal) X Wg W0 b0 W1 (ix3 n ch k) := by
    intro k
    rw [show lidx_main_v80 (ix3 n ch j) k = ix3 n ch k from
      funext fun a => by match a with | ⟨0, _⟩ => rfl | ⟨1, _⟩ => rfl | ⟨2, _⟩ => rfl]
  have eR : ∀ k : Fin 3, val_main_v79 (F := Ideal) Wg (ridx_main_v80 (ix3 n ch j) k)
      = Wg (ix3 n ⟨1 + j.val, by omega⟩ ⟨1 + k.val, by omega⟩) := by
    intro k
    unfold val_main_v79
    rw [show ridx_main_v80 (ix3 n ch j) k = ix3 n j k from
      funext fun a => by match a with | ⟨0, _⟩ => rfl | ⟨1, _⟩ => rfl | ⟨2, _⟩ => rfl]
    rw [slice_block]
  have kR : ∀ a b : Fin 3, k0_pay58 (F := Ideal) x1 (ix3 p a b) = Wg (ix3 n ⟨1 + a.val, by omega⟩ ⟨1 + b.val, by omega⟩) := by
    intro a b
    unfold k0_pay58
    rw [slice_block, hw]
  simp only [Fin.sum_univ_three, eL, eR]
  unfold k0_pay59 k0_pay60 k0_pay61
  clear hq
  fin_cases j <;>
  · refine (Eq.trans (by
      first
        | exact concat_last _ _ 0 (by simp) _ rfl rfl p ch _ rfl
        | exact concat_last _ _ 1 (by simp) _ rfl rfl p ch _ rfl
        | exact concat_last _ _ 2 (by simp) _ rfl rfl p ch _ rfl) ?_)
    simp only [cast_addLast, addf_apply, mulf_apply, cast_dropLast, slice_last, bcast_col (N := 400) (by decide),
      cast_N_N1, cast_N11_N, slice_entry, h78, kR]
    rfl

/-- The degree-2 block to rotate back. -/
theorem stage_c2 (X : FVec Ideal Cert.ReferenceIdeal.S50000x1024 .f32) (Wg : FVec Ideal Cert.ReferenceIdeal.S50000x16x16 .f32) (W0 : FVec Ideal S256x256 .f32) (b0 : FVec Ideal S256 .f32) (W1 : FVec Ideal S192x192 .f32) (W2 : FVec Ideal S128x128 .f32)
    (v696 : FVec Ideal S400x256 .f32) (v720 : FVec Ideal S400x2x192 .f32) (v740 : FVec Ideal S400x2x128 .f32) (p : Fin 400) (n : Fin 50000)
    (h26 : ∀ o : Fin 256, v696 (ix2 p o) = val_main_v26 (F := Ideal) X Wg W0 b0 (ix2 n o))
    (h44 : ∀ (i : Fin 2) (o : Fin 192), v720 (ix3 p i o) = val_main_v44 (F := Ideal) X Wg W1 (ix3 n i o))
    (h58 : ∀ (i : Fin 2) (o : Fin 128), v740 (ix3 p i o) = val_main_v58 (F := Ideal) X Wg W2 (ix3 n i o))
    (ch : Fin 64) (c : Fin 5) :
    k0_pay63 (F := Ideal) v696 v720 v740 (ix3 p ch c)
      = val_main_v96 (F := Ideal) X Wg W0 b0 W1 W2 (ix3 n ch c) := by
  unfold val_main_v96 k0_pay63
  fin_cases c
  · refine (concat_last _ _ 0 (by simp) _ rfl rfl p ch _ rfl).trans ?_
    refine Eq.trans ?_ (concat_last _ _ 0 (by simp) _ rfl rfl n ch _ rfl).symm
    unfold val_main_v91 val_main_v88 val_main_v87
    rw [bcastInDim_addLast]
    simp only [cast_addLast, cast_dropMid, slice_row, h58]
  · refine (concat_last _ _ 1 (by simp) _ rfl rfl p ch _ rfl).trans ?_
    refine Eq.trans ?_ (concat_last _ _ 1 (by simp) _ rfl rfl n ch _ rfl).symm
    unfold val_main_v92 val_main_v84 val_main_v83
    rw [bcastInDim_addLast]
    simp only [cast_addLast, cast_dropMid, slice_row, h44]
  · refine (concat_last _ _ 2 (by simp) _ rfl rfl p ch _ rfl).trans ?_
    refine Eq.trans ?_ (concat_last _ _ 2 (by simp) _ rfl rfl n ch _ rfl).symm
    unfold val_main_v93 val_main_v82
    rw [bcastInDim_addLast]
    simp only [cast_addLast, slice_cols, h26]
  · refine (concat_last _ _ 3 (by simp) _ rfl rfl p ch _ rfl).trans ?_
    refine Eq.trans ?_ (concat_last _ _ 3 (by simp) _ rfl rfl n ch _ rfl).symm
    unfold val_main_v94 val_main_v86 val_main_v85
    rw [bcastInDim_addLast]
    simp only [cast_addLast, cast_dropMid, slice_row, h44]
  · refine (concat_last _ _ 4 (by simp) _ rfl rfl p ch _ rfl).trans ?_
    refine Eq.trans ?_ (concat_last _ _ 4 (by simp) _ rfl rfl n ch _ rfl).symm
    unfold val_main_v95 val_main_v90 val_main_v89
    rw [bcastInDim_addLast]
    simp only [cast_addLast, cast_dropMid, slice_row, h58]

/-- The degree-2 part of the result. -/
theorem stage_out2 (x1 : FVec Ideal S400x16x16 .f32) (X : FVec Ideal Cert.ReferenceIdeal.S50000x1024 .f32) (Wg : FVec Ideal Cert.ReferenceIdeal.S50000x16x16 .f32) (W0 : FVec Ideal S256x256 .f32) (b0 : FVec Ideal S256 .f32) (W1 : FVec Ideal S192x192 .f32) (W2 : FVec Ideal S128x128 .f32)
    (v696 : FVec Ideal S400x256 .f32) (v720 : FVec Ideal S400x2x192 .f32) (v740 : FVec Ideal S400x2x128 .f32) (p : Fin 400) (n : Fin 50000)
    (hw : ∀ a b : Fin 16, x1 (ix3 p a b) = Wg (ix3 n a b))
    (h96 : ∀ (ch : Fin 64) (c : Fin 5), k0_pay63 (F := Ideal) v696 v720 v740 (ix3 p ch c)
      = val_main_v96 (F := Ideal) X Wg W0 b0 W1 W2 (ix3 n ch c))
    (q : Fin 320) :
    k0_pay74 (F := Ideal) (k0_pay63 v696 v720 v740) (k0_pay64 x1) (k0_pay66 (k0_pay63 v696 v720 v740) (k0_pay64 x1) (k0_pay65 x1 v696 v720 v740)) (k0_pay67 (k0_pay63 v696 v720 v740) (k0_pay64 x1)) (k0_pay70 (k0_pay63 v696 v720 v740) (k0_pay64 x1) (k0_pay68 (k0_pay63 v696 v720 v740)) (k0_pay69 (k0_pay64 x1))) (k0_pay71 (k0_pay63 v696 v720 v740) (k0_pay64 x1)) (k0_pay72 (k0_pay64 x1)) (k0_pay73 (k0_pay63 v696 v720 v740)) (ix2 p q)
      = val_main_v99 (F := Ideal) X Wg W0 b0 W1 W2 (ix2 n q) := by
  obtain ⟨ch, j, hq⟩ : ∃ (ch : Fin 64) (j : Fin 5), q.val = 5 * ch.val + j.val :=
    ⟨⟨q.val / 5, by omega⟩, ⟨q.val % 5, by omega⟩, by show q.val = 5 * (q.val / 5) + q.val % 5; omega⟩
  unfold k0_pay74 val_main_v99
  rw [cast_merge_at _ _ p q ch j hq rfl, cast_merge_at _ _ n q ch j hq rfl, val_main_v98_apply]
  have eL : ∀ k : Fin 5, val_main_v96 (F := Ideal) X Wg W0 b0 W1 W2 (lidx_main_v98 (ix3 n ch j) k)
      = val_main_v96 (F := Ideal) X Wg W0 b0 W1 W2 (ix3 n ch k) := by
    intro k
    rw [show lidx_main_v98 (ix3 n ch j) k = ix3 n ch k from
      funext fun a => by match a with | ⟨0, _⟩ => rfl | ⟨1, _⟩ => rfl | ⟨2, _⟩ => rfl]
  have eR : ∀ k : Fin 5, val_main_v97 (F := Ideal) Wg (ridx_main_v98 (ix3 n ch j) k)
      = Wg (ix3 n ⟨4 + j.val, by omega⟩ ⟨4 + k.val, by omega⟩) := by
    intro k
    unfold val_main_v97
    rw [show ridx_main_v98 (ix3 n ch j) k = ix3 n j k from
      funext fun a => by match a with | ⟨0, _⟩ => rfl | ⟨1, _⟩ => rfl | ⟨2, _⟩ => rfl]
    rw [slice_block]
  have kR : ∀ a b : Fin 5, k0_pay64 (F := Ideal) x1 (ix3 p a b) = Wg (ix3 n ⟨4 + a.val, by omega⟩ ⟨4 + b.val, by omega⟩) := by
    intro a b
    unfold k0_pay64
    rw [slice_block, hw]
  simp only [Fin.sum_univ_five, eL, eR]
  unfold k0_pay66 k0_pay65 k0_pay67 k0_pay70 k0_pay68 k0_pay69 k0_pay71 k0_pay72 k0_pay73
  clear hq
  fin_cases j <;>
  · refine (Eq.trans (by
      first
        | exact concat_last _ _ 0 (by simp) _ rfl rfl p ch _ rfl
        | exact concat_last _ _ 1 (by simp) _ rfl rfl p ch _ rfl
        | exact concat_last _ _ 2 (by simp) _ rfl rfl p ch _ rfl
        | exact concat_last _ _ 3 (by simp) _ rfl rfl p ch _ rfl
        | exact concat_last _ _ 4 (by simp) _ rfl rfl p ch _ rfl) ?_)
    simp only [cast_addLast, addf_apply, mulf_apply, cast_dropLast, slice_last, bcast_col (N := 400) (by decide),
      cast_N_N1, cast_N11_N, slice_entry, h96, kR]
    rfl

end Cert.SO2

end
-- ==== Proof.StageOut3.lean ====
import proofs.«157599_j24927990186029_1_alg».proof.Proof.Gen.KernelIdeal.Skeleton
import proofs.«157599_j24927990186029_1_alg».proof.Proof.RefStages
import proofs.«157599_j24927990186029_1_alg».proof.Proof.LibRowRead

noncomputable section

open Idealize.ShloMosaic Idealize.ShloMosaic.ValueIdx
open Cert.KernelIdeal Cert.KernelIdeal.Gen Cert.ReferenceIdeal.Stages RowRead

namespace Cert.SO2

/-! The rotation of the degree 3 channels BACK by the transposed Wigner block, and the result row: its 1024 entries are the
degree-0 part (64), the degree-1 part (192), the degree-2 part (320) and the degree-3 part (448) side by side; entry
`7 ch + j` of the degree-3 part is the sum over c of entry (ch, c) of the block to rotate times the Wigner block's entry
(9 + j, 9 + c). -/

/-- Row `i` of the middle axis and columns `off … off + K' - 1` of the last axis, kept as an [N,1,K'] array. -/
private theorem slice_mid {α : Type} {N M K K' : ℕ} (i off : ℕ) (v : (⟨3, ![N, M, K]⟩ : Shape).Idx → α)
    (h : (⟨3, ![N, M, K]⟩ : Shape).Slices ![0, i, off] ⟨3, ![N, 1, K']⟩) (n : Fin N) (z : Fin 1) (k : Fin K') :
    extractStridedSlice ⟨3, ![N, 1, K']⟩ ![0, i, off] v h (ix3 n z k)
      = v (ix3 n ⟨i, by have := h.2 (1 : Fin 3); simpa using this⟩
                 ⟨off + k.val, by have h1 : off + K' ≤ K := h.2 (2 : Fin 3); have := k.isLt; omega⟩) := by
  refine extractStridedSlice_apply _ v h _ _ fun b => ?_
  match b with
  | ⟨0, _⟩ => show n.val = 0 + n.val; omega
  | ⟨1, _⟩ => show i = i + z.val; omega
  | ⟨2, _⟩ => rfl

/-- `A` groups of `d` entries viewed as one row: entry `d * a + c` of the row is entry `c` of group `a`. -/
private theorem cast_merge' {α : Type} {N A d K : ℕ} (hK : K = A * d) (v : (⟨3, ![N, A, d]⟩ : Shape).Idx → α)
    (h : (⟨3, ![N, A, d]⟩ : Shape).ShapeCasts ⟨2, ![N, K]⟩) (n : Fin N) (k : Fin K) (a : Fin A) (c : Fin d)
    (hk : k.val = d * a.val + c.val) :
    shapeCast ⟨2, ![N, K]⟩ v h (ix2 n k) = v (ix3 n a c) := by
  refine shapeCast_apply v h _ _ ?_
  rw [Shape.rowMajor_val_three, Shape.rowMajor_val_two]
  subst hK
  show (n.val * A + a.val) * d + c.val = n.val * (A * d) + k.val
  rw [hk]
  ring

/-- The degree-3 block to rotate back. -/
theorem stage_c3 (X : FVec Ideal Cert.ReferenceIdeal.S50000x1024 .f32) (Wg : FVec Ideal Cert.ReferenceIdeal.S50000x16x16 .f32) (W0 : FVec Ideal S256x256 .f32) (b0 : FVec Ideal S256 .f32) (W1 : FVec Ideal S192x192 .f32) (W2 : FVec Ideal S128x128 .f32) (W3 : FVec Ideal S64x64 .f32)
    (v696 : FVec Ideal S400x256 .f32) (v720 : FVec Ideal S400x2x192 .f32) (v740 : FVec Ideal S400x2x128 .f32)
    (v754 : FVec Ideal S400x2x64 .f32) (p : Fin 400) (n : Fin 50000)
    (h26 : ∀ o : Fin 256, v696 (ix2 p o) = val_main_v26 (F := Ideal) X Wg W0 b0 (ix2 n o))
    (h44 : ∀ (i : Fin 2) (o : Fin 192), v720 (ix3 p i o) = val_main_v44 (F := Ideal) X Wg W1 (ix3 n i o))
    (h58 : ∀ (i : Fin 2) (o : Fin 128), v740 (ix3 p i o) = val_main_v58 (F := Ideal) X Wg W2 (ix3 n i o))
    (h66 : ∀ (i : Fin 2) (o : Fin 64), v754 (ix3 p i o) = val_main_v66 (F := Ideal) X Wg W3 (ix3 n i o))
    (ch : Fin 64) (c : Fin 7) :
    k0_pay76 (F := Ideal) v720 v740 v754 (k0_pay75 v696) (ix3 p ch c)
      = val_main_v120 (F := Ideal) X Wg W0 b0 W1 W2 W3 (ix3 n ch c) := by
  unfold k0_pay76 k0_pay75 val_main_v120
  fin_cases c
  · refine (concat_last _ _ 0 (by simp) _ rfl rfl p ch _ rfl).trans ?_
    refine Eq.trans ?_ (concat_last _ _ 0 (by simp) _ rfl rfl n ch _ rfl).symm
    unfold val_main_v113 val_main_v110 val_main_v109
    rw [cast_addLast, cast_dropMid, slice_mid, bcastInDim_addLast, cast_dropMid, slice_mid]
    exact h66 _ _
  · refine (concat_last _ _ 1 (by simp) _ rfl rfl p ch _ rfl).trans ?_
    refine Eq.trans ?_ (concat_last _ _ 1 (by simp) _ rfl rfl n ch _ rfl).symm
    unfold val_main_v114 val_main_v106 val_main_v105
    rw [cast_addLast, cast_dropMid, slice_mid, bcastInDim_addLast, cast_dropMid, slice_mid]
    exact h58 _ _
  · refine (concat_last _ _ 2 (by simp) _ rfl rfl p ch _ rfl).trans ?_
    refine Eq.trans ?_ (concat_last _ _ 2 (by simp) _ rfl rfl n ch _ rfl).symm
    unfold val_main_v115 val_main_v102 val_main_v101
    rw [cast_addLast, cast_dropMid, slice_mid, bcastInDim_addLast, cast_dropMid, slice_mid]
    exact h44 _ _
  · refine (concat_last _ _ 3 (by simp) _ rfl rfl p ch _ rfl).trans ?_
    refine Eq.trans ?_ (concat_last _ _ 3 (by simp) _ rfl rfl n ch _ rfl).symm
    unfold val_main_v116 val_main_v100
    rw [cast_addLast, slice_cols, bcastInDim_addLast, slice_cols]
    exact h26 _
  · refine (concat_last _ _ 4 (by simp) _ rfl rfl p ch _ rfl).trans ?_
    refine Eq.trans ?_ (concat_last _ _ 4 (by simp) _ rfl rfl n ch _ rfl).symm
    unfold val_main_v117 val_main_v104 val_main_v103
    rw [cast_addLast, cast_dropMid, slice_mid, bcastInDim_addLast, cast_dropMid, slice_mid]
    exact h44 _ _
  · refine (concat_last _ _ 5 (by simp) _ rfl rfl p ch _ rfl).trans ?_
    refine Eq.trans ?_ (concat_last _ _ 5 (by simp) _ rfl rfl n ch _ rfl).symm
    unfold val_main_v118 val_main_v108 val_main_v107
    rw [cast_addLast, cast_dropMid, slice_mid, bcastInDim_addLast, cast_dropMid, slice_mid]
    exact h58 _ _
  · refine (concat_last _ _ 6 (by simp) _ rfl rfl p ch _ rfl).trans ?_
    refine Eq.trans ?_ (concat_last _ _ 6 (by simp) _ rfl rfl n ch _ rfl).symm
    unfold val_main_v119 val_main_v112 val_main_v111
    rw [cast_addLast, cast_dropMid, slice_mid, bcastInDim_addLast, cast_dropMid, slice_mid]
    exact h66 _ _

/-- The result row. -/
theorem stage_final (x1 : FVec Ideal S400x16x16 .f32) (X : FVec Ideal Cert.ReferenceIdeal.S50000x1024 .f32) (Wg : FVec Ideal Cert.ReferenceIdeal.S50000x16x16 .f32) (W0 : FVec Ideal S256x256 .f32) (b0 : FVec Ideal S256 .f32) (W1 : FVec Ideal S192x192 .f32) (W2 : FVec Ideal S128x128 .f32)
    (W3 : FVec Ideal S64x64 .f32)
    (v757 : FVec Ideal S400x64 .f32) (v841 : FVec Ideal S400x192 .f32) (v1059 : FVec Ideal S400x320 .f32)
    (v696 : FVec Ideal S400x256 .f32) (v720 : FVec Ideal S400x2x192 .f32) (v740 : FVec Ideal S400x2x128 .f32)
    (v754 : FVec Ideal S400x2x64 .f32) (p : Fin 400) (n : Fin 50000)
    (hw : ∀ a b : Fin 16, x1 (ix3 p a b) = Wg (ix3 n a b))
    (h69 : ∀ q : Fin 64, v757 (ix2 p q) = val_main_v69 (F := Ideal) X Wg W0 b0 (ix2 n q))
    (h81 : ∀ q : Fin 192, v841 (ix2 p q) = val_main_v81 (F := Ideal) X Wg W0 b0 W1 (ix2 n q))
    (h99 : ∀ q : Fin 320, v1059 (ix2 p q) = val_main_v99 (F := Ideal) X Wg W0 b0 W1 W2 (ix2 n q))
    (h120 : ∀ (ch : Fin 64) (c : Fin 7), k0_pay76 (F := Ideal) v720 v740 v754 (k0_pay75 v696) (ix3 p ch c)
      = val_main_v120 (F := Ideal) X Wg W0 b0 W1 W2 W3 (ix3 n ch c))
    (q : Fin 1024) :
    k0_pay96 (F := Ideal) v757 v841 v1059 (k0_pay76 v720 v740 v754 (k0_pay75 v696)) (k0_pay77 x1) (k0_pay79 (k0_pay76 v720 v740 v754 (k0_pay75 v696)) (k0_pay77 x1) (k0_pay78 x1 v720 v740 v754 (k0_pay75 v696))) (k0_pay83 (k0_pay76 v720 v740 v754 (k0_pay75 v696)) (k0_pay77 x1) (k0_pay80 (k0_pay76 v720 v740 v754 (k0_pay75 v696)) (k0_pay77 x1)) (k0_pay81 (k0_pay76 v720 v740 v754 (k0_pay75 v696))) (k0_pay82 (k0_pay77 x1))) (k0_pay86 (k0_pay76 v720 v740 v754 (k0_pay75 v696)) (k0_pay84 (k0_pay76 v720 v740 v754 (k0_pay75 v696)) (k0_pay77 x1)) (k0_pay85 (k0_pay77 x1))) (k0_pay89 (k0_pay87 (k0_pay76 v720 v740 v754 (k0_pay75 v696)) (k0_pay77 x1)) (k0_pay88 (k0_pay76 v720 v740 v754 (k0_pay75 v696)) (k0_pay77 x1))) (k0_pay90 (k0_pay76 v720 v740 v754 (k0_pay75 v696)) (k0_pay77 x1)) (k0_pay93 (k0_pay76 v720 v740 v754 (k0_pay75 v696)) (k0_pay77 x1) (k0_pay91 (k0_pay77 x1)) (k0_pay92 (k0_pay76 v720 v740 v754 (k0_pay75 v696)))) (k0_pay94 (k0_pay76 v720 v740 v754 (k0_pay75 v696)) (k0_pay77 x1)) (k0_pay95 (k0_pay77 x1)) (ix2 p q)
      = val_main_v124 (F := Ideal) X Wg W0 b0 W1 W2 W3 (ix2 n q) := by
  unfold k0_pay96 val_main_v124
  by_cases h1 : q.val < 64
  · refine (concat_cols (K₁ := 64) _ _ 0 (by simp) _ rfl 0 rfl p q ⟨q.val, h1⟩ (by simp)).trans ?_
    refine Eq.trans ?_ (concat_cols (K₁ := 64) _ _ 0 (by simp) _ rfl 0 rfl n q ⟨q.val, h1⟩ (by simp)).symm
    exact h69 _
  by_cases h2 : q.val < 256
  · have hq : 64 + (q.val - 64) = q.val := by omega
    refine (concat_cols (K₁ := 192) _ _ 1 (by simp) _ rfl 64 rfl p q ⟨q.val - 64, by omega⟩ hq).trans ?_
    refine Eq.trans ?_ (concat_cols (K₁ := 192) _ _ 1 (by simp) _ rfl 64 rfl n q ⟨q.val - 64, by omega⟩ hq).symm
    exact h81 _
  by_cases h3 : q.val < 576
  · have hq : 256 + (q.val - 256) = q.val := by omega
    refine (concat_cols (K₁ := 320) _ _ 2 (by simp) _ rfl 256 rfl p q ⟨q.val - 256, by omega⟩ hq).trans ?_
    refine Eq.trans ?_ (concat_cols (K₁ := 320) _ _ 2 (by simp) _ rfl 256 rfl n q ⟨q.val - 256, by omega⟩ hq).symm
    exact h99 _
  · obtain ⟨ch, j, hq⟩ : ∃ (ch : Fin 64) (j : Fin 7), 576 + (7 * ch.val + j.val) = q.val :=
      ⟨⟨(q.val - 576) / 7, by have := q.isLt; omega⟩, ⟨(q.val - 576) % 7, Nat.mod_lt _ (by decide)⟩, by
        show 576 + (7 * ((q.val - 576) / 7) + (q.val - 576) % 7) = q.val
        have := Nat.div_add_mod (q.val - 576) 7
        omega⟩
    have hlt : 7 * ch.val + j.val < 448 := by have := ch.isLt; have := j.isLt; omega
    refine (concat_cols (K₁ := 448) _ _ 3 (by simp) _ rfl 576 rfl p q ⟨7 * ch.val + j.val, hlt⟩ hq).trans ?_
    refine Eq.trans ?_ (concat_cols (K₁ := 448) _ _ 3 (by simp) _ rfl 576 rfl n q ⟨7 * ch.val + j.val, hlt⟩ hq).symm
    unfold val_main_v123
    rw [cast_merge' (A := 64) (d := 7) rfl _ _ p _ ch j rfl, cast_merge' (A := 64) (d := 7) rfl _ _ n _ ch j rfl]
    have kR : ∀ a b : Fin 7, k0_pay77 (F := Ideal) x1 (ix3 p a b)
        = Wg (ix3 n ⟨9 + a.val, by omega⟩ ⟨9 + b.val, by omega⟩) := by
      intro a b
      unfold k0_pay77
      rw [slice_block, hw]
    have eL : ∀ k : Fin 7, val_main_v120 (F := Ideal) X Wg W0 b0 W1 W2 W3 (lidx_main_v122 (ix3 n ch j) k)
        = val_main_v120 (F := Ideal) X Wg W0 b0 W1 W2 W3 (ix3 n ch k) := by
      intro k
      rw [show lidx_main_v122 (ix3 n ch j) k = ix3 n ch k from
        funext fun a => by match a with | ⟨0, _⟩ => rfl | ⟨1, _⟩ => rfl | ⟨2, _⟩ => rfl]
    have eR : ∀ k : Fin 7, val_main_v121 (F := Ideal) Wg (ridx_main_v122 (ix3 n ch j) k)
        = Wg (ix3 n ⟨9 + j.val, by omega⟩ ⟨9 + k.val, by omega⟩) := by
      intro k
      unfold val_main_v121
      rw [show ridx_main_v122 (ix3 n ch j) k = ix3 n j k from
        funext fun a => by match a with | ⟨0, _⟩ => rfl | ⟨1, _⟩ => rfl | ⟨2, _⟩ => rfl]
      rw [slice_block]
    rw [val_main_v122_apply]
    simp only [Fin.sum_univ_seven, eL, eR]
    unfold k0_pay79 k0_pay78 k0_pay83 k0_pay80 k0_pay81 k0_pay82 k0_pay86 k0_pay84 k0_pay85 k0_pay89 k0_pay87 k0_pay88
      k0_pay90 k0_pay93 k0_pay91 k0_pay92 k0_pay94 k0_pay95
    fin_cases j <;>
    · refine (Eq.trans (by
        first
          | exact concat_last _ _ 0 (by simp) _ rfl rfl p ch _ rfl
          | exact concat_last _ _ 1 (by simp) _ rfl rfl p ch _ rfl
          | exact concat_last _ _ 2 (by simp) _ rfl rfl p ch _ rfl
          | exact concat_last _ _ 3 (by simp) _ rfl rfl p ch _ rfl
          | exact concat_last _ _ 4 (by simp) _ rfl rfl p ch _ rfl
          | exact concat_last _ _ 5 (by simp) _ rfl rfl p ch _ rfl
          | exact concat_last _ _ 6 (by simp) _ rfl rfl p ch _ rfl) ?_)
      simp only [cast_addLast, addf_apply, mulf_apply, cast_dropLast, slice_last, bcast_col (N := 400) (by decide),
        cast_N_N1, cast_N11_N, slice_entry, h120, kR]
      rfl

end Cert.SO2

end
-- ==== Proof.BlockRow.lean ====
import proofs.«157599_j24927990186029_1_alg».proof.Proof.Gen.KernelIdeal.Frame
import proofs.«157599_j24927990186029_1_alg».proof.Proof.RefStages
import proofs.«157599_j24927990186029_1_alg».proof.Proof.StageIn12
import proofs.«157599_j24927990186029_1_alg».proof.Proof.StageIn3
import proofs.«157599_j24927990186029_1_alg».proof.Proof.StageMix0
import proofs.«157599_j24927990186029_1_alg».proof.Proof.StageMix123
import proofs.«157599_j24927990186029_1_alg».proof.Proof.StageOut12
import proofs.«157599_j24927990186029_1_alg».proof.Proof.StageOut3
import Idealize.ShloMosaic.Lib.ValueIdx

noncomputable section

open Idealize.ShloMosaic Idealize.ShloMosaic.ValueIdx

namespace Cert.SO2

/-- One row of one block. If row `p` of the kernel's `x` block is row `n` of the whole `x` and row `p` of its Wigner block
    is row `n` of the whole Wigner array, the weights being the whole weight arrays, then row `p` of what the body stores is
    row `n` of the reference's result: both rotate each degree's 64 channels by that row's Wigner block, mix the channels
    of equal order `m` by the same weight matrices, and rotate back by the transposed block. The stages are chained in the
    order the body computes them. -/
theorem block_row (x0 : FVec Ideal Cert.KernelIdeal.S400x1024 .f32) (x1 : FVec Ideal Cert.KernelIdeal.S400x16x16 .f32)
    (X : FVec Ideal Cert.ReferenceIdeal.S50000x1024 .f32) (Wg : FVec Ideal Cert.ReferenceIdeal.S50000x16x16 .f32)
    (W0 : FVec Ideal Cert.KernelIdeal.S256x256 .f32) (b0 : FVec Ideal Cert.KernelIdeal.S256 .f32)
    (W1 : FVec Ideal Cert.KernelIdeal.S192x192 .f32) (W2 : FVec Ideal Cert.KernelIdeal.S128x128 .f32)
    (W3 : FVec Ideal Cert.KernelIdeal.S64x64 .f32)
    (p : Fin 400) (n : Fin 50000)
    (hx : ∀ k : Fin 1024, x0 (ix2 p k) = X (ix2 n k))
    (hw : ∀ a b : Fin 16, x1 (ix3 p a b) = Wg (ix3 n a b)) (q : Fin 1024) :
    Cert.KernelIdeal.Gen.out0_7 (F := Ideal) x0 x1 W0 b0 W1 W2 W3 (ix2 p q)
      = Cert.ReferenceIdeal.Stages.val_main_v124 (F := Ideal) X Wg W0 b0 W1 W2 W3 (ix2 n q) := by
  have hz1 : (![0] : Fin 1 → ℕ) = fun _ => 0 := funext fun a => by fin_cases a <;> rfl
  have hz2 : (![0, 0] : Fin 2 → ℕ) = fun _ => 0 := funext fun a => by fin_cases a <;> rfl
  have hz3 : (![0, 0, 0] : Fin 3 → ℕ) = fun _ => 0 := funext fun a => by fin_cases a <;> rfl
  unfold Cert.KernelIdeal.Gen.out0_7
  rw [View.canon_unit_zero hz2]
  simp only [View.ld_unit_zero (S := Cert.KernelIdeal.S400x1024) hz2, View.ld_unit_zero (S := Cert.KernelIdeal.S400x16x16) hz3,
    View.ld_unit_zero (S := Cert.KernelIdeal.S256x256) hz2, View.ld_unit_zero (S := Cert.KernelIdeal.S256) hz1,
    View.ld_unit_zero (S := Cert.KernelIdeal.S192x192) hz2, View.ld_unit_zero (S := Cert.KernelIdeal.S128x128) hz2,
    View.ld_unit_zero (S := Cert.KernelIdeal.S64x64) hz2]
  have h1 := stage_in0 x0 x1 X Wg p n hx
  have h5 := stage_in1 x0 x1 X Wg p n hx hw
  have h9 := stage_in2 x0 x1 X Wg p n hx hw
  have h13 := stage_in3 x0 x1 X Wg p n hx hw
  have h26 := stage_y0 X Wg W0 b0 _ _ _ _ _ _ _ _ _ _ _ _ _ _ p n h1 h5 h9 h13
  have h44 := stage_y1 X Wg W1 _ _ _ _ _ _ _ _ _ _ _ _ _ p n h5 h9 h13
  have h58 := stage_y2 X Wg W2 _ _ p n h9 h13
  have h66 := stage_y3 X Wg W3 _ p n h13
  have h69 := stage_out0 X Wg W0 b0 _ p n h26
  have h78 := stage_c1 X Wg W0 b0 W1 _ _ _ _ _ p n h26 h44
  have h81 := stage_out1 x1 X Wg W0 b0 W1 _ _ _ _ _ p n hw h78
  have h96 := stage_c2 X Wg W0 b0 W1 W2 _ _ _ p n h26 h44 h58
  have h99 := stage_out2 x1 X Wg W0 b0 W1 W2 _ _ _ p n hw h96
  have h120 := stage_c3 X Wg W0 b0 W1 W2 W3 _ _ _ _ p n h26 h44 h58 h66
  exact stage_final x1 X Wg W0 b0 W1 W2 W3 _ _ _ _ _ _ _ p n hw h69 h81 h99 h120 q

end Cert.SO2

end
-- ==== Proof.Blocks.lean ====
import proofs.«157599_j24927990186029_1_alg».proof.Proof.Gen.KernelIdeal.Value
import proofs.«157599_j24927990186029_1_alg».proof.Proof.BlockRow
import Idealize.ShloMosaic.Lib.Pipeline.Value
import Idealize.ShloMosaic.Lib.ValueIdx

/-! From the blocks to the array. The kernel cuts the rows of `x`, of the Wigner array and of the result in 125 blocks of
    400 rows, one per grid point, and sees the weights whole at every point. Since row `p` of what the body stores at
    point `t` is row `400 t + p` of the reference's result function of the argument arrays, each point writes back one
    block of that function, the blocks cover the array, and the kernel's result array ends at that function. -/

noncomputable section

namespace Cert.SO2.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps -/

/-- The row windows' block index is the grid point on the row axis and zero on the others. -/
theorem index_rows : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_7.index t (0 : Fin 2) = t.val ∧ win0_7.index t (1 : Fin 2) = 0 :=
  (by decide +kernel : ∀ t : Fin grid0.N, _)

/-- The weight windows' block index is zero at every point. -/
theorem index_weights : ∀ t : Fin cfg0.N, win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The blocks of the input windows -/

/-- Row `p` of the `x` block at point `t` is row `400 t + p` of the array. -/
theorem x_block_apply (c : Dev nD) (t : Fin cfg0.N) (p : Fin 400) (k : Fin 1024) (n : Fin 50000)
    (hn : n.val = 400 * t.val + p.val) :
    (iblk m c 0 t : Vec Ideal S400x1024 .f32) (ix2 p k)
      = (m ((c : Thread nD τ).loc main_arg0) : S50000x1024.Idx → Elt Ideal .f32) (ix2 n k) := by
  obtain ⟨e0, e1, -⟩ := index_rows t
  unfold iblk
  rw [View.read_apply]
  show V m c main_arg0 _ = m (c.tc.loc main_arg0) _
  unfold V
  congr 1
  funext a
  apply Fin.ext
  match a with
  | ⟨0, _⟩ => show win0_0.index t (0 : Fin 2) * 400 + 1 * p.val = n.val; rw [e0, hn]; omega
  | ⟨1, _⟩ => show win0_0.index t (1 : Fin 2) * 1024 + 1 * k.val = k.val; rw [e1]; omega

/-- Row `p` of the Wigner block at point `t` is row `400 t + p` of the array. -/
theorem wigner_block_apply (c : Dev nD) (t : Fin cfg0.N) (p : Fin 400) (a b : Fin 16) (n : Fin 50000)
    (hn : n.val = 400 * t.val + p.val) :
    (iblk m c 1 t : Vec Ideal S400x16x16 .f32) (ix3 p a b)
      = (m ((c : Thread nD τ).loc main_arg2) : S50000x16x16.Idx → Elt Ideal .f32) (ix3 n a b) := by
  obtain ⟨-, -, e0, e1, e2, -⟩ := index_rows t
  unfold iblk
  rw [View.read_apply]
  show V m c main_arg2 _ = m (c.tc.loc main_arg2) _
  unfold V
  congr 1
  funext d
  apply Fin.ext
  match d with
  | ⟨0, _⟩ => show win0_1.index t (0 : Fin 3) * 400 + 1 * p.val = n.val; rw [e0, hn]; omega
  | ⟨1, _⟩ => show win0_1.index t (1 : Fin 3) * 16 + 1 * a.val = a.val; rw [e1]; omega
  | ⟨2, _⟩ => show win0_1.index t (2 : Fin 3) * 16 + 1 * b.val = b.val; rw [e2]; omega

/-- The weight windows' blocks are the whole weight arrays at every point. -/
theorem w0_block (c : Dev nD) (t : Fin cfg0.N) :
    (iblk m c 2 t : Vec Ideal S256x256 .f32) = m ((c : Thread nD τ).loc main_arg3) := by
  obtain ⟨e0, e1, -⟩ := index_weights t
  funext j
  unfold iblk
  rw [View.read_apply]
  show V m c main_arg3 _ = m (c.tc.loc main_arg3) _
  unfold V
  congr 1
  funext d
  apply Fin.ext
  match d with
  | ⟨0, _⟩ => show win0_2.index t (0 : Fin 2) * 256 + 1 * (j 0).val = (j 0).val; rw [e0]; omega
  | ⟨1, _⟩ => show win0_2.index t (1 : Fin 2) * 256 + 1 * (j 1).val = (j 1).val; rw [e1]; omega

theorem b0_block (c : Dev nD) (t : Fin cfg0.N) :
    (iblk m c 3 t : Vec Ideal S256 .f32) = m ((c : Thread nD τ).loc main_arg4) := by
  obtain ⟨-, -, e0, -⟩ := index_weights t
  funext j
  unfold iblk
  rw [View.read_apply]
  show V m c main_arg4 _ = m (c.tc.loc main_arg4) _
  unfold V
  congr 1
  funext d
  apply Fin.ext
  match d with
  | ⟨0, _⟩ => show win0_3.index t (0 : Fin 1) * 256 + 1 * (j 0).val = (j 0).val; rw [e0]; omega

theorem w1_block (c : Dev nD) (t : Fin cfg0.N) :
    (iblk m c 4 t : Vec Ideal S192x192 .f32) = m ((c : Thread nD τ).loc main_arg5) := by
  obtain ⟨-, -, -, e0, e1, -⟩ := index_weights t
  funext j
  unfold iblk
  rw [View.read_apply]
  show V m c main_arg5 _ = m (c.tc.loc main_arg5) _
  unfold V
  congr 1
  funext d
  apply Fin.ext
  match d with
  | ⟨0, _⟩ => show win0_4.index t (0 : Fin 2) * 192 + 1 * (j 0).val = (j 0).val; rw [e0]; omega
  | ⟨1, _⟩ => show win0_4.index t (1 : Fin 2) * 192 + 1 * (j 1).val = (j 1).val; rw [e1]; omega

theorem w2_block (c : Dev nD) (t : Fin cfg0.N) :
    (iblk m c 5 t : Vec Ideal S128x128 .f32) = m ((c : Thread nD τ).loc main_arg6) := by
  obtain ⟨-, -, -, -, -, e0, e1, -⟩ := index_weights t
  funext j
  unfold iblk
  rw [View.read_apply]
  show V m c main_arg6 _ = m (c.tc.loc main_arg6) _
  unfold V
  congr 1
  funext d
  apply Fin.ext
  match d with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

theorem w3_block (c : Dev nD) (t : Fin cfg0.N) :
    (iblk m c 6 t : Vec Ideal S64x64 .f32) = m ((c : Thread nD τ).loc main_arg7) := by
  obtain ⟨-, -, -, -, -, -, -, e0, e1⟩ := index_weights t
  funext j
  unfold iblk
  rw [View.read_apply]
  show V m c main_arg7 _ = m (c.tc.loc main_arg7) _
  unfold V
  congr 1
  funext d
  apply Fin.ext
  match d with
  | ⟨0, _⟩ => show win0_6.index t (0 : Fin 2) * 64 + 1 * (j 0).val = (j 0).val; rw [e0]; omega
  | ⟨1, _⟩ => show win0_6.index t (1 : Fin 2) * 64 + 1 * (j 1).val = (j 1).val; rw [e1]; omega

/-! ## The whole result array -/

/-- The whole result array: the reference's result function of the argument arrays (the unused rotation argument left out). -/
abbrev G (c : Dev nD) : S50000x1024.Idx → Elt Ideal .f32 :=
  Cert.ReferenceIdeal.Stages.val_main_v124 (F := Ideal)
    (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-! ## What a point writes back -/

/-- Element `y` of what the body stores at point `t` is the element of the whole result array in row `400 t + y₀`, same column. -/
theorem stored_apply (c : Dev nD) (t : Fin cfg0.N) (y : S400x1024.Idx) (i : S50000x1024.Idx)
    (hi0 : (i 0).val = 400 * t.val + (y 0).val) (hi1 : (i 1).val = (y 1).val) :
    out0_7 (F := Ideal) (iblk m c 0 t) (iblk m c 1 t) (m ((c : Thread nD τ).loc main_arg3)) (m ((c : Thread nD τ).loc main_arg4))
        (m ((c : Thread nD τ).loc main_arg5)) (m ((c : Thread nD τ).loc main_arg6)) (m ((c : Thread nD τ).loc main_arg7)) y
      = G m c i := by
  have hq : i 1 = y 1 := Fin.ext hi1
  rw [eq_ix2 y, eq_ix2 i, hq]
  exact Cert.SO2.block_row (iblk m c 0 t) (iblk m c 1 t) _ _ _ _ _ _ _ (y 0) (i 0)
    (fun k => x_block_apply m c t (y 0) k (i 0) hi0)
    (fun a b => wigner_block_apply m c t (y 0) a b (i 0) hi0) (y 1)

/-- What point `t` writes back is block `t` of the whole result array. -/
theorem flushed_eq (c : Dev nD) (t : Fin cfg0.N) :
    (dats m 0 c).flushed 7 t = ((cfg0.win 7).blk t).view.read (Elt Ideal) (G m c) := by
  rw [Cert.KernelIdeal.Value.flushed7, w0_block, b0_block, w1_block, w2_block, w3_block]
  obtain ⟨-, -, -, -, -, e0, e1⟩ := index_rows t
  funext y
  show out0_7 (F := Ideal) _ _ _ _ _ _ _ _ = G m c (((cfg0.win 7).blk t).view.emb y)
  refine stored_apply m c t _ _ ?_ ?_
  · show win0_7.index t (0 : Fin 2) * 400 + 1 * (y 0).val = 400 * t.val + (y 0).val
    rw [e0]; omega
  · show win0_7.index t (1 : Fin 2) * 1024 + 1 * (y 1).val = (y 1).val
    rw [e1]; omega

/-! ## The blocks cover the array -/

/-- An index of the array is in point `t`'s block iff each coordinate is in the block's range on its axis. -/
theorem mem_block (t : Fin cfg0.N) (i : S50000x1024.Idx) :
    i ∈ ((cfg0.win 7).blk t).view.set ↔ ∀ a : Fin 2, win0_7.index t a * S400x1024.size a ≤ (i a).val
      ∧ (i a).val < win0_7.index t a * S400x1024.size a + S400x1024.size a := by
  show i ∈ ((View.whole main_v0).slice (win0_7.rect t)).set ↔ _
  rw [View.set_slice_whole, Rect.mem_set_unit]
  exact Iff.rfl

/-- Row `r` of the array lies in the block of point `r / 400`. -/
theorem cover (i : S50000x1024.Idx) :
    ∃ t : Fin cfg0.N, (cfg0.win 7).flush t = true ∧ i ∈ ((cfg0.win 7).blk t).view.set := by
  have hi0 : (i 0).val < 50000 := (i 0).isLt
  have hi1 : (i 1).val < 1024 := (i 1).isLt
  obtain ⟨t, ht⟩ : ∃ t : Fin cfg0.N, t.val = (i 0).val / 400 :=
    ⟨⟨(i 0).val / 400, by show (i 0).val / 400 < 125; omega⟩, rfl⟩
  obtain ⟨-, -, -, -, -, e0, e1⟩ := index_rows t
  refine ⟨t, flush0_7 t, ?_⟩
  rw [mem_block]
  intro a
  match a with
  | ⟨0, _⟩ =>
    show win0_7.index t (0 : Fin 2) * 400 ≤ (i 0).val ∧ (i 0).val < win0_7.index t (0 : Fin 2) * 400 + 400
    rw [e0, ht]; omega
  | ⟨1, _⟩ =>
    show win0_7.index t (1 : Fin 2) * 1024 ≤ (i 1).val ∧ (i 1).val < win0_7.index t (1 : Fin 2) * 1024 + 1024
    rw [e1]; omega

/-! ## The run -/

/-- The result array after the run is the whole result array. -/
theorem final7 (c : Dev nD) : (dats m 0 c).arrAt 7 cfg0.N = G m c :=
  (dats m 0 c).arrAt_eq_of_cover 7 (G m c) (fun t _ => flushed_eq m c t) cover

/-- The kernel's run: the result array ends at the reference's result function of the argument arrays, which end unchanged. -/
theorem kernel_run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final7 m c), (h c).2⟩)
    (Cert.KernelIdeal.Value.run_blocks m ρ)

end Cert.SO2.Blocks

end
-- ==== Proof.LibHostLine.lean ====
import Idealize.ShloMosaic.Lib.StableHlo.Run

/-! A run of straight-line host operations, read back one operation at a time.

Holds key k S V says that the valuation V has, at every reference listed in S, the contents listed with it, and
that every listed reference has key below k. An operation that writes one reference y whose key is at least k
leaves every listed reference alone (its key is smaller, so it is not y), and the new entry for y carries the
operation's function applied to the listed contents of its operands. -/

namespace Cert.SO2.RefRun

open Idealize.ShloMosaic Idealize.ShloMosaic.TcCoe Idealize.ShloMosaic.StableHlo

variable {τ : Topo} {sig : RefSig} {Val : EltTy → Type}

/-- A TensorCore reference together with contents of its type. -/
abbrev Entry (sig : RefSig) (Val : EltTy → Type) : Type := (r : Ref sig .tc) × r.ty.Contents Val

/-- The i-th element of a list, by structural recursion on both. -/
def nth {α : Type} : List α → Nat → Option α
  | [], _ => none
  | a :: _, 0 => some a
  | _ :: l, n + 1 => nth l n

theorem mem_of_nth {α : Type} : ∀ {l : List α} {i : Nat} {a : α}, nth l i = some a → a ∈ l
  | [], _, _, h => nomatch h
  | _ :: _, 0, _, h => by cases h; exact List.mem_cons_self
  | _ :: l, n + 1, _, h => List.mem_cons_of_mem _ (mem_of_nth (l := l) (i := n) h)

/-- The valuation has the listed contents at every listed reference, and every listed reference has key below k. -/
def Holds (key : Ref sig .tc → Nat) (k : Nat) (S : List (Entry sig Val)) (V : Valuation τ sig Val) : Prop :=
  ∀ e ∈ S, V (e.1 : DevRef τ sig) = e.2 ∧ key e.1 < k

namespace Holds

variable {key : Ref sig .tc → Nat} {k : Nat} {S : List (Entry sig Val)} {V : Valuation τ sig Val}

theorem get (h : Holds key k S V) {r : Ref sig .tc} {v : r.ty.Contents Val} (hm : (⟨r, v⟩ : Entry sig Val) ∈ S) :
    V (r : DevRef τ sig) = v := (h _ hm).1

/-- One operation that writes exactly the reference y, whose key no listed reference reaches. -/
theorem step (h : Holds key k S V) (op : HloOp τ sig Val) (y : Ref sig .tc) (hw : op.writes = {(y : DevRef τ sig)})
    {k' : Nat} (hk : k ≤ key y) (hk' : key y < k') {vy : y.ty.Contents Val} (hv : op.result V (y : DevRef τ sig) = vy) :
    Holds key k' (⟨y, vy⟩ :: S) (op.result V) := by
  intro e he
  rcases List.mem_cons.mp he with rfl | he
  · exact ⟨hv, hk'⟩
  · have hlt : key e.1 < key y := Nat.lt_of_lt_of_le (h e he).2 hk
    have hne : e.1 ≠ y := fun heq => by rw [heq] at hlt; exact Nat.lt_irrefl _ hlt
    refine ⟨?_, Nat.lt_trans hlt hk'⟩
    rw [op.result_of_not_mem V (by rw [hw, Finset.mem_singleton]; exact devRef_ne_of_ne hne)]
    exact (h e he).1

theorem unary (h : Holds key k S V) {x y : Ref sig .tc} {f : x.ty.Contents Val → y.ty.Contents Val} {hx hy}
    {vx : x.ty.Contents Val} (hmx : (⟨x, vx⟩ : Entry sig Val) ∈ S)
    {k' : Nat} (hk : k ≤ key y) (hk' : key y < k') {vy : y.ty.Contents Val} (hv : f vx = vy) :
    Holds key k' (⟨y, vy⟩ :: S) ((StableHlo.unary (τ := τ) x y f hx hy).result V) :=
  h.step _ y rfl hk hk' (by rw [unary_result, h.get hmx]; exact hv)

theorem binary (h : Holds key k S V) {a b y : Ref sig .tc} {f : a.ty.Contents Val → b.ty.Contents Val → y.ty.Contents Val}
    {ha hb hy} {va : a.ty.Contents Val} {vb : b.ty.Contents Val}
    (hma : (⟨a, va⟩ : Entry sig Val) ∈ S) (hmb : (⟨b, vb⟩ : Entry sig Val) ∈ S)
    {k' : Nat} (hk : k ≤ key y) (hk' : key y < k') {vy : y.ty.Contents Val} (hv : f va vb = vy) :
    Holds key k' (⟨y, vy⟩ :: S) ((StableHlo.binary (τ := τ) a b y f ha hb hy).result V) :=
  h.step _ y rfl hk hk' (by rw [binary_result, h.get hma, h.get hmb]; exact hv)

theorem reshape (h : Holds key k S V) {x y : Ref sig .tc} {he : x.ty.elt = y.ty.elt} {hn : x.ty.shape.ShapeCasts y.ty.shape}
    {hx hy} {vx : x.ty.Contents Val} (hmx : (⟨x, vx⟩ : Entry sig Val) ∈ S)
    {k' : Nat} (hk : k ≤ key y) (hk' : key y < k') {vy : y.ty.Contents Val}
    (hv : (fun i => he ▸ shapeCast y.ty.shape vx hn i) = vy) :
    Holds key k' (⟨y, vy⟩ :: S) ((StableHlo.reshape (τ := τ) (Val := Val) x y he hn hx hy).result V) :=
  h.step _ y rfl hk hk' (by rw [reshape_result, h.get hmx]; exact hv)

theorem nil : Holds (τ := τ) key k ([] : List (Entry sig Val)) V := fun _ he => nomatch he

theorem cons {r : Ref sig .tc} {v : r.ty.Contents Val} (h0 : V (r : DevRef τ sig) = v) (hk : key r < k) (h : Holds key k S V) :
    Holds key k (⟨r, v⟩ :: S) V := by
  intro e he
  rcases List.mem_cons.mp he with rfl | he
  · exact ⟨h0, hk⟩
  · exact h e he

theorem nary3 (h : Holds key k S V) {a0 a1 a2 y : Ref sig .tc}
    {f : ((i : Fin 3) → ((![a0, a1, a2] : Fin 3 → Ref sig .tc) i).ty.Contents Val) → y.ty.Contents Val} {hxs hy}
    {v0 : a0.ty.Contents Val} {v1 : a1.ty.Contents Val} {v2 : a2.ty.Contents Val}
    (hm0 : (⟨a0, v0⟩ : Entry sig Val) ∈ S) (hm1 : (⟨a1, v1⟩ : Entry sig Val) ∈ S) (hm2 : (⟨a2, v2⟩ : Entry sig Val) ∈ S)
    {k' : Nat} (hk : k ≤ key y) (hk' : key y < k') {vy : y.ty.Contents Val}
    (hv : f (Fin.cons v0 (Fin.cons v1 (Fin.cons v2 (fun i => i.elim0)))) = vy) :
    Holds key k' (⟨y, vy⟩ :: S) ((StableHlo.nary (τ := τ) ![a0, a1, a2] y f hxs hy).result V) :=
  h.step _ y rfl hk hk' (by
    rw [nary_result, ← hv]; congr 1; funext i; fin_cases i
    · exact h.get hm0
    · exact h.get hm1
    · exact h.get hm2)

theorem nary4 (h : Holds key k S V) {a0 a1 a2 a3 y : Ref sig .tc}
    {f : ((i : Fin 4) → ((![a0, a1, a2, a3] : Fin 4 → Ref sig .tc) i).ty.Contents Val) → y.ty.Contents Val} {hxs hy}
    {v0 : a0.ty.Contents Val} {v1 : a1.ty.Contents Val} {v2 : a2.ty.Contents Val} {v3 : a3.ty.Contents Val}
    (hm0 : (⟨a0, v0⟩ : Entry sig Val) ∈ S) (hm1 : (⟨a1, v1⟩ : Entry sig Val) ∈ S) (hm2 : (⟨a2, v2⟩ : Entry sig Val) ∈ S) (hm3 : (⟨a3, v3⟩ : Entry sig Val) ∈ S)
    {k' : Nat} (hk : k ≤ key y) (hk' : key y < k') {vy : y.ty.Contents Val}
    (hv : f (Fin.cons v0 (Fin.cons v1 (Fin.cons v2 (Fin.cons v3 (fun i => i.elim0))))) = vy) :
    Holds key k' (⟨y, vy⟩ :: S) ((StableHlo.nary (τ := τ) ![a0, a1, a2, a3] y f hxs hy).result V) :=
  h.step _ y rfl hk hk' (by
    rw [nary_result, ← hv]; congr 1; funext i; fin_cases i
    · exact h.get hm0
    · exact h.get hm1
    · exact h.get hm2
    · exact h.get hm3)

theorem nary5 (h : Holds key k S V) {a0 a1 a2 a3 a4 y : Ref sig .tc}
    {f : ((i : Fin 5) → ((![a0, a1, a2, a3, a4] : Fin 5 → Ref sig .tc) i).ty.Contents Val) → y.ty.Contents Val} {hxs hy}
    {v0 : a0.ty.Contents Val} {v1 : a1.ty.Contents Val} {v2 : a2.ty.Contents Val} {v3 : a3.ty.Contents Val} {v4 : a4.ty.Contents Val}
    (hm0 : (⟨a0, v0⟩ : Entry sig Val) ∈ S) (hm1 : (⟨a1, v1⟩ : Entry sig Val) ∈ S) (hm2 : (⟨a2, v2⟩ : Entry sig Val) ∈ S) (hm3 : (⟨a3, v3⟩ : Entry sig Val) ∈ S) (hm4 : (⟨a4, v4⟩ : Entry sig Val) ∈ S)
    {k' : Nat} (hk : k ≤ key y) (hk' : key y < k') {vy : y.ty.Contents Val}
    (hv : f (Fin.cons v0 (Fin.cons v1 (Fin.cons v2 (Fin.cons v3 (Fin.cons v4 (fun i => i.elim0)))))) = vy) :
    Holds key k' (⟨y, vy⟩ :: S) ((StableHlo.nary (τ := τ) ![a0, a1, a2, a3, a4] y f hxs hy).result V) :=
  h.step _ y rfl hk hk' (by
    rw [nary_result, ← hv]; congr 1; funext i; fin_cases i
    · exact h.get hm0
    · exact h.get hm1
    · exact h.get hm2
    · exact h.get hm3
    · exact h.get hm4)

theorem nary7 (h : Holds key k S V) {a0 a1 a2 a3 a4 a5 a6 y : Ref sig .tc}
    {f : ((i : Fin 7) → ((![a0, a1, a2, a3, a4, a5, a6] : Fin 7 → Ref sig .tc) i).ty.Contents Val) → y.ty.Contents Val} {hxs hy}
    {v0 : a0.ty.Contents Val} {v1 : a1.ty.Contents Val} {v2 : a2.ty.Contents Val} {v3 : a3.ty.Contents Val} {v4 : a4.ty.Contents Val} {v5 : a5.ty.Contents Val} {v6 : a6.ty.Contents Val}
    (hm0 : (⟨a0, v0⟩ : Entry sig Val) ∈ S) (hm1 : (⟨a1, v1⟩ : Entry sig Val) ∈ S) (hm2 : (⟨a2, v2⟩ : Entry sig Val) ∈ S) (hm3 : (⟨a3, v3⟩ : Entry sig Val) ∈ S) (hm4 : (⟨a4, v4⟩ : Entry sig Val) ∈ S) (hm5 : (⟨a5, v5⟩ : Entry sig Val) ∈ S) (hm6 : (⟨a6, v6⟩ : Entry sig Val) ∈ S)
    {k' : Nat} (hk : k ≤ key y) (hk' : key y < k') {vy : y.ty.Contents Val}
    (hv : f (Fin.cons v0 (Fin.cons v1 (Fin.cons v2 (Fin.cons v3 (Fin.cons v4 (Fin.cons v5 (Fin.cons v6 (fun i => i.elim0)))))))) = vy) :
    Holds key k' (⟨y, vy⟩ :: S) ((StableHlo.nary (τ := τ) ![a0, a1, a2, a3, a4, a5, a6] y f hxs hy).result V) :=
  h.step _ y rfl hk hk' (by
    rw [nary_result, ← hv]; congr 1; funext i; fin_cases i
    · exact h.get hm0
    · exact h.get hm1
    · exact h.get hm2
    · exact h.get hm3
    · exact h.get hm4
    · exact h.get hm5
    · exact h.get hm6)

end Holds

/-- The fold over a concatenation is the fold over the second list from the fold over the first. -/
theorem after_append' : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

end Cert.SO2.RefRun
-- ==== Proof.RefRunB.lean ====
import proofs.«157599_j24927990186029_1_alg».proof.Proof.Gen.ReferenceIdeal
import Idealize.ShloMosaic.Lib.StableHlo.Run

noncomputable section

namespace Cert.SO2.RefRun

open Cert.ReferenceIdeal Cert.ReferenceIdeal.Gen Idealize.ShloMosaic Idealize.ShloMosaic.TcCoe Idealize.SL.Sem Idealize.ShloMosaic.StableHlo

variable {F : FTy → Type} [FloatOps F]

/-! The reference's operations, in order, in five stretches; the program is their concatenation run as one line. -/

/-- Operations 0 to 29. -/
abbrev opsA : List (HloOp τ sig (Elt F)) :=
  [ unary main_arg0 main_v0 ((extractStridedSlice S50000x64 ![0, 0] · slices_S50000x1024_S50000x64_0_0) : (⟨S50000x1024, .f32⟩ : BufTy).Contents (Elt F) → (⟨S50000x64, .f32⟩ : BufTy).Contents (Elt F)),
    reshape main_v0 main_v1 rfl shapeCasts_S50000x64_S50000x64x1,
    unary main_arg0 main_v2 ((extractStridedSlice S50000x192 ![0, 64] · slices_S50000x1024_S50000x192_0_64) : (⟨S50000x1024, .f32⟩ : BufTy).Contents (Elt F) → (⟨S50000x192, .f32⟩ : BufTy).Contents (Elt F)),
    reshape main_v2 main_v3 rfl shapeCasts_S50000x192_S50000x64x3,
    unary main_arg2 main_v4 ((extractStridedSlice S50000x3x3 ![0, 1, 1] · slices_S50000x16x16_S50000x3x3_0_1_1) : (⟨S50000x16x16, .f32⟩ : BufTy).Contents (Elt F) → (⟨S50000x3x3, .f32⟩ : BufTy).Contents (Elt F)),
    binary main_v3 main_v4 main_v5 ((fun l r => Host.dotGeneral dot_S50000x64x3_S50000x3x3_S50000x64x3_2_1_1_2_0_0 none l r) : (⟨S50000x64x3, .f32⟩ : BufTy).Contents (Elt F) → (⟨S50000x3x3, .f32⟩ : BufTy).Contents (Elt F) → (⟨S50000x64x3, .f32⟩ : BufTy).Contents (Elt F)),
    unary main_arg0 main_v6 ((extractStridedSlice S50000x320 ![0, 256] · slices_S50000x1024_S50000x320_0_256) : (⟨S50000x1024, .f32⟩ : BufTy).Contents (Elt F) → (⟨S50000x320, .f32⟩ : BufTy).Contents (Elt F)),
    reshape main_v6 main_v7 rfl shapeCasts_S50000x320_S50000x64x5,
    unary main_arg2 main_v8 ((extractStridedSlice S50000x5x5 ![0, 4, 4] · slices_S50000x16x16_S50000x5x5_0_4_4) : (⟨S50000x16x16, .f32⟩ : BufTy).Contents (Elt F) → (⟨S50000x5x5, .f32⟩ : BufTy).Contents (Elt F)),
    binary main_v7 main_v8 main_v9 ((fun l r => Host.dotGeneral dot_S50000x64x5_S50000x5x5_S50000x64x5_2_1_1_2_0_0 none l r) : (⟨S50000x64x5, .f32⟩ : BufTy).Contents (Elt F) → (⟨S50000x5x5, .f32⟩ : BufTy).Contents (Elt F) → (⟨S50000x64x5, .f32⟩ : BufTy).Contents (Elt F)),
    unary main_arg0 main_v10 ((extractStridedSlice S50000x448 ![0, 576] · slices_S50000x1024_S50000x448_0_576) : (⟨S50000x1024, .f32⟩ : BufTy).Contents (Elt F) → (⟨S50000x448, .f32⟩ : BufTy).Contents (Elt F)),
    reshape main_v10 main_v11 rfl shapeCasts_S50000x448_S50000x64x7,
    unary main_arg2 main_v12 ((extractStridedSlice S50000x7x7 ![0, 9, 9] · slices_S50000x16x16_S50000x7x7_0_9_9) : (⟨S50000x16x16, .f32⟩ : BufTy).Contents (Elt F) → (⟨S50000x7x7, .f32⟩ : BufTy).Contents (Elt F)),
    binary main_v11 main_v12 main_v13 ((fun l r => Host.dotGeneral dot_S50000x64x7_S50000x7x7_S50000x64x7_2_1_1_2_0_0 none l r) : (⟨S50000x64x7, .f32⟩ : BufTy).Contents (Elt F) → (⟨S50000x7x7, .f32⟩ : BufTy).Contents (Elt F) → (⟨S50000x64x7, .f32⟩ : BufTy).Contents (Elt F)),
    reshape main_v1 main_v14 rfl shapeCasts_S50000x64x1_S50000x64,
    unary main_v5 main_v15 ((extractStridedSlice S50000x64x1 ![0, 0, 1] · slices_S50000x64x3_S50000x64x1_0_0_1) : (⟨S50000x64x3, .f32⟩ : BufTy).Contents (Elt F) → (⟨S50000x64x1, .f32⟩ : BufTy).Contents (Elt F)),
    reshape main_v15 main_v16 rfl shapeCasts_S50000x64x1_S50000x64,
    unary main_v9 main_v17 ((extractStridedSlice S50000x64x1 ![0, 0, 2] · slices_S50000x64x5_S50000x64x1_0_0_2) : (⟨S50000x64x5, .f32⟩ : BufTy).Contents (Elt F) → (⟨S50000x64x1, .f32⟩ : BufTy).Contents (Elt F)),
    reshape main_v17 main_v18 rfl shapeCasts_S50000x64x1_S50000x64,
    unary main_v13 main_v19 ((extractStridedSlice S50000x64x1 ![0, 0, 3] · slices_S50000x64x7_S50000x64x1_0_0_3) : (⟨S50000x64x7, .f32⟩ : BufTy).Contents (Elt F) → (⟨S50000x64x1, .f32⟩ : BufTy).Contents (Elt F)),
    reshape main_v19 main_v20 rfl shapeCasts_S50000x64x1_S50000x64,
    nary ![main_v14, main_v16, main_v18, main_v20] main_v21 (fun u => concatenate S50000x256 1 [⟨S50000x64, u 0⟩, ⟨S50000x64, u 1⟩, ⟨S50000x64, u 2⟩, ⟨S50000x64, u 3⟩] concatenates_S50000x64_S50000x64_S50000x64_S50000x64_S50000x256_d1),
    unary main_arg3 main_v22 ((transpose S256x256 [1, 0] · transposes_S256x256_S256x256_1_0) : (⟨S256x256, .f32⟩ : BufTy).Contents (Elt F) → (⟨S256x256, .f32⟩ : BufTy).Contents (Elt F)),
    binary main_v21 main_v22 main_v23 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v24 (broadcastInDim S1x256 ![1] bcast_S256_S1x256_1 : (⟨S256, .f32⟩ : BufTy).Contents (Elt F) → (⟨S1x256, .f32⟩ : BufTy).Contents (Elt F)),
    unary main_v24 main_v25 (broadcastInDim S50000x256 ![0, 1] bcast_S1x256_S50000x256_0_1 : (⟨S1x256, .f32⟩ : BufTy).Contents (Elt F) → (⟨S50000x256, .f32⟩ : BufTy).Contents (Elt F)),
    binary main_v23 main_v25 main_v26 (addf : (⟨S50000x256, .f32⟩ : BufTy).Contents (Elt F) → (⟨S50000x256, .f32⟩ : BufTy).Contents (Elt F) → (⟨S50000x256, .f32⟩ : BufTy).Contents (Elt F)),
    unary main_v5 main_v27 ((extractStridedSlice S50000x64x1 ![0, 0, 0] · slices_S50000x64x3_S50000x64x1_0_0_0) : (⟨S50000x64x3, .f32⟩ : BufTy).Contents (Elt F) → (⟨S50000x64x1, .f32⟩ : BufTy).Contents (Elt F)),
    reshape main_v27 main_v28 rfl shapeCasts_S50000x64x1_S50000x64,
    unary main_v9 main_v29 ((extractStridedSlice S50000x64x1 ![0, 0, 1] · slices_S50000x64x5_S50000x64x1_0_0_1) : (⟨S50000x64x5, .f32⟩ : BufTy).Contents (Elt F) → (⟨S50000x64x1, .f32⟩ : BufTy).Contents (Elt F)) ]

theorem opsA_sub : (opsA : List (HloOp τ sig (Elt F))).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., reshape_bufs_sub .., unary_bufs_sub .., reshape_bufs_sub .., unary_bufs_sub .., reshape_bufs_sub .., unary_bufs_sub .., reshape_bufs_sub .., nary_bufs_sub .., unary_bufs_sub .., binary_bufs_sub .., unary_bufs_sub .., unary_bufs_sub .., binary_bufs_sub .., unary_bufs_sub .., reshape_bufs_sub .., unary_bufs_sub ..⟩

theorem opsA_fresh : ∀ op ∈ (opsA : List (HloOp τ sig (Elt F))), op.fresh = ∅ := by
  intro _ h; (repeat (cases h with | head => rfl | tail _ h => ?_)); exact nomatch h

/-- Operations 30 to 59. -/
abbrev opsB : List (HloOp τ sig (Elt F)) :=
  [ reshape main_v29 main_v30 rfl shapeCasts_S50000x64x1_S50000x64,
    unary main_v13 main_v31 ((extractStridedSlice S50000x64x1 ![0, 0, 2] · slices_S50000x64x7_S50000x64x1_0_0_2) : (⟨S50000x64x7, .f32⟩ : BufTy).Contents (Elt F) → (⟨S50000x64x1, .f32⟩ : BufTy).Contents (Elt F)),
    reshape main_v31 main_v32 rfl shapeCasts_S50000x64x1_S50000x64,
    nary ![main_v28, main_v30, main_v32] main_v33 (fun u => concatenate S50000x192 1 [⟨S50000x64, u 0⟩, ⟨S50000x64, u 1⟩, ⟨S50000x64, u 2⟩] concatenates_S50000x64_S50000x64_S50000x64_S50000x192_d1),
    unary main_v5 main_v34 ((extractStridedSlice S50000x64x1 ![0, 0, 2] · slices_S50000x64x3_S50000x64x1_0_0_2) : (⟨S50000x64x3, .f32⟩ : BufTy).Contents (Elt F) → (⟨S50000x64x1, .f32⟩ : BufTy).Contents (Elt F)),
    reshape main_v34 main_v35 rfl shapeCasts_S50000x64x1_S50000x64,
    unary main_v9 main_v36 ((extractStridedSlice S50000x64x1 ![0, 0, 3] · slices_S50000x64x5_S50000x64x1_0_0_3) : (⟨S50000x64x5, .f32⟩ : BufTy).Contents (Elt F) → (⟨S50000x64x1, .f32⟩ : BufTy).Contents (Elt F)),
    reshape main_v36 main_v37 rfl shapeCasts_S50000x64x1_S50000x64,
    unary main_v13 main_v38 ((extractStridedSlice S50000x64x1 ![0, 0, 4] · slices_S50000x64x7_S50000x64x1_0_0_4) : (⟨S50000x64x7, .f32⟩ : BufTy).Contents (Elt F) → (⟨S50000x64x1, .f32⟩ : BufTy).Contents (Elt F)),
    reshape main_v38 main_v39 rfl shapeCasts_S50000x64x1_S50000x64,
    nary ![main_v35, main_v37, main_v39] main_v40 (fun u => concatenate S50000x192 1 [⟨S50000x64, u 0⟩, ⟨S50000x64, u 1⟩, ⟨S50000x64, u 2⟩] concatenates_S50000x64_S50000x64_S50000x64_S50000x192_d1),
    unary main_v33 main_v41 (broadcastInDim S50000x1x192 ![0, 2] bcast_S50000x192_S50000x1x192_0_2 : (⟨S50000x192, .f32⟩ : BufTy).Contents (Elt F) → (⟨S50000x1x192, .f32⟩ : BufTy).Contents (Elt F)),
    unary main_v40 main_v42 (broadcastInDim S50000x1x192 ![0, 2] bcast_S50000x192_S50000x1x192_0_2 : (⟨S50000x192, .f32⟩ : BufTy).Contents (Elt F) → (⟨S50000x1x192, .f32⟩ : BufTy).Contents (Elt F)),
    binary main_v41 main_v42 main_v43 ((fun a b => concatenate S50000x2x192 1 [⟨S50000x1x192, a⟩, ⟨S50000x1x192, b⟩] concatenates_S50000x1x192_S50000x1x192_S50000x2x192_d1) : (⟨S50000x1x192, .f32⟩ : BufTy).Contents (Elt F) → (⟨S50000x1x192, .f32⟩ : BufTy).Contents (Elt F) → (⟨S50000x2x192, .f32⟩ : BufTy).Contents (Elt F)),
    binary main_v43 main_arg5 main_v44 ((fun l r => Host.dotGeneral dot_S50000x2x192_S192x192_S50000x2x192_2_1_01_0_n_n none l r) : (⟨S50000x2x192, .f32⟩ : BufTy).Contents (Elt F) → (⟨S192x192, .f32⟩ : BufTy).Contents (Elt F) → (⟨S50000x2x192, .f32⟩ : BufTy).Contents (Elt F)),
    unary main_v9 main_v45 ((extractStridedSlice S50000x64x1 ![0, 0, 0] · slices_S50000x64x5_S50000x64x1_0_0_0) : (⟨S50000x64x5, .f32⟩ : BufTy).Contents (Elt F) → (⟨S50000x64x1, .f32⟩ : BufTy).Contents (Elt F)),
    reshape main_v45 main_v46 rfl shapeCasts_S50000x64x1_S50000x64,
    unary main_v13 main_v47 ((extractStridedSlice S50000x64x1 ![0, 0, 1] · slices_S50000x64x7_S50000x64x1_0_0_1) : (⟨S50000x64x7, .f32⟩ : BufTy).Contents (Elt F) → (⟨S50000x64x1, .f32⟩ : BufTy).Contents (Elt F)),
    reshape main_v47 main_v48 rfl shapeCasts_S50000x64x1_S50000x64,
    binary main_v46 main_v48 main_v49 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_v9 main_v50 ((extractStridedSlice S50000x64x1 ![0, 0, 4] · slices_S50000x64x5_S50000x64x1_0_0_4) : (⟨S50000x64x5, .f32⟩ : BufTy).Contents (Elt F) → (⟨S50000x64x1, .f32⟩ : BufTy).Contents (Elt F)),
    reshape main_v50 main_v51 rfl shapeCasts_S50000x64x1_S50000x64,
    unary main_v13 main_v52 ((extractStridedSlice S50000x64x1 ![0, 0, 5] · slices_S50000x64x7_S50000x64x1_0_0_5) : (⟨S50000x64x7, .f32⟩ : BufTy).Contents (Elt F) → (⟨S50000x64x1, .f32⟩ : BufTy).Contents (Elt F)),
    reshape main_v52 main_v53 rfl shapeCasts_S50000x64x1_S50000x64,
    binary main_v51 main_v53 main_v54 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_v49 main_v55 (broadcastInDim S50000x1x128 ![0, 2] bcast_S50000x128_S50000x1x128_0_2 : (⟨S50000x128, .f32⟩ : BufTy).Contents (Elt F) → (⟨S50000x1x128, .f32⟩ : BufTy).Contents (Elt F)),
    unary main_v54 main_v56 (broadcastInDim S50000x1x128 ![0, 2] bcast_S50000x128_S50000x1x128_0_2 : (⟨S50000x128, .f32⟩ : BufTy).Contents (Elt F) → (⟨S50000x1x128, .f32⟩ : BufTy).Contents (Elt F)),
    binary main_v55 main_v56 main_v57 ((fun a b => concatenate S50000x2x128 1 [⟨S50000x1x128, a⟩, ⟨S50000x1x128, b⟩] concatenates_S50000x1x128_S50000x1x128_S50000x2x128_d1) : (⟨S50000x1x128, .f32⟩ : BufTy).Contents (Elt F) → (⟨S50000x1x128, .f32⟩ : BufTy).Contents (Elt F) → (⟨S50000x2x128, .f32⟩ : BufTy).Contents (Elt F)),
    binary main_v57 main_arg6 main_v58 ((fun l r => Host.dotGeneral dot_S50000x2x128_S128x128_S50000x2x128_2_1_01_0_n_n none l r) : (⟨S50000x2x128, .f32⟩ : BufTy).Contents (Elt F) → (⟨S128x128, .f32⟩ : BufTy).Contents (Elt F) → (⟨S50000x2x128, .f32⟩ : BufTy).Contents (Elt F)),
    unary main_v13 main_v59 ((extractStridedSlice S50000x64x1 ![0, 0, 0] · slices_S50000x64x7_S50000x64x1_0_0_0) : (⟨S50000x64x7, .f32⟩ : BufTy).Contents (Elt F) → (⟨S50000x64x1, .f32⟩ : BufTy).Contents (Elt F)) ]

theorem opsB_sub : (opsB : List (HloOp τ sig (Elt F))).Forall fun op => op.bufs ⊆ tcRefs τ sig :=
  ⟨reshape_bufs_sub .., unary_bufs_sub .., reshape_bufs_sub .., nary_bufs_sub .., unary_bufs_sub .., reshape_bufs_sub .., unary_bufs_sub .., reshape_bufs_sub .., unary_bufs_sub .., reshape_bufs_sub .., nary_bufs_sub .., unary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub ..⟩

theorem opsB_fresh : ∀ op ∈ (opsB : List (HloOp τ sig (Elt F))), op.fresh = ∅ := by
  intro _ h; (repeat (cases h with | head => rfl | tail _ h => ?_)); exact nomatch h

/-- Operations 60 to 89. -/
abbrev opsC : List (HloOp τ sig (Elt F)) :=
  [ reshape main_v59 main_v60 rfl shapeCasts_S50000x64x1_S50000x64,
    unary main_v13 main_v61 ((extractStridedSlice S50000x64x1 ![0, 0, 6] · slices_S50000x64x7_S50000x64x1_0_0_6) : (⟨S50000x64x7, .f32⟩ : BufTy).Contents (Elt F) → (⟨S50000x64x1, .f32⟩ : BufTy).Contents (Elt F)),
    reshape main_v61 main_v62 rfl shapeCasts_S50000x64x1_S50000x64,
    unary main_v60 main_v63 (broadcastInDim S50000x1x64 ![0, 2] bcast_S50000x64_S50000x1x64_0_2 : (⟨S50000x64, .f32⟩ : BufTy).Contents (Elt F) → (⟨S50000x1x64, .f32⟩ : BufTy).Contents (Elt F)),
    unary main_v62 main_v64 (broadcastInDim S50000x1x64 ![0, 2] bcast_S50000x64_S50000x1x64_0_2 : (⟨S50000x64, .f32⟩ : BufTy).Contents (Elt F) → (⟨S50000x1x64, .f32⟩ : BufTy).Contents (Elt F)),
    binary main_v63 main_v64 main_v65 ((fun a b => concatenate S50000x2x64 1 [⟨S50000x1x64, a⟩, ⟨S50000x1x64, b⟩] concatenates_S50000x1x64_S50000x1x64_S50000x2x64_d1) : (⟨S50000x1x64, .f32⟩ : BufTy).Contents (Elt F) → (⟨S50000x1x64, .f32⟩ : BufTy).Contents (Elt F) → (⟨S50000x2x64, .f32⟩ : BufTy).Contents (Elt F)),
    binary main_v65 main_arg7 main_v66 ((fun l r => Host.dotGeneral dot_S50000x2x64_S64x64_S50000x2x64_2_1_01_0_n_n none l r) : (⟨S50000x2x64, .f32⟩ : BufTy).Contents (Elt F) → (⟨S64x64, .f32⟩ : BufTy).Contents (Elt F) → (⟨S50000x2x64, .f32⟩ : BufTy).Contents (Elt F)),
    unary main_v26 main_v67 ((extractStridedSlice S50000x64 ![0, 0] · slices_S50000x256_S50000x64_0_0) : (⟨S50000x256, .f32⟩ : BufTy).Contents (Elt F) → (⟨S50000x64, .f32⟩ : BufTy).Contents (Elt F)),
    unary main_v67 main_v68 (broadcastInDim S50000x64x1 ![0, 1] bcast_S50000x64_S50000x64x1_0_1 : (⟨S50000x64, .f32⟩ : BufTy).Contents (Elt F) → (⟨S50000x64x1, .f32⟩ : BufTy).Contents (Elt F)),
    reshape main_v68 main_v69 rfl shapeCasts_S50000x64x1_S50000x64,
    unary main_v26 main_v70 ((extractStridedSlice S50000x64 ![0, 64] · slices_S50000x256_S50000x64_0_64) : (⟨S50000x256, .f32⟩ : BufTy).Contents (Elt F) → (⟨S50000x64, .f32⟩ : BufTy).Contents (Elt F)),
    unary main_v44 main_v71 ((extractStridedSlice S50000x1x64 ![0, 0, 0] · slices_S50000x2x192_S50000x1x64_0_0_0) : (⟨S50000x2x192, .f32⟩ : BufTy).Contents (Elt F) → (⟨S50000x1x64, .f32⟩ : BufTy).Contents (Elt F)),
    reshape main_v71 main_v72 rfl shapeCasts_S50000x1x64_S50000x64,
    unary main_v44 main_v73 ((extractStridedSlice S50000x1x64 ![0, 1, 0] · slices_S50000x2x192_S50000x1x64_0_1_0) : (⟨S50000x2x192, .f32⟩ : BufTy).Contents (Elt F) → (⟨S50000x1x64, .f32⟩ : BufTy).Contents (Elt F)),
    reshape main_v73 main_v74 rfl shapeCasts_S50000x1x64_S50000x64,
    unary main_v72 main_v75 (broadcastInDim S50000x64x1 ![0, 1] bcast_S50000x64_S50000x64x1_0_1 : (⟨S50000x64, .f32⟩ : BufTy).Contents (Elt F) → (⟨S50000x64x1, .f32⟩ : BufTy).Contents (Elt F)),
    unary main_v70 main_v76 (broadcastInDim S50000x64x1 ![0, 1] bcast_S50000x64_S50000x64x1_0_1 : (⟨S50000x64, .f32⟩ : BufTy).Contents (Elt F) → (⟨S50000x64x1, .f32⟩ : BufTy).Contents (Elt F)),
    unary main_v74 main_v77 (broadcastInDim S50000x64x1 ![0, 1] bcast_S50000x64_S50000x64x1_0_1 : (⟨S50000x64, .f32⟩ : BufTy).Contents (Elt F) → (⟨S50000x64x1, .f32⟩ : BufTy).Contents (Elt F)),
    nary ![main_v75, main_v76, main_v77] main_v78 (fun u => concatenate S50000x64x3 2 [⟨S50000x64x1, u 0⟩, ⟨S50000x64x1, u 1⟩, ⟨S50000x64x1, u 2⟩] concatenates_S50000x64x1_S50000x64x1_S50000x64x1_S50000x64x3_d2),
    unary main_arg2 main_v79 ((extractStridedSlice S50000x3x3 ![0, 1, 1] · slices_S50000x16x16_S50000x3x3_0_1_1) : (⟨S50000x16x16, .f32⟩ : BufTy).Contents (Elt F) → (⟨S50000x3x3, .f32⟩ : BufTy).Contents (Elt F)),
    binary main_v78 main_v79 main_v80 ((fun l r => Host.dotGeneral dot_S50000x64x3_S50000x3x3_S50000x64x3_2_2_1_1_0_0 none l r) : (⟨S50000x64x3, .f32⟩ : BufTy).Contents (Elt F) → (⟨S50000x3x3, .f32⟩ : BufTy).Contents (Elt F) → (⟨S50000x64x3, .f32⟩ : BufTy).Contents (Elt F)),
    reshape main_v80 main_v81 rfl shapeCasts_S50000x64x3_S50000x192,
    unary main_v26 main_v82 ((extractStridedSlice S50000x64 ![0, 128] · slices_S50000x256_S50000x64_0_128) : (⟨S50000x256, .f32⟩ : BufTy).Contents (Elt F) → (⟨S50000x64, .f32⟩ : BufTy).Contents (Elt F)),
    unary main_v44 main_v83 ((extractStridedSlice S50000x1x64 ![0, 0, 64] · slices_S50000x2x192_S50000x1x64_0_0_64) : (⟨S50000x2x192, .f32⟩ : BufTy).Contents (Elt F) → (⟨S50000x1x64, .f32⟩ : BufTy).Contents (Elt F)),
    reshape main_v83 main_v84 rfl shapeCasts_S50000x1x64_S50000x64,
    unary main_v44 main_v85 ((extractStridedSlice S50000x1x64 ![0, 1, 64] · slices_S50000x2x192_S50000x1x64_0_1_64) : (⟨S50000x2x192, .f32⟩ : BufTy).Contents (Elt F) → (⟨S50000x1x64, .f32⟩ : BufTy).Contents (Elt F)),
    reshape main_v85 main_v86 rfl shapeCasts_S50000x1x64_S50000x64,
    unary main_v58 main_v87 ((extractStridedSlice S50000x1x64 ![0, 0, 0] · slices_S50000x2x128_S50000x1x64_0_0_0) : (⟨S50000x2x128, .f32⟩ : BufTy).Contents (Elt F) → (⟨S50000x1x64, .f32⟩ : BufTy).Contents (Elt F)),
    reshape main_v87 main_v88 rfl shapeCasts_S50000x1x64_S50000x64,
    unary main_v58 main_v89 ((extractStridedSlice S50000x1x64 ![0, 1, 0] · slices_S50000x2x128_S50000x1x64_0_1_0) : (⟨S50000x2x128, .f32⟩ : BufTy).Contents (Elt F) → (⟨S50000x1x64, .f32⟩ : BufTy).Contents (Elt F)) ]

theorem opsC_sub : (opsC : List (HloOp τ sig (Elt F))).Forall fun op => op.bufs ⊆ tcRefs τ sig :=
  ⟨reshape_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., reshape_bufs_sub .., unary_bufs_sub .., reshape_bufs_sub .., unary_bufs_sub .., unary_bufs_sub .., unary_bufs_sub .., nary_bufs_sub .., unary_bufs_sub .., binary_bufs_sub .., reshape_bufs_sub .., unary_bufs_sub .., unary_bufs_sub .., reshape_bufs_sub .., unary_bufs_sub .., reshape_bufs_sub .., unary_bufs_sub .., reshape_bufs_sub .., unary_bufs_sub ..⟩

theorem opsC_fresh : ∀ op ∈ (opsC : List (HloOp τ sig (Elt F))), op.fresh = ∅ := by
  intro _ h; (repeat (cases h with | head => rfl | tail _ h => ?_)); exact nomatch h

/-- Operations 90 to 119. -/
abbrev opsD : List (HloOp τ sig (Elt F)) :=
  [ reshape main_v89 main_v90 rfl shapeCasts_S50000x1x64_S50000x64,
    unary main_v88 main_v91 (broadcastInDim S50000x64x1 ![0, 1] bcast_S50000x64_S50000x64x1_0_1 : (⟨S50000x64, .f32⟩ : BufTy).Contents (Elt F) → (⟨S50000x64x1, .f32⟩ : BufTy).Contents (Elt F)),
    unary main_v84 main_v92 (broadcastInDim S50000x64x1 ![0, 1] bcast_S50000x64_S50000x64x1_0_1 : (⟨S50000x64, .f32⟩ : BufTy).Contents (Elt F) → (⟨S50000x64x1, .f32⟩ : BufTy).Contents (Elt F)),
    unary main_v82 main_v93 (broadcastInDim S50000x64x1 ![0, 1] bcast_S50000x64_S50000x64x1_0_1 : (⟨S50000x64, .f32⟩ : BufTy).Contents (Elt F) → (⟨S50000x64x1, .f32⟩ : BufTy).Contents (Elt F)),
    unary main_v86 main_v94 (broadcastInDim S50000x64x1 ![0, 1] bcast_S50000x64_S50000x64x1_0_1 : (⟨S50000x64, .f32⟩ : BufTy).Contents (Elt F) → (⟨S50000x64x1, .f32⟩ : BufTy).Contents (Elt F)),
    unary main_v90 main_v95 (broadcastInDim S50000x64x1 ![0, 1] bcast_S50000x64_S50000x64x1_0_1 : (⟨S50000x64, .f32⟩ : BufTy).Contents (Elt F) → (⟨S50000x64x1, .f32⟩ : BufTy).Contents (Elt F)),
    nary ![main_v91, main_v92, main_v93, main_v94, main_v95] main_v96 (fun u => concatenate S50000x64x5 2 [⟨S50000x64x1, u 0⟩, ⟨S50000x64x1, u 1⟩, ⟨S50000x64x1, u 2⟩, ⟨S50000x64x1, u 3⟩, ⟨S50000x64x1, u 4⟩] concatenates_S50000x64x1_S50000x64x1_S50000x64x1_S50000x64x1_S50000x64x1_S50000x64x5_d2),
    unary main_arg2 main_v97 ((extractStridedSlice S50000x5x5 ![0, 4, 4] · slices_S50000x16x16_S50000x5x5_0_4_4) : (⟨S50000x16x16, .f32⟩ : BufTy).Contents (Elt F) → (⟨S50000x5x5, .f32⟩ : BufTy).Contents (Elt F)),
    binary main_v96 main_v97 main_v98 ((fun l r => Host.dotGeneral dot_S50000x64x5_S50000x5x5_S50000x64x5_2_2_1_1_0_0 none l r) : (⟨S50000x64x5, .f32⟩ : BufTy).Contents (Elt F) → (⟨S50000x5x5, .f32⟩ : BufTy).Contents (Elt F) → (⟨S50000x64x5, .f32⟩ : BufTy).Contents (Elt F)),
    reshape main_v98 main_v99 rfl shapeCasts_S50000x64x5_S50000x320,
    unary main_v26 main_v100 ((extractStridedSlice S50000x64 ![0, 192] · slices_S50000x256_S50000x64_0_192) : (⟨S50000x256, .f32⟩ : BufTy).Contents (Elt F) → (⟨S50000x64, .f32⟩ : BufTy).Contents (Elt F)),
    unary main_v44 main_v101 ((extractStridedSlice S50000x1x64 ![0, 0, 128] · slices_S50000x2x192_S50000x1x64_0_0_128) : (⟨S50000x2x192, .f32⟩ : BufTy).Contents (Elt F) → (⟨S50000x1x64, .f32⟩ : BufTy).Contents (Elt F)),
    reshape main_v101 main_v102 rfl shapeCasts_S50000x1x64_S50000x64,
    unary main_v44 main_v103 ((extractStridedSlice S50000x1x64 ![0, 1, 128] · slices_S50000x2x192_S50000x1x64_0_1_128) : (⟨S50000x2x192, .f32⟩ : BufTy).Contents (Elt F) → (⟨S50000x1x64, .f32⟩ : BufTy).Contents (Elt F)),
    reshape main_v103 main_v104 rfl shapeCasts_S50000x1x64_S50000x64,
    unary main_v58 main_v105 ((extractStridedSlice S50000x1x64 ![0, 0, 64] · slices_S50000x2x128_S50000x1x64_0_0_64) : (⟨S50000x2x128, .f32⟩ : BufTy).Contents (Elt F) → (⟨S50000x1x64, .f32⟩ : BufTy).Contents (Elt F)),
    reshape main_v105 main_v106 rfl shapeCasts_S50000x1x64_S50000x64,
    unary main_v58 main_v107 ((extractStridedSlice S50000x1x64 ![0, 1, 64] · slices_S50000x2x128_S50000x1x64_0_1_64) : (⟨S50000x2x128, .f32⟩ : BufTy).Contents (Elt F) → (⟨S50000x1x64, .f32⟩ : BufTy).Contents (Elt F)),
    reshape main_v107 main_v108 rfl shapeCasts_S50000x1x64_S50000x64,
    unary main_v66 main_v109 ((extractStridedSlice S50000x1x64 ![0, 0, 0] · slices_S50000x2x64_S50000x1x64_0_0_0) : (⟨S50000x2x64, .f32⟩ : BufTy).Contents (Elt F) → (⟨S50000x1x64, .f32⟩ : BufTy).Contents (Elt F)),
    reshape main_v109 main_v110 rfl shapeCasts_S50000x1x64_S50000x64,
    unary main_v66 main_v111 ((extractStridedSlice S50000x1x64 ![0, 1, 0] · slices_S50000x2x64_S50000x1x64_0_1_0) : (⟨S50000x2x64, .f32⟩ : BufTy).Contents (Elt F) → (⟨S50000x1x64, .f32⟩ : BufTy).Contents (Elt F)),
    reshape main_v111 main_v112 rfl shapeCasts_S50000x1x64_S50000x64,
    unary main_v110 main_v113 (broadcastInDim S50000x64x1 ![0, 1] bcast_S50000x64_S50000x64x1_0_1 : (⟨S50000x64, .f32⟩ : BufTy).Contents (Elt F) → (⟨S50000x64x1, .f32⟩ : BufTy).Contents (Elt F)),
    unary main_v106 main_v114 (broadcastInDim S50000x64x1 ![0, 1] bcast_S50000x64_S50000x64x1_0_1 : (⟨S50000x64, .f32⟩ : BufTy).Contents (Elt F) → (⟨S50000x64x1, .f32⟩ : BufTy).Contents (Elt F)),
    unary main_v102 main_v115 (broadcastInDim S50000x64x1 ![0, 1] bcast_S50000x64_S50000x64x1_0_1 : (⟨S50000x64, .f32⟩ : BufTy).Contents (Elt F) → (⟨S50000x64x1, .f32⟩ : BufTy).Contents (Elt F)),
    unary main_v100 main_v116 (broadcastInDim S50000x64x1 ![0, 1] bcast_S50000x64_S50000x64x1_0_1 : (⟨S50000x64, .f32⟩ : BufTy).Contents (Elt F) → (⟨S50000x64x1, .f32⟩ : BufTy).Contents (Elt F)),
    unary main_v104 main_v117 (broadcastInDim S50000x64x1 ![0, 1] bcast_S50000x64_S50000x64x1_0_1 : (⟨S50000x64, .f32⟩ : BufTy).Contents (Elt F) → (⟨S50000x64x1, .f32⟩ : BufTy).Contents (Elt F)),
    unary main_v108 main_v118 (broadcastInDim S50000x64x1 ![0, 1] bcast_S50000x64_S50000x64x1_0_1 : (⟨S50000x64, .f32⟩ : BufTy).Contents (Elt F) → (⟨S50000x64x1, .f32⟩ : BufTy).Contents (Elt F)),
    unary main_v112 main_v119 (broadcastInDim S50000x64x1 ![0, 1] bcast_S50000x64_S50000x64x1_0_1 : (⟨S50000x64, .f32⟩ : BufTy).Contents (Elt F) → (⟨S50000x64x1, .f32⟩ : BufTy).Contents (Elt F)) ]

theorem opsD_sub : (opsD : List (HloOp τ sig (Elt F))).Forall fun op => op.bufs ⊆ tcRefs τ sig :=
  ⟨reshape_bufs_sub .., unary_bufs_sub .., unary_bufs_sub .., unary_bufs_sub .., unary_bufs_sub .., unary_bufs_sub .., nary_bufs_sub .., unary_bufs_sub .., binary_bufs_sub .., reshape_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., unary_bufs_sub ..⟩

theorem opsD_fresh : ∀ op ∈ (opsD : List (HloOp τ sig (Elt F))), op.fresh = ∅ := by
  intro _ h; (repeat (cases h with | head => rfl | tail _ h => ?_)); exact nomatch h

/-- Operations 120 to 124. -/
abbrev opsE : List (HloOp τ sig (Elt F)) :=
  [ nary ![main_v113, main_v114, main_v115, main_v116, main_v117, main_v118, main_v119] main_v120 (fun u => concatenate S50000x64x7 2 [⟨S50000x64x1, u 0⟩, ⟨S50000x64x1, u 1⟩, ⟨S50000x64x1, u 2⟩, ⟨S50000x64x1, u 3⟩, ⟨S50000x64x1, u 4⟩, ⟨S50000x64x1, u 5⟩, ⟨S50000x64x1, u 6⟩] concatenates_S50000x64x1_S50000x64x1_S50000x64x1_S50000x64x1_S50000x64x1_S50000x64x1_S50000x64x1_S50000x64x7_d2),
    unary main_arg2 main_v121 ((extractStridedSlice S50000x7x7 ![0, 9, 9] · slices_S50000x16x16_S50000x7x7_0_9_9) : (⟨S50000x16x16, .f32⟩ : BufTy).Contents (Elt F) → (⟨S50000x7x7, .f32⟩ : BufTy).Contents (Elt F)),
    binary main_v120 main_v121 main_v122 ((fun l r => Host.dotGeneral dot_S50000x64x7_S50000x7x7_S50000x64x7_2_2_1_1_0_0 none l r) : (⟨S50000x64x7, .f32⟩ : BufTy).Contents (Elt F) → (⟨S50000x7x7, .f32⟩ : BufTy).Contents (Elt F) → (⟨S50000x64x7, .f32⟩ : BufTy).Contents (Elt F)),
    reshape main_v122 main_v123 rfl shapeCasts_S50000x64x7_S50000x448,
    nary ![main_v69, main_v81, main_v99, main_v123] main_v124 (fun u => concatenate S50000x1024 1 [⟨S50000x64, u 0⟩, ⟨S50000x192, u 1⟩, ⟨S50000x320, u 2⟩, ⟨S50000x448, u 3⟩] concatenates_S50000x64_S50000x192_S50000x320_S50000x448_S50000x1024_d1) ]

theorem opsE_sub : (opsE : List (HloOp τ sig (Elt F))).Forall fun op => op.bufs ⊆ tcRefs τ sig :=
  ⟨nary_bufs_sub .., unary_bufs_sub .., binary_bufs_sub .., reshape_bufs_sub .., nary_bufs_sub ..⟩

theorem opsE_fresh : ∀ op ∈ (opsE : List (HloOp τ sig (Elt F))), op.fresh = ∅ := by
  intro _ h; (repeat (cases h with | head => rfl | tail _ h => ?_)); exact nomatch h

/-- All 125 operations. -/
abbrev ops : List (HloOp τ sig (Elt F)) := (opsA ++ opsB) ++ ((opsC ++ opsD) ++ opsE)

set_option maxRecDepth 8192 in
set_option maxHeartbeats 4000000 in
theorem main_part0_eq (c : Dev nD) : main_part0 (F := F) c = seq (opsA ++ opsB) := rfl

set_option maxRecDepth 8192 in
set_option maxHeartbeats 4000000 in
theorem main_part1_eq (c : Dev nD) : main_part1 (F := F) c = seq (opsC ++ opsD) := rfl

set_option maxRecDepth 8192 in
theorem main_part2_eq (c : Dev nD) : main_part2 (F := F) c = seq opsE := rfl

theorem main_eq (c : Dev nD) : main (F := F) c = seq ops := by
  show (main_part0 (F := F) c >>= fun _ => main_part1 (F := F) c >>= fun _ => main_part2 (F := F) c) = _
  rw [main_part0_eq, main_part1_eq, main_part2_eq, ← seq_append, ← seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨opsA_sub, opsB_sub⟩,
    List.forall_append.mpr ⟨List.forall_append.mpr ⟨opsC_sub, opsD_sub⟩, opsE_sub⟩⟩

theorem ops_fresh : ∀ op ∈ (ops : List (HloOp τ sig (Elt F))), op.fresh = ∅ := by
  intro op h
  rcases List.mem_append.mp h with h | h
  · rcases List.mem_append.mp h with h | h
    · exact opsA_fresh op h
    · exact opsB_fresh op h
  · rcases List.mem_append.mp h with h | h
    · rcases List.mem_append.mp h with h | h
      · exact opsC_fresh op h
      · exact opsD_fresh op h
    · exact opsE_fresh op h

end Cert.SO2.RefRun

end
-- ==== Proof.RefRunC.lean ====
import proofs.«157599_j24927990186029_1_alg».proof.Proof.RefStages
import proofs.«157599_j24927990186029_1_alg».proof.Proof.LibHostLine
import proofs.«157599_j24927990186029_1_alg».proof.Proof.RefRunB

noncomputable section

namespace Cert.SO2.RefRun

open Cert.ReferenceIdeal Cert.ReferenceIdeal.Gen Idealize.ShloMosaic Idealize.ShloMosaic.TcCoe Idealize.SL.Sem Idealize.ShloMosaic.StableHlo Cert.ReferenceIdeal.Stages

variable {F : FTy → Type} [FloatOps F]

/-! The reference's line read back one operation at a time: after operation N the reference it writes holds stage N's
value of the argument arrays (the stage is by definition the operation's function of the earlier stages), and every
reference written before keeps what it held. -/

/-- Reading a reference's index in its space. -/
abbrev key : Ref sig .tc → Nat := fun r => r.idx.val

/-- The eight argument arrays. -/
abbrev S0 (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) : List (Entry sig (Elt F)) :=
  [⟨main_arg0, x0⟩, ⟨main_arg1, x1⟩, ⟨main_arg2, x2⟩, ⟨main_arg3, x3⟩, ⟨main_arg4, x4⟩, ⟨main_arg5, x5⟩, ⟨main_arg6, x6⟩, ⟨main_arg7, x7⟩]

/-- The references written through operation 29, newest first, each with its stage's value of the argument arrays. -/
abbrev SA (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) : List (Entry sig (Elt F)) :=
  ⟨main_v29, val_main_v29 (F := F) x0 x2⟩ ::
  ⟨main_v28, val_main_v28 (F := F) x0 x2⟩ ::
  ⟨main_v27, val_main_v27 (F := F) x0 x2⟩ ::
  ⟨main_v26, val_main_v26 (F := F) x0 x2 x3 x4⟩ ::
  ⟨main_v25, val_main_v25 (F := F) x4⟩ ::
  ⟨main_v24, val_main_v24 (F := F) x4⟩ ::
  ⟨main_v23, val_main_v23 (F := F) x0 x2 x3⟩ ::
  ⟨main_v22, val_main_v22 (F := F) x3⟩ ::
  ⟨main_v21, val_main_v21 (F := F) x0 x2⟩ ::
  ⟨main_v20, val_main_v20 (F := F) x0 x2⟩ ::
  ⟨main_v19, val_main_v19 (F := F) x0 x2⟩ ::
  ⟨main_v18, val_main_v18 (F := F) x0 x2⟩ ::
  ⟨main_v17, val_main_v17 (F := F) x0 x2⟩ ::
  ⟨main_v16, val_main_v16 (F := F) x0 x2⟩ ::
  ⟨main_v15, val_main_v15 (F := F) x0 x2⟩ ::
  ⟨main_v14, val_main_v14 (F := F) x0⟩ ::
  ⟨main_v13, val_main_v13 (F := F) x0 x2⟩ ::
  ⟨main_v12, val_main_v12 (F := F) x2⟩ ::
  ⟨main_v11, val_main_v11 (F := F) x0⟩ ::
  ⟨main_v10, val_main_v10 (F := F) x0⟩ ::
  ⟨main_v9, val_main_v9 (F := F) x0 x2⟩ ::
  ⟨main_v8, val_main_v8 (F := F) x2⟩ ::
  ⟨main_v7, val_main_v7 (F := F) x0⟩ ::
  ⟨main_v6, val_main_v6 (F := F) x0⟩ ::
  ⟨main_v5, val_main_v5 (F := F) x0 x2⟩ ::
  ⟨main_v4, val_main_v4 (F := F) x2⟩ ::
  ⟨main_v3, val_main_v3 (F := F) x0⟩ ::
  ⟨main_v2, val_main_v2 (F := F) x0⟩ ::
  ⟨main_v1, val_main_v1 (F := F) x0⟩ ::
  ⟨main_v0, val_main_v0 (F := F) x0⟩ ::
  S0 x0 x1 x2 x3 x4 x5 x6 x7

theorem holdsA (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) (V : Valuation τ sig (Elt F))
    (h : Holds key 8 (S0 x0 x1 x2 x3 x4 x5 x6 x7) V) : Holds key 38 (SA x0 x1 x2 x3 x4 x5 x6 x7) (after opsA V) := by
  simp only [opsA, after_cons, after_nil]
  refine Holds.unary (k := 37) ?_ (mem_of_nth (i := 19) rfl) (by decide) (by decide) rfl
  refine Holds.reshape (k := 36) ?_ (mem_of_nth (i := 0) rfl) (by decide) (by decide) rfl
  refine Holds.unary (k := 35) ?_ (mem_of_nth (i := 21) rfl) (by decide) (by decide) rfl
  refine Holds.binary (k := 34) ?_ (mem_of_nth (i := 2) rfl) (mem_of_nth (i := 0) rfl) (by decide) (by decide) rfl
  refine Holds.unary (k := 33) ?_ (mem_of_nth (i := 0) rfl) (by decide) (by decide) rfl
  refine Holds.unary (k := 32) ?_ (mem_of_nth (i := 28) rfl) (by decide) (by decide) rfl
  refine Holds.binary (k := 31) ?_ (mem_of_nth (i := 1) rfl) (mem_of_nth (i := 0) rfl) (by decide) (by decide) rfl
  refine Holds.unary (k := 30) ?_ (mem_of_nth (i := 25) rfl) (by decide) (by decide) rfl
  refine Holds.nary4 (k := 29) ?_ (mem_of_nth (i := 6) rfl) (mem_of_nth (i := 4) rfl) (mem_of_nth (i := 2) rfl) (mem_of_nth (i := 0) rfl) (by decide) (by decide) rfl
  refine Holds.reshape (k := 28) ?_ (mem_of_nth (i := 0) rfl) (by decide) (by decide) rfl
  refine Holds.unary (k := 27) ?_ (mem_of_nth (i := 5) rfl) (by decide) (by decide) rfl
  refine Holds.reshape (k := 26) ?_ (mem_of_nth (i := 0) rfl) (by decide) (by decide) rfl
  refine Holds.unary (k := 25) ?_ (mem_of_nth (i := 7) rfl) (by decide) (by decide) rfl
  refine Holds.reshape (k := 24) ?_ (mem_of_nth (i := 0) rfl) (by decide) (by decide) rfl
  refine Holds.unary (k := 23) ?_ (mem_of_nth (i := 9) rfl) (by decide) (by decide) rfl
  refine Holds.reshape (k := 22) ?_ (mem_of_nth (i := 12) rfl) (by decide) (by decide) rfl
  refine Holds.binary (k := 21) ?_ (mem_of_nth (i := 1) rfl) (mem_of_nth (i := 0) rfl) (by decide) (by decide) rfl
  refine Holds.unary (k := 20) ?_ (mem_of_nth (i := 14) rfl) (by decide) (by decide) rfl
  refine Holds.reshape (k := 19) ?_ (mem_of_nth (i := 0) rfl) (by decide) (by decide) rfl
  refine Holds.unary (k := 18) ?_ (mem_of_nth (i := 10) rfl) (by decide) (by decide) rfl
  refine Holds.binary (k := 17) ?_ (mem_of_nth (i := 1) rfl) (mem_of_nth (i := 0) rfl) (by decide) (by decide) rfl
  refine Holds.unary (k := 16) ?_ (mem_of_nth (i := 10) rfl) (by decide) (by decide) rfl
  refine Holds.reshape (k := 15) ?_ (mem_of_nth (i := 0) rfl) (by decide) (by decide) rfl
  refine Holds.unary (k := 14) ?_ (mem_of_nth (i := 6) rfl) (by decide) (by decide) rfl
  refine Holds.binary (k := 13) ?_ (mem_of_nth (i := 1) rfl) (mem_of_nth (i := 0) rfl) (by decide) (by decide) rfl
  refine Holds.unary (k := 12) ?_ (mem_of_nth (i := 6) rfl) (by decide) (by decide) rfl
  refine Holds.reshape (k := 11) ?_ (mem_of_nth (i := 0) rfl) (by decide) (by decide) rfl
  refine Holds.unary (k := 10) ?_ (mem_of_nth (i := 2) rfl) (by decide) (by decide) rfl
  refine Holds.reshape (k := 9) ?_ (mem_of_nth (i := 0) rfl) (by decide) (by decide) rfl
  refine Holds.unary (k := 8) ?_ (mem_of_nth (i := 0) rfl) (by decide) (by decide) rfl
  exact h

/-- The references written through operation 59, newest first, each with its stage's value of the argument arrays. -/
abbrev SB (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) : List (Entry sig (Elt F)) :=
  ⟨main_v59, val_main_v59 (F := F) x0 x2⟩ ::
  ⟨main_v58, val_main_v58 (F := F) x0 x2 x6⟩ ::
  ⟨main_v57, val_main_v57 (F := F) x0 x2⟩ ::
  ⟨main_v56, val_main_v56 (F := F) x0 x2⟩ ::
  ⟨main_v55, val_main_v55 (F := F) x0 x2⟩ ::
  ⟨main_v54, val_main_v54 (F := F) x0 x2⟩ ::
  ⟨main_v53, val_main_v53 (F := F) x0 x2⟩ ::
  ⟨main_v52, val_main_v52 (F := F) x0 x2⟩ ::
  ⟨main_v51, val_main_v51 (F := F) x0 x2⟩ ::
  ⟨main_v50, val_main_v50 (F := F) x0 x2⟩ ::
  ⟨main_v49, val_main_v49 (F := F) x0 x2⟩ ::
  ⟨main_v48, val_main_v48 (F := F) x0 x2⟩ ::
  ⟨main_v47, val_main_v47 (F := F) x0 x2⟩ ::
  ⟨main_v46, val_main_v46 (F := F) x0 x2⟩ ::
  ⟨main_v45, val_main_v45 (F := F) x0 x2⟩ ::
  ⟨main_v44, val_main_v44 (F := F) x0 x2 x5⟩ ::
  ⟨main_v43, val_main_v43 (F := F) x0 x2⟩ ::
  ⟨main_v42, val_main_v42 (F := F) x0 x2⟩ ::
  ⟨main_v41, val_main_v41 (F := F) x0 x2⟩ ::
  ⟨main_v40, val_main_v40 (F := F) x0 x2⟩ ::
  ⟨main_v39, val_main_v39 (F := F) x0 x2⟩ ::
  ⟨main_v38, val_main_v38 (F := F) x0 x2⟩ ::
  ⟨main_v37, val_main_v37 (F := F) x0 x2⟩ ::
  ⟨main_v36, val_main_v36 (F := F) x0 x2⟩ ::
  ⟨main_v35, val_main_v35 (F := F) x0 x2⟩ ::
  ⟨main_v34, val_main_v34 (F := F) x0 x2⟩ ::
  ⟨main_v33, val_main_v33 (F := F) x0 x2⟩ ::
  ⟨main_v32, val_main_v32 (F := F) x0 x2⟩ ::
  ⟨main_v31, val_main_v31 (F := F) x0 x2⟩ ::
  ⟨main_v30, val_main_v30 (F := F) x0 x2⟩ ::
  SA x0 x1 x2 x3 x4 x5 x6 x7

theorem holdsB (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) (V : Valuation τ sig (Elt F))
    (h : Holds key 38 (SA x0 x1 x2 x3 x4 x5 x6 x7) V) : Holds key 68 (SB x0 x1 x2 x3 x4 x5 x6 x7) (after opsB V) := by
  simp only [opsB, after_cons, after_nil]
  refine Holds.unary (k := 67) ?_ (mem_of_nth (i := 45) rfl) (by decide) (by decide) rfl
  refine Holds.binary (k := 66) ?_ (mem_of_nth (i := 0) rfl) (mem_of_nth (i := 64) rfl) (by decide) (by decide) rfl
  refine Holds.binary (k := 65) ?_ (mem_of_nth (i := 1) rfl) (mem_of_nth (i := 0) rfl) (by decide) (by decide) rfl
  refine Holds.unary (k := 64) ?_ (mem_of_nth (i := 1) rfl) (by decide) (by decide) rfl
  refine Holds.unary (k := 63) ?_ (mem_of_nth (i := 5) rfl) (by decide) (by decide) rfl
  refine Holds.binary (k := 62) ?_ (mem_of_nth (i := 2) rfl) (mem_of_nth (i := 0) rfl) (by decide) (by decide) rfl
  refine Holds.reshape (k := 61) ?_ (mem_of_nth (i := 0) rfl) (by decide) (by decide) rfl
  refine Holds.unary (k := 60) ?_ (mem_of_nth (i := 38) rfl) (by decide) (by decide) rfl
  refine Holds.reshape (k := 59) ?_ (mem_of_nth (i := 0) rfl) (by decide) (by decide) rfl
  refine Holds.unary (k := 58) ?_ (mem_of_nth (i := 40) rfl) (by decide) (by decide) rfl
  refine Holds.binary (k := 57) ?_ (mem_of_nth (i := 2) rfl) (mem_of_nth (i := 0) rfl) (by decide) (by decide) rfl
  refine Holds.reshape (k := 56) ?_ (mem_of_nth (i := 0) rfl) (by decide) (by decide) rfl
  refine Holds.unary (k := 55) ?_ (mem_of_nth (i := 33) rfl) (by decide) (by decide) rfl
  refine Holds.reshape (k := 54) ?_ (mem_of_nth (i := 0) rfl) (by decide) (by decide) rfl
  refine Holds.unary (k := 53) ?_ (mem_of_nth (i := 35) rfl) (by decide) (by decide) rfl
  refine Holds.binary (k := 52) ?_ (mem_of_nth (i := 0) rfl) (mem_of_nth (i := 49) rfl) (by decide) (by decide) rfl
  refine Holds.binary (k := 51) ?_ (mem_of_nth (i := 1) rfl) (mem_of_nth (i := 0) rfl) (by decide) (by decide) rfl
  refine Holds.unary (k := 50) ?_ (mem_of_nth (i := 1) rfl) (by decide) (by decide) rfl
  refine Holds.unary (k := 49) ?_ (mem_of_nth (i := 7) rfl) (by decide) (by decide) rfl
  refine Holds.nary3 (k := 48) ?_ (mem_of_nth (i := 4) rfl) (mem_of_nth (i := 2) rfl) (mem_of_nth (i := 0) rfl) (by decide) (by decide) rfl
  refine Holds.reshape (k := 47) ?_ (mem_of_nth (i := 0) rfl) (by decide) (by decide) rfl
  refine Holds.unary (k := 46) ?_ (mem_of_nth (i := 24) rfl) (by decide) (by decide) rfl
  refine Holds.reshape (k := 45) ?_ (mem_of_nth (i := 0) rfl) (by decide) (by decide) rfl
  refine Holds.unary (k := 44) ?_ (mem_of_nth (i := 26) rfl) (by decide) (by decide) rfl
  refine Holds.reshape (k := 43) ?_ (mem_of_nth (i := 0) rfl) (by decide) (by decide) rfl
  refine Holds.unary (k := 42) ?_ (mem_of_nth (i := 28) rfl) (by decide) (by decide) rfl
  refine Holds.nary3 (k := 41) ?_ (mem_of_nth (i := 4) rfl) (mem_of_nth (i := 2) rfl) (mem_of_nth (i := 0) rfl) (by decide) (by decide) rfl
  refine Holds.reshape (k := 40) ?_ (mem_of_nth (i := 0) rfl) (by decide) (by decide) rfl
  refine Holds.unary (k := 39) ?_ (mem_of_nth (i := 17) rfl) (by decide) (by decide) rfl
  refine Holds.reshape (k := 38) ?_ (mem_of_nth (i := 0) rfl) (by decide) (by decide) rfl
  exact h

/-- The references written through operation 89, newest first, each with its stage's value of the argument arrays. -/
abbrev SC (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) : List (Entry sig (Elt F)) :=
  ⟨main_v89, val_main_v89 (F := F) x0 x2 x6⟩ ::
  ⟨main_v88, val_main_v88 (F := F) x0 x2 x6⟩ ::
  ⟨main_v87, val_main_v87 (F := F) x0 x2 x6⟩ ::
  ⟨main_v86, val_main_v86 (F := F) x0 x2 x5⟩ ::
  ⟨main_v85, val_main_v85 (F := F) x0 x2 x5⟩ ::
  ⟨main_v84, val_main_v84 (F := F) x0 x2 x5⟩ ::
  ⟨main_v83, val_main_v83 (F := F) x0 x2 x5⟩ ::
  ⟨main_v82, val_main_v82 (F := F) x0 x2 x3 x4⟩ ::
  ⟨main_v81, val_main_v81 (F := F) x0 x2 x3 x4 x5⟩ ::
  ⟨main_v80, val_main_v80 (F := F) x0 x2 x3 x4 x5⟩ ::
  ⟨main_v79, val_main_v79 (F := F) x2⟩ ::
  ⟨main_v78, val_main_v78 (F := F) x0 x2 x3 x4 x5⟩ ::
  ⟨main_v77, val_main_v77 (F := F) x0 x2 x5⟩ ::
  ⟨main_v76, val_main_v76 (F := F) x0 x2 x3 x4⟩ ::
  ⟨main_v75, val_main_v75 (F := F) x0 x2 x5⟩ ::
  ⟨main_v74, val_main_v74 (F := F) x0 x2 x5⟩ ::
  ⟨main_v73, val_main_v73 (F := F) x0 x2 x5⟩ ::
  ⟨main_v72, val_main_v72 (F := F) x0 x2 x5⟩ ::
  ⟨main_v71, val_main_v71 (F := F) x0 x2 x5⟩ ::
  ⟨main_v70, val_main_v70 (F := F) x0 x2 x3 x4⟩ ::
  ⟨main_v69, val_main_v69 (F := F) x0 x2 x3 x4⟩ ::
  ⟨main_v68, val_main_v68 (F := F) x0 x2 x3 x4⟩ ::
  ⟨main_v67, val_main_v67 (F := F) x0 x2 x3 x4⟩ ::
  ⟨main_v66, val_main_v66 (F := F) x0 x2 x7⟩ ::
  ⟨main_v65, val_main_v65 (F := F) x0 x2⟩ ::
  ⟨main_v64, val_main_v64 (F := F) x0 x2⟩ ::
  ⟨main_v63, val_main_v63 (F := F) x0 x2⟩ ::
  ⟨main_v62, val_main_v62 (F := F) x0 x2⟩ ::
  ⟨main_v61, val_main_v61 (F := F) x0 x2⟩ ::
  ⟨main_v60, val_main_v60 (F := F) x0 x2⟩ ::
  SB x0 x1 x2 x3 x4 x5 x6 x7

theorem holdsC (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) (V : Valuation τ sig (Elt F))
    (h : Holds key 68 (SB x0 x1 x2 x3 x4 x5 x6 x7) V) : Holds key 98 (SC x0 x1 x2 x3 x4 x5 x6 x7) (after opsC V) := by
  simp only [opsC, after_cons, after_nil]
  refine Holds.unary (k := 97) ?_ (mem_of_nth (i := 30) rfl) (by decide) (by decide) rfl
  refine Holds.reshape (k := 96) ?_ (mem_of_nth (i := 0) rfl) (by decide) (by decide) rfl
  refine Holds.unary (k := 95) ?_ (mem_of_nth (i := 28) rfl) (by decide) (by decide) rfl
  refine Holds.reshape (k := 94) ?_ (mem_of_nth (i := 0) rfl) (by decide) (by decide) rfl
  refine Holds.unary (k := 93) ?_ (mem_of_nth (i := 40) rfl) (by decide) (by decide) rfl
  refine Holds.reshape (k := 92) ?_ (mem_of_nth (i := 0) rfl) (by decide) (by decide) rfl
  refine Holds.unary (k := 91) ?_ (mem_of_nth (i := 38) rfl) (by decide) (by decide) rfl
  refine Holds.unary (k := 90) ?_ (mem_of_nth (i := 55) rfl) (by decide) (by decide) rfl
  refine Holds.reshape (k := 89) ?_ (mem_of_nth (i := 0) rfl) (by decide) (by decide) rfl
  refine Holds.binary (k := 88) ?_ (mem_of_nth (i := 1) rfl) (mem_of_nth (i := 0) rfl) (by decide) (by decide) rfl
  refine Holds.unary (k := 87) ?_ (mem_of_nth (i := 81) rfl) (by decide) (by decide) rfl
  refine Holds.nary3 (k := 86) ?_ (mem_of_nth (i := 2) rfl) (mem_of_nth (i := 1) rfl) (mem_of_nth (i := 0) rfl) (by decide) (by decide) rfl
  refine Holds.unary (k := 85) ?_ (mem_of_nth (i := 2) rfl) (by decide) (by decide) rfl
  refine Holds.unary (k := 84) ?_ (mem_of_nth (i := 5) rfl) (by decide) (by decide) rfl
  refine Holds.unary (k := 83) ?_ (mem_of_nth (i := 2) rfl) (by decide) (by decide) rfl
  refine Holds.reshape (k := 82) ?_ (mem_of_nth (i := 0) rfl) (by decide) (by decide) rfl
  refine Holds.unary (k := 81) ?_ (mem_of_nth (i := 28) rfl) (by decide) (by decide) rfl
  refine Holds.reshape (k := 80) ?_ (mem_of_nth (i := 0) rfl) (by decide) (by decide) rfl
  refine Holds.unary (k := 79) ?_ (mem_of_nth (i := 26) rfl) (by decide) (by decide) rfl
  refine Holds.unary (k := 78) ?_ (mem_of_nth (i := 43) rfl) (by decide) (by decide) rfl
  refine Holds.reshape (k := 77) ?_ (mem_of_nth (i := 0) rfl) (by decide) (by decide) rfl
  refine Holds.unary (k := 76) ?_ (mem_of_nth (i := 0) rfl) (by decide) (by decide) rfl
  refine Holds.unary (k := 75) ?_ (mem_of_nth (i := 40) rfl) (by decide) (by decide) rfl
  refine Holds.binary (k := 74) ?_ (mem_of_nth (i := 0) rfl) (mem_of_nth (i := 73) rfl) (by decide) (by decide) rfl
  refine Holds.binary (k := 73) ?_ (mem_of_nth (i := 1) rfl) (mem_of_nth (i := 0) rfl) (by decide) (by decide) rfl
  refine Holds.unary (k := 72) ?_ (mem_of_nth (i := 1) rfl) (by decide) (by decide) rfl
  refine Holds.unary (k := 71) ?_ (mem_of_nth (i := 2) rfl) (by decide) (by decide) rfl
  refine Holds.reshape (k := 70) ?_ (mem_of_nth (i := 0) rfl) (by decide) (by decide) rfl
  refine Holds.unary (k := 69) ?_ (mem_of_nth (i := 47) rfl) (by decide) (by decide) rfl
  refine Holds.reshape (k := 68) ?_ (mem_of_nth (i := 0) rfl) (by decide) (by decide) rfl
  exact h

/-- The references written through operation 119, newest first, each with its stage's value of the argument arrays. -/
abbrev SD (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) : List (Entry sig (Elt F)) :=
  ⟨main_v119, val_main_v119 (F := F) x0 x2 x7⟩ ::
  ⟨main_v118, val_main_v118 (F := F) x0 x2 x6⟩ ::
  ⟨main_v117, val_main_v117 (F := F) x0 x2 x5⟩ ::
  ⟨main_v116, val_main_v116 (F := F) x0 x2 x3 x4⟩ ::
  ⟨main_v115, val_main_v115 (F := F) x0 x2 x5⟩ ::
  ⟨main_v114, val_main_v114 (F := F) x0 x2 x6⟩ ::
  ⟨main_v113, val_main_v113 (F := F) x0 x2 x7⟩ ::
  ⟨main_v112, val_main_v112 (F := F) x0 x2 x7⟩ ::
  ⟨main_v111, val_main_v111 (F := F) x0 x2 x7⟩ ::
  ⟨main_v110, val_main_v110 (F := F) x0 x2 x7⟩ ::
  ⟨main_v109, val_main_v109 (F := F) x0 x2 x7⟩ ::
  ⟨main_v108, val_main_v108 (F := F) x0 x2 x6⟩ ::
  ⟨main_v107, val_main_v107 (F := F) x0 x2 x6⟩ ::
  ⟨main_v106, val_main_v106 (F := F) x0 x2 x6⟩ ::
  ⟨main_v105, val_main_v105 (F := F) x0 x2 x6⟩ ::
  ⟨main_v104, val_main_v104 (F := F) x0 x2 x5⟩ ::
  ⟨main_v103, val_main_v103 (F := F) x0 x2 x5⟩ ::
  ⟨main_v102, val_main_v102 (F := F) x0 x2 x5⟩ ::
  ⟨main_v101, val_main_v101 (F := F) x0 x2 x5⟩ ::
  ⟨main_v100, val_main_v100 (F := F) x0 x2 x3 x4⟩ ::
  ⟨main_v99, val_main_v99 (F := F) x0 x2 x3 x4 x5 x6⟩ ::
  ⟨main_v98, val_main_v98 (F := F) x0 x2 x3 x4 x5 x6⟩ ::
  ⟨main_v97, val_main_v97 (F := F) x2⟩ ::
  ⟨main_v96, val_main_v96 (F := F) x0 x2 x3 x4 x5 x6⟩ ::
  ⟨main_v95, val_main_v95 (F := F) x0 x2 x6⟩ ::
  ⟨main_v94, val_main_v94 (F := F) x0 x2 x5⟩ ::
  ⟨main_v93, val_main_v93 (F := F) x0 x2 x3 x4⟩ ::
  ⟨main_v92, val_main_v92 (F := F) x0 x2 x5⟩ ::
  ⟨main_v91, val_main_v91 (F := F) x0 x2 x6⟩ ::
  ⟨main_v90, val_main_v90 (F := F) x0 x2 x6⟩ ::
  SC x0 x1 x2 x3 x4 x5 x6 x7

theorem holdsD (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) (V : Valuation τ sig (Elt F))
    (h : Holds key 98 (SC x0 x1 x2 x3 x4 x5 x6 x7) V) : Holds key 128 (SD x0 x1 x2 x3 x4 x5 x6 x7) (after opsD V) := by
  simp only [opsD, after_cons, after_nil]
  refine Holds.unary (k := 127) ?_ (mem_of_nth (i := 6) rfl) (by decide) (by decide) rfl
  refine Holds.unary (k := 126) ?_ (mem_of_nth (i := 9) rfl) (by decide) (by decide) rfl
  refine Holds.unary (k := 125) ?_ (mem_of_nth (i := 12) rfl) (by decide) (by decide) rfl
  refine Holds.unary (k := 124) ?_ (mem_of_nth (i := 15) rfl) (by decide) (by decide) rfl
  refine Holds.unary (k := 123) ?_ (mem_of_nth (i := 12) rfl) (by decide) (by decide) rfl
  refine Holds.unary (k := 122) ?_ (mem_of_nth (i := 7) rfl) (by decide) (by decide) rfl
  refine Holds.unary (k := 121) ?_ (mem_of_nth (i := 2) rfl) (by decide) (by decide) rfl
  refine Holds.reshape (k := 120) ?_ (mem_of_nth (i := 0) rfl) (by decide) (by decide) rfl
  refine Holds.unary (k := 119) ?_ (mem_of_nth (i := 44) rfl) (by decide) (by decide) rfl
  refine Holds.reshape (k := 118) ?_ (mem_of_nth (i := 0) rfl) (by decide) (by decide) rfl
  refine Holds.unary (k := 117) ?_ (mem_of_nth (i := 42) rfl) (by decide) (by decide) rfl
  refine Holds.reshape (k := 116) ?_ (mem_of_nth (i := 0) rfl) (by decide) (by decide) rfl
  refine Holds.unary (k := 115) ?_ (mem_of_nth (i := 48) rfl) (by decide) (by decide) rfl
  refine Holds.reshape (k := 114) ?_ (mem_of_nth (i := 0) rfl) (by decide) (by decide) rfl
  refine Holds.unary (k := 113) ?_ (mem_of_nth (i := 46) rfl) (by decide) (by decide) rfl
  refine Holds.reshape (k := 112) ?_ (mem_of_nth (i := 0) rfl) (by decide) (by decide) rfl
  refine Holds.unary (k := 111) ?_ (mem_of_nth (i := 58) rfl) (by decide) (by decide) rfl
  refine Holds.reshape (k := 110) ?_ (mem_of_nth (i := 0) rfl) (by decide) (by decide) rfl
  refine Holds.unary (k := 109) ?_ (mem_of_nth (i := 56) rfl) (by decide) (by decide) rfl
  refine Holds.unary (k := 108) ?_ (mem_of_nth (i := 73) rfl) (by decide) (by decide) rfl
  refine Holds.reshape (k := 107) ?_ (mem_of_nth (i := 0) rfl) (by decide) (by decide) rfl
  refine Holds.binary (k := 106) ?_ (mem_of_nth (i := 1) rfl) (mem_of_nth (i := 0) rfl) (by decide) (by decide) rfl
  refine Holds.unary (k := 105) ?_ (mem_of_nth (i := 99) rfl) (by decide) (by decide) rfl
  refine Holds.nary5 (k := 104) ?_ (mem_of_nth (i := 4) rfl) (mem_of_nth (i := 3) rfl) (mem_of_nth (i := 2) rfl) (mem_of_nth (i := 1) rfl) (mem_of_nth (i := 0) rfl) (by decide) (by decide) rfl
  refine Holds.unary (k := 103) ?_ (mem_of_nth (i := 4) rfl) (by decide) (by decide) rfl
  refine Holds.unary (k := 102) ?_ (mem_of_nth (i := 7) rfl) (by decide) (by decide) rfl
  refine Holds.unary (k := 101) ?_ (mem_of_nth (i := 10) rfl) (by decide) (by decide) rfl
  refine Holds.unary (k := 100) ?_ (mem_of_nth (i := 7) rfl) (by decide) (by decide) rfl
  refine Holds.unary (k := 99) ?_ (mem_of_nth (i := 2) rfl) (by decide) (by decide) rfl
  refine Holds.reshape (k := 98) ?_ (mem_of_nth (i := 0) rfl) (by decide) (by decide) rfl
  exact h

/-- The references written through operation 124, newest first, each with its stage's value of the argument arrays. -/
abbrev SE (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) : List (Entry sig (Elt F)) :=
  ⟨main_v124, val_main_v124 (F := F) x0 x2 x3 x4 x5 x6 x7⟩ ::
  ⟨main_v123, val_main_v123 (F := F) x0 x2 x3 x4 x5 x6 x7⟩ ::
  ⟨main_v122, val_main_v122 (F := F) x0 x2 x3 x4 x5 x6 x7⟩ ::
  ⟨main_v121, val_main_v121 (F := F) x2⟩ ::
  ⟨main_v120, val_main_v120 (F := F) x0 x2 x3 x4 x5 x6 x7⟩ ::
  SD x0 x1 x2 x3 x4 x5 x6 x7

theorem holdsE (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) (V : Valuation τ sig (Elt F))
    (h : Holds key 128 (SD x0 x1 x2 x3 x4 x5 x6 x7) V) : Holds key 133 (SE x0 x1 x2 x3 x4 x5 x6 x7) (after opsE V) := by
  simp only [opsE, after_cons, after_nil]
  refine Holds.nary4 (k := 132) ?_ (mem_of_nth (i := 54) rfl) (mem_of_nth (i := 42) rfl) (mem_of_nth (i := 24) rfl) (mem_of_nth (i := 0) rfl) (by decide) (by decide) rfl
  refine Holds.reshape (k := 131) ?_ (mem_of_nth (i := 0) rfl) (by decide) (by decide) rfl
  refine Holds.binary (k := 130) ?_ (mem_of_nth (i := 1) rfl) (mem_of_nth (i := 0) rfl) (by decide) (by decide) rfl
  refine Holds.unary (k := 129) ?_ (mem_of_nth (i := 123) rfl) (by decide) (by decide) rfl
  refine Holds.nary7 (k := 128) ?_ (mem_of_nth (i := 6) rfl) (mem_of_nth (i := 5) rfl) (mem_of_nth (i := 4) rfl) (mem_of_nth (i := 3) rfl) (mem_of_nth (i := 2) rfl) (mem_of_nth (i := 1) rfl) (mem_of_nth (i := 0) rfl) (by decide) (by decide) rfl
  exact h
/-- The whole line, from any valuation that holds the argument arrays: every reference it writes ends at its stage's value,
    and the arguments are as they were. -/
theorem holds_ops (x0 : (⟨S50000x1024, .f32⟩ : BufTy).Contents (Elt F)) (x1 : (⟨S50000x3x3, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) (V : Valuation τ sig (Elt F))
    (h : Holds key 8 (S0 x0 x1 x2 x3 x4 x5 x6 x7) V) : Holds key 133 (SE x0 x1 x2 x3 x4 x5 x6 x7) (after ops V) := by
  show Holds key 133 _ (after ((opsA ++ opsB) ++ ((opsC ++ opsD) ++ opsE)) V)
  rw [after_append', after_append', after_append', after_append']
  exact holdsE x0 x1 x2 x3 x4 x5 x6 x7 _ (holdsD x0 x1 x2 x3 x4 x5 x6 x7 _ (holdsC x0 x1 x2 x3 x4 x5 x6 x7 _ (holdsB x0 x1 x2 x3 x4 x5 x6 x7 _ (holdsA x0 x1 x2 x3 x4 x5 x6 x7 V h))))

/-- The launch contents hold the argument arrays. -/
theorem holds_args (m : (ℓ : Loc nD τ sig) → Buf (Elt F) ℓ) (c : Dev nD) :
    Holds key 8 (S0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (launchContents m c) :=
  Holds.cons rfl (by decide) (Holds.cons rfl (by decide) (Holds.cons rfl (by decide) (Holds.cons rfl (by decide) (Holds.cons rfl (by decide) (Holds.cons rfl (by decide) (Holds.cons rfl (by decide) (Holds.cons rfl (by decide) (Holds.nil))))))))

end Cert.SO2.RefRun

end
-- ==== Proof.RefRun.lean ====
import proofs.«157599_j24927990186029_1_alg».proof.Proof.RefRunC

noncomputable section

namespace Cert.SO2.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's run: every weakly fair execution of its @main terminates with the result buffer at the last stage's
    value of the argument arrays (the stages composed, one host operation each) and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v124)
        = Cert.ReferenceIdeal.Stages.val_main_v124 (F := F) (m ((c.tc : Thread nD τ).loc main_arg0)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_)
    (run_seq scopedRefs_eq scopedSems_eq defs main (fun _ => ops) main_eq (fun _ => ops_sub) m ρ (fun _ => ops_fresh))
  have H := holds_ops (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (launchContents m c) (holds_args m c)
  exact ⟨(h c main_v124).trans (H.get (mem_of_nth (i := 0) rfl)),
    (h c main_arg0).trans (H.get (mem_of_nth (i := 125) rfl)),
    (h c main_arg1).trans (H.get (mem_of_nth (i := 126) rfl)),
    (h c main_arg2).trans (H.get (mem_of_nth (i := 127) rfl)),
    (h c main_arg3).trans (H.get (mem_of_nth (i := 128) rfl)),
    (h c main_arg4).trans (H.get (mem_of_nth (i := 129) rfl)),
    (h c main_arg5).trans (H.get (mem_of_nth (i := 130) rfl)),
    (h c main_arg6).trans (H.get (mem_of_nth (i := 131) rfl)),
    (h c main_arg7).trans (H.get (mem_of_nth (i := 132) rfl))⟩

end Cert.SO2.RefRun

end
-- ==== Proof.lean ====
/- The kernel maps each of 50000 rows on its own: the row's 16 spherical-harmonic coefficient vectors (degrees 0 to 3, 64
   channels each) are rotated by the row's Wigner blocks, the coefficients of equal order m are mixed across degrees and
   channels by one weight matrix per order (a bias added at order 0), and the result is rotated back by the transposed blocks.
   The kernel does this on blocks of 400 rows and the reference on the whole arrays; in exact arithmetic the bf16 casts are the
   identity and a matmul into a zero accumulator is a dot product, so row by row the two compute the same sums, and the
   blocks tile the array. -/
import proofs.«157599_j24927990186029_1_alg».proof.Defs
import proofs.«157599_j24927990186029_1_alg».proof.Proof.Gen.Kernel
import proofs.«157599_j24927990186029_1_alg».proof.Proof.Gen.Kernel.Skeleton
import proofs.«157599_j24927990186029_1_alg».proof.Proof.Gen.Kernel.Launch
import proofs.«157599_j24927990186029_1_alg».proof.Proof.Gen.Kernel.Points
import proofs.«157599_j24927990186029_1_alg».proof.Proof.Gen.Kernel.Frame
import proofs.«157599_j24927990186029_1_alg».proof.Proof.Gen.KernelIdeal
import proofs.«157599_j24927990186029_1_alg».proof.Proof.Gen.KernelIdeal.Skeleton
import proofs.«157599_j24927990186029_1_alg».proof.Proof.Gen.KernelIdeal.Launch
import proofs.«157599_j24927990186029_1_alg».proof.Proof.Gen.KernelIdeal.Points
import proofs.«157599_j24927990186029_1_alg».proof.Proof.Gen.KernelIdeal.Frame
import proofs.«157599_j24927990186029_1_alg».proof.Proof.Gen.ReferenceIdeal
import proofs.«157599_j24927990186029_1_alg».proof.Proof.Gen.Pre_finite_inputs
import proofs.«157599_j24927990186029_1_alg».proof.Proof.Gen.KernelIdeal.Value
import Idealize.ShloMosaic.Adequacy
import Idealize.ShloMosaic.Init
import proofs.«157599_j24927990186029_1_alg».proof.Proof.Blocks
import proofs.«157599_j24927990186029_1_alg».proof.Proof.RefRun

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.SO2.RefRun.run (F := Ideal) m ρ)

theorem preserves : Cert.preserves_Kernel_KernelIdeal := trivial

/-- In exact arithmetic the kernel's result array ends at the reference's result function of the kernel's argument arrays
    (block by block, each row by the one-row identity), and the reference's ends at the same function of its own argument
    arrays, which agree with the kernel's. -/
theorem algebraic : Cert.algebraic_KernelIdeal_ReferenceIdeal := by
  intro m ρ m' ρ' _ hagree
  refine ⟨fun c => Cert.SO2.Blocks.G m c, Cert.SO2.Blocks.kernel_run m ρ, ?_⟩
  refine (θ_run Cert.ReferenceIdeal.defs _ _).mono (fun _ h c => ⟨(h c).1.trans ?_, (h c).2⟩)
    (Cert.SO2.RefRun.run (F := Ideal) m' ρ')
  obtain ⟨a0, -, a2, a3, a4, a5, a6, a7⟩ := hagree c
  rw [a0, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
